-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x1024 : Shape := ⟨3, ![1024, 64, 1024]⟩
abbrev S1024 : Shape := ⟨1, ![1024]⟩
abbrev S1024x64 : Shape := ⟨2, ![1024, 64]⟩
abbrev S64 : Shape := ⟨1, ![64]⟩
abbrev S_ : Shape := ⟨0, ![]⟩

class Facts : Prop where
  bcast_S_S1024x64x1024 : S_.BroadcastsInDim S1024x64x1024 (![] : Fin 0 → Fin S1024x64x1024.rank)
  reducesTo_S1024x64x1024_S_d0_1_2 : S1024x64x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : IVec S1024x64 32) (main_arg5 : IVec S64 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 0#32
  let main_v19 : IVec S1024x64 32 := broadcastInDim S1024x64 ![] bcast_S_S1024x64 main_c_6
  let main_v20 : IVec S1024x64 1 := cmpi .sge main_arg4 main_v19
  let main_c_7 : IVec S_ 32 := constantI S_ 32 1#32
  let main_v21 : IVec S1024x64 32 := broadcastInDim S1024x64 ![] bcast_S_S1024x64 main_c_7
  let main_v22 : IVec S1024x64 1 := cmpi .sle main_arg4 main_v21
  let main_v23 : IVec S1024x64 1 := andi main_v20 main_v22
  let main_c_8 : IVec S_ 1 := constantI S_ 1 1#1
  let main_v24 : IVec S_ 1 := (fun x v => Host.reduce IntOp.andi x v reducesTo_S1024x64_S_d0_1 h_S_) main_v23 main_c_8
  let main_v25 : IVec S_ 1 := andi main_v18 main_v24
  let main_c_9 : IVec S_ 32 := constantI S_ 32 4294967295#32
  let main_v26 : IVec S64 32 := broadcastInDim S64 ![] bcast_S_S64 main_c_9
  let main_v27 : IVec S64 1 := cmpi .sge main_arg5 main_v26
  let main_c_10 : IVec S_ 32 := constantI S_ 32 1#32
  let main_v28 : IVec S64 32 := broadcastInDim S64 ![] bcast_S_S64 main_c_10
  let main_v29 : IVec S64 1 := cmpi .sle main_arg5 main_v28
  let main_v30 : IVec S64 1 := andi main_v27 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v25 main_v31
  main_v32

def fn {F : FTy → Type} [FloatOps F] (main_arg0 : FVec F S1024x64x1024 .f32) (main_arg1 : FVec F S1024x64x1024 .f32) (main_arg2 : FVec F S1024 .f32) (main_arg3 : FVec F S1024 .f32) (main_arg4 : IVec S1024x64 32) (main_arg5 : IVec S64 32) : IVec S_ 1 :=
  let main_v0 : FVec F S1024x64x1024 .f32 := Host.absf main_arg0
  let main_cst : FVec F S_ .f32 := constant S_ .f32 0x7F800000#32
  let main_v1 : FVec F S1024x64x1024 .f32 := broadcastInDim S1024x64x1024 ![] bcast_S_S1024x64x1024 main_cst
  let main_v2 : IVec S1024x64x1024 1 := cmpf .olt main_v0 main_v1
  let main_c : IVec S_ 1 := constantI S_ 1 1#1
  let main_v3 : IVec S_ 1 := (fun x v => Host.reduce IntOp.andi x v reducesTo_S1024x64x1024_S_d0_1_2 h_S_) main_v2 main_c
  let main_v4 : FVec F S1024x64x1024 .f32 := Host.absf main_arg1
  let main_cst_0 : FVec F S_ .f32 := constant S_ .f32 0x7F800000#32
  let main_v5 : FVec F S1024x64x1024 .f32 := broadcastInDim S1024x64x1024 ![] bcast_S_S1024x64x1024 main_cst_0
  let main_v6 : IVec S1024x64x1024 1 := cmpf .olt main_v4 main_v5
  let main_c_1 : IVec S_ 1 := constantI S_ 1 1#1
  let main_v7 : IVec S_ 1 := (fun x v => Host.reduce IntOp.andi x v reducesTo_S1024x64x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S1024x64x1024 : Shape := ⟨3, ![1024, 64, 1024]⟩
abbrev S1024 : Shape := ⟨1, ![1024]⟩
abbrev S1024x64 : Shape := ⟨2, ![1024, 64]⟩
abbrev S64 : Shape := ⟨1, ![64]⟩
abbrev S_ : Shape := ⟨0, ![]⟩
abbrev S64x1024 : Shape := ⟨2, ![64, 1024]⟩
abbrev S8x1024 : Shape := ⟨2, ![8, 1024]⟩
abbrev S2x1024 : Shape := ⟨2, ![2, 1024]⟩
abbrev S2 : Shape := ⟨1, ![2]⟩
abbrev S1 : Shape := ⟨1, ![1]⟩
abbrev S1x1024 : Shape := ⟨2, ![1, 1024]⟩
abbrev S1x1x1024 : Shape := ⟨3, ![1, 1, 1024]⟩

abbrev nBuf : Space → Nat
  | .hbm => 52
  | .vmem => 8
  | .smem => 2
  | _ => 0

abbrev bufTy : (tb : Table) → Fin (tcTables nBuf tb) → BufTy
  | .hbm, ⟨0, _⟩ => ⟨S1024x64x1024, .f32⟩
  | .hbm, ⟨1, _⟩ => ⟨S1024x64x1024, .f32⟩
  | .hbm, ⟨2, _⟩ => ⟨S1024, .f32⟩
  | .hbm, ⟨3, _⟩ => ⟨S1024, .f32⟩
  | .hbm, ⟨4, _⟩ => ⟨S1024x64, .i32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S_, .i32⟩
  | .hbm, ⟨20, _⟩ => ⟨S64, .i32⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i1⟩
  | .hbm, ⟨25, _⟩ => ⟨S_, .i32⟩
  | .hbm, ⟨26, _⟩ => ⟨S_, .i1⟩
  | .hbm, ⟨27, _⟩ => ⟨S64, .i1⟩
  | .hbm, ⟨28, _⟩ => ⟨S64, .i1⟩
  | .hbm, ⟨29, _⟩ => ⟨S64, .i1⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64, .i32⟩
  | .hbm, ⟨34, _⟩ => ⟨S_, .i32⟩
  | .hbm, ⟨35, _⟩ => ⟨S64, .i32⟩
  | .hbm, ⟨36, _⟩ => ⟨S64, .i1⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S_, .i32⟩
  | .hbm, ⟨42, _⟩ => ⟨S64, .i32⟩
  | .hbm, ⟨43, _⟩ => ⟨S64, .i1⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S_, .i32⟩
  | .hbm, ⟨48, _⟩ => ⟨S_, .i32⟩
  | .hbm, ⟨49, _⟩ => ⟨S64, .i32⟩
  | .hbm, ⟨50, _⟩ => ⟨S64x1024, .f32⟩
  | .hbm, ⟨51, _⟩ => ⟨S64x1024, .f32⟩
  | .local _ .vmem, ⟨0, _⟩ => ⟨S1024, .f32⟩
  | .local _ .vmem, ⟨1, _⟩ => ⟨S1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S2x1024, .f32⟩
  | .local _ .vmem, ⟨7, _⟩ => ⟨S2x1024, .f32⟩
  | .local _ .smem, ⟨0, _⟩ => ⟨S64, .i32⟩
  | .local _ .smem, ⟨1, _⟩ => ⟨S64, .i32⟩
  | _, _ => ⟨S1024x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_c_0 : Ref sig .tc := ⟨.hbm, 8, rfl⟩
abbrev main_call0_v1 : Ref sig .tc := ⟨.hbm, 9, rfl⟩
abbrev main_call0_v2 : Ref sig .tc := ⟨.hbm, 10, rfl⟩
abbrev main_call0_c_1 : Ref sig .tc := ⟨.hbm, 11, rfl⟩
abbrev main_call0_call0_v0 : Ref sig .tc := ⟨.hbm, 12, rfl⟩
abbrev main_call0_call0_c : Ref sig .tc := ⟨.hbm, 13, rfl⟩
abbrev main_call0_call0_v1 : Ref sig .tc := ⟨.hbm, 14, rfl⟩
abbrev main_call0_call0_c_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_c_1 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_c_2 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_c_3 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_v3 : Ref sig .tc := ⟨.hbm, 32, rfl⟩
abbrev main_call0_v4 : Ref sig .tc := ⟨.hbm, 33, rfl⟩
abbrev main_call0_c_2 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_c_3 : Ref sig .tc := ⟨.hbm, 38, rfl⟩
abbrev main_call0_v8 : Ref sig .tc := ⟨.hbm, 39, rfl⟩
abbrev main_call0_v9 : Ref sig .tc := ⟨.hbm, 40, rfl⟩
abbrev main_call0_c_4 : Ref sig .tc := ⟨.hbm, 41, rfl⟩
abbrev main_call0_v11 : Ref sig .tc := ⟨.hbm, 42, rfl⟩
abbrev main_call0_v12 : Ref sig .tc := ⟨.hbm, 43, rfl⟩
abbrev main_call0_c_5 : Ref sig .tc := ⟨.hbm, 44, rfl⟩
abbrev main_call0_v13 : Ref sig .tc := ⟨.hbm, 45, rfl⟩
abbrev main_call0_v14 : Ref sig .tc := ⟨.hbm, 46, rfl⟩
abbrev main_call0_c_6 : Ref sig .tc := ⟨.hbm, 47, rfl⟩
abbrev main_call0_call2_v0 : Ref sig .tc := ⟨.hbm, 48, rfl⟩
abbrev main_call0_call2_v1 : Ref sig .tc := ⟨.hbm, 49, rfl⟩
abbrev main_v0_0 : Ref sig .tc := ⟨.hbm, 50, rfl⟩
abbrev main_v0_1 : Ref sig .tc := ⟨.hbm, 51, rfl⟩
abbrev main_call0_v15 : Ref sig .tc := ⟨.smem, 0, rfl⟩
abbrev main_call0_v10 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_call0_v15.idx, main_call0_v10.idx], fun | 0 => main_call0_v15.names | 1 => main_call0_v10.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v4 : Index := Scalar.indexCast v3
  ![v4.toNat]
def k0_off2 (i : grid0.Coords) (v5 : BitVec 32) : Fin 3 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let c0_i32_4 : BitVec 32 := 0#32
  ![v5.toNat, v3.toNat, 0]

def k0_chk1 (i : grid0.Coords) (v5 : BitVec 32) : Prop :=
  (∀ a, (k0_off2 i v5) a + S1x1x1024.size a ≤ S1024x64x1024.size a)
instance k0_chk1.dec : ∀ (i : grid0.Coords) (v5 : BitVec 32), Decidable (k0_chk1 i v5) := fun i v5 => decidable_of_iff' _ (Iff.of_eq (k0_chk1.eq_1 i v5))
theorem k0_off2_inb : ∀ (i : grid0.Coords) (v5 : BitVec 32) (k0_hw1 : k0_chk1 i v5), ∀ a, (k0_off2 i v5) a + S1x1x1024.size a ≤ S1024x64x1024.size a := fun i v5 k0_hw1 => k0_hw1

def k0_off3 (i : grid0.Coords) : Fin 1 → Nat :=
  let arg0 : BitVec 32 := BitVec.ofNat 32 (i 0).val
  let c8_i32_23 : BitVec 32 := 8#32
  let v32 : BitVec 32 := Scalar.muli arg0 c8_i32_23
  let c1_i32 : BitVec 32 := 1#32
  let v33 : BitVec 32 := Scalar.addi v32 c1_i32
  let v34 : Index := Scalar.indexCast v33
  ![v34.toNat]
def k0_off4 (i : grid0.Coords) (v35 : BitVec 32) : Fin 3 → Nat :=
  let arg0 : BitVec 32 := BitVec.ofNat 32 (i 0).val
  let c8_i32_23 : BitVec 32 := 8#32
  let v32 : BitVec 32 := Scalar.muli arg0 c8_i32_23
  let c1_i32 : BitVec 32 := 1#32
  let v33 : BitVec 32 := Scalar.addi v32 c1_i32
  let c0_i32_27 : BitVec 32 := 0#32
  ![v35.toNat, v33.toNat, 0]

def k0_chk2 (i : grid0.Coords) (v35 : BitVec 32) : Prop :=
  (∀ a, (k0_off4 i v35) a + S1x1x1024.size a ≤ S1024x64x1024.size a)
instance k0_chk2.dec : ∀ (i : grid0.Coords) (v35 : BitVec 32), Decidable (k0_chk2 i v35) := fun i v35 => decidable_of_iff' _ (Iff.of_eq (k0_chk2.eq_1 i v35))
theorem k0_off4_inb : ∀ (i : grid0.Coords) (v35 : BitVec 32) (k0_hw2 : k0_chk2 i v35), ∀ a, (k0_off4 i v35) a + S1x1x1024.size a ≤ S1024x64x1024.size a := fun i v35 k0_hw2 => k0_hw2

def k0_off5 (i : grid0.Coords) (c0_i32_10 : BitVec 32) : Fin 1 → Nat :=
  let arg0 : BitVec 32 := BitVec.ofNat 32 (i 0).val
  let c8_i32_9 : BitVec 32 := 8#32
  let v18 : BitVec 32 := Scalar.muli arg0 c8_i32_9
  let v19 : BitVec 32 := Scalar.addi v18 c0_i32_10
  let v48 : Index := Scalar.indexCast v19
  ![v48.toNat]
def k0_off6 (i : grid0.Coords) (v80 : BitVec 32) : Fin 3 → Nat :=
  let arg0 : BitVec 32 := BitVec.ofNat 32 (i 0).val
  let c8_i32_55 : BitVec 32 := 8#32
  let v77 : BitVec 32 := Scalar.muli arg0 c8_i32_55
  let c2_i32 : BitVec 32 := 2#32
  let v78 : BitVec 32 := Scalar.addi v77 c2_i32
  let c0_i32_59 : BitVec 32 := 0#32
  ![v80.toNat, v78.toNat, 0]

def k0_chk3 (i : grid0.Coords) (v80 : BitVec 32) : Prop :=
  (∀ a, (k0_off6 i v80) a + S1x1x1024.size a ≤ S1024x64x1024.size a)
instance k0_chk3.dec : ∀ (i : grid0.Coords) (v80 : BitVec 32), Decidable (k0_chk3 i v80) := fun i v80 => decidable_of_iff' _ (Iff.of_eq (k0_chk3.eq_1 i v80))
theorem k0_off6_inb : ∀ (i : grid0.Coords) (v80 : BitVec 32) (k0_hw3 : k0_chk3 i v80), ∀ a, (k0_off6 i v80) a + S1x1x1024.size a ≤ S1024x64x1024.size a := fun i v80 k0_hw3 => k0_hw3

def k0_off7 (i : grid0.Coords) (c1_i32_42 : BitVec 32) : Fin 1 → Nat :=
  let arg0 : BitVec 32 := BitVec.ofNat 32 (i 0).val
  let c8_i32_41 : BitVec 32 := 8#32
  let v63 : BitVec 32 := Scalar.muli arg0 c8_i32_41
  let v64 : BitVec 32 := Scalar.addi v63 c1_i32_42
  let v93 : Index := Scalar.indexCast v64
  ![v93.toNat]
def k0_off8 (i : grid0.Coords) (v125 : BitVec 32) : Fin 3 → Nat :=
  let arg0 : BitVec 32 := BitVec.ofNat 32 (i 0).val
  let c8_i32_86 : BitVec 32 := 8#32
  let v122 : BitVec 32 := Scalar.muli arg0 c8_i32_86
  let c3_i32 : BitVec 32 := 3#32
  let v123 : BitVec 32 := Scalar.addi v122 c3_i32
  let c0_i32_90 : BitVec 32 := 0#32
  ![v125.toNat, v123.toNat, 0]

def k0_chk4 (i : grid0.Coords) (v125 : BitVec 32) : Prop :=
  (∀ a, (k0_off8 i v125) a + S1x1x1024.size a ≤ S1024x64x1024.size a)
instance k0_chk4.dec : ∀ (i : grid0.Coords) (v125 : BitVec 32), Decidable (k0_chk4 i v125) := fun i v125 => decidable_of_iff' _ (Iff.of_eq (k0_chk4.eq_1 i v125))
theorem k0_off8_inb : ∀ (i : grid0.Coords) (v125 : BitVec 32) (k0_hw4 : k0_chk4 i v125), ∀ a, (k0_off8 i v125) a + S1x1x1024.size a ≤ S1024x64x1024.size a := fun i v125 k0_hw4 => k0_hw4

def k0_off9 (i : grid0.Coords) (c2_i32_73 : BitVec 32) : Fin 1 → Nat :=
  let arg0 : BitVec 32 := BitVec.ofNat 32 (i 0).val
  let c8_i32_72 : BitVec 32 := 8#32
  let v108 : BitVec 32 := Scalar.muli arg0 c8_i32_72
  let v109 : BitVec 32 := Scalar.addi v108 c2_i32_73
  let v138 : Index := Scalar.indexCast v109
  ![v138.toNat]
def k0_off10 (i : grid0.Coords) (v170 : BitVec 32) : Fin 3 → Nat :=
  let arg0 : BitVec 32 := BitVec.ofNat 32 (i 0).val
  let c8_i32_117 : BitVec 32 := 8#32
  let v167 : BitVec 32 := Scalar.muli arg0 c8_i32_117
  let c4_i32 : BitVec 32 := 4#32
  let v168 : BitVec 32 := Scalar.addi v167 c4_i32
  let c0_i32_121 : BitVec 32 := 0#32
  ![v170.toNat, v168.toNat, 0]

def k0_chk5 (i : grid0.Coords) (v170 : BitVec 32) : Prop :=
  (∀ a, (k0_off10 i v170) a + S1x1x1024.size a ≤ S1024x64x1024.size a)
instance k0_chk5.dec : ∀ (i : grid0.Coords) (v170 : BitVec 32), Decidable (k0_chk5 i v170) := fun i v170 => decidable_of_iff' _ (Iff.of_eq (k0_chk5.eq_1 i v170))
theorem k0_off10_inb : ∀ (i : grid0.Coords) (v170 : BitVec 32) (k0_hw5 : k0_chk5 i v170), ∀ a, (k0_off10 i v170) a + S1x1x1024.size a ≤ S1024x64x1024.size a := fun i v170 k0_hw5 => k0_hw5

def k0_off11 (i : grid0.Coords) (c3_i32_104 : BitVec 32) : Fin 1 → Nat :=
  let arg0 : BitVec 32 := BitVec.ofNat 32 (i 0).val
  let c8_i32_103 : BitVec 32 := 8#32
  let v153 : BitVec 32 := Scalar.muli arg0 c8_i32_103
  let v154 : BitVec 32 := Scalar.addi v153 c3_i32_104
  let v183 : Index := Scalar.indexCast v154
  ![v183.toNat]
def k0_off12 (i : grid0.Coords) (v215 : BitVec 32) : Fin 3 → Nat :=
  let arg0 : BitVec 32 := BitVec.ofNat 32 (i 0).val
  let c8_i32_148 : BitVec 32 := 8#32
  let v212 : BitVec 32 := Scalar.muli arg0 c8_i32_148
  let c5_i32 : BitVec 32 := 5#32
  let v213 : BitVec 32 := Scalar.addi v212 c5_i32
  let c0_i32_152 : BitVec 32 := 0#32
  ![v215.toNat, v213.toNat, 0]

def k0_chk6 (i : grid0.Coords) (v215 : BitVec 32) : Prop :=
  (∀ a, (k0_off12 i v215) a + S1x1x1024.size a ≤ S1024x64x1024.size a)
instance k0_chk6.dec : ∀ (i : grid0.Coords) (v215 : BitVec 32), Decidable (k0_chk6 i v215) := fun i v215 => decidable_of_iff' _ (Iff.of_eq (k0_chk6.eq_1 i v215))
theorem k0_off12_inb : ∀ (i : grid0.Coords) (v215 : BitVec 32) (k0_hw6 : k0_chk6 i v215), ∀ a, (k0_off12 i v215) a + S1x1x1024.size a ≤ S1024x64x1024.size a := fun i v215 k0_hw6 => k0_hw6

def k0_off13 (i : grid0.Coords) (c4_i32_135 : BitVec 32) : Fin 1 → Nat :=
  let arg0 : BitVec 32 := BitVec.ofNat 32 (i 0).val
  let c8_i32_134 : BitVec 32 := 8#32
  let v198 : BitVec 32 := Scalar.muli arg0 c8_i32_134
  let v199 : BitVec 32 := Scalar.addi v198 c4_i32_135
  let v228 : Index := Scalar.indexCast v199
  ![v228.toNat]
def k0_off14 (i : grid0.Coords) (v260 : BitVec 32) : Fin 3 → Nat :=
  let arg0 : BitVec 32 := BitVec.ofNat 32 (i 0).val
  let c8_i32_179 : BitVec 32 := 8#32
  let v257 : BitVec 32 := Scalar.muli arg0 c8_i32_179
  let c6_i32 : BitVec 32 := 6#32
  let v258 : BitVec 32 := Scalar.addi v257 c6_i32
  let c0_i32_183 : BitVec 32 := 0#32
  ![v260.toNat, v258.toNat, 0]

def k0_chk7 (i : grid0.Coords) (v260 : BitVec 32) : Prop :=
  (∀ a, (k0_off14 i v260) a + S1x1x1024.size a ≤ S1024x64x1024.size a)
instance k0_chk7.dec : ∀ (i : grid0.Coords) (v260 : BitVec 32), Decidable (k0_chk7 i v260) := fun i v260 => decidable_of_iff' _ (Iff.of_eq (k0_chk7.eq_1 i v260))
theorem k0_off14_inb : ∀ (i : grid0.Coords) (v260 : BitVec 32) (k0_hw7 : k0_chk7 i v260), ∀ a, (k0_off14 i v260) a + S1x1x1024.size a ≤ S1024x64x1024.size a := fun i v260 k0_hw7 => k0_hw7

def k0_off15 (i : grid0.Coords) (c5_i32_166 : BitVec 32) : Fin 1 → Nat :=
  let arg0 : BitVec 32 := BitVec.ofNat 32 (i 0).val
  let c8_i32_165 : BitVec 32 := 8#32
  let v243 : BitVec 32 := Scalar.muli arg0 c8_i32_165
  let v244 : BitVec 32 := Scalar.addi v243 c5_i32_166
  let v273 : Index := Scalar.indexCast v244
  ![v273.toNat]
def k0_off16 (i : grid0.Coords) (v305 : BitVec 32) : Fin 3 → Nat :=
  let arg0 : BitVec 32 := BitVec.ofNat 32 (i 0).val
  let c8_i32_210 : BitVec 32 := 8#32
  let v302 : BitVec 32 := Scalar.muli arg0 c8_i32_210
  let c7_i32 : BitVec 32 := 7#32
  let v303 : BitVec 32 := Scalar.addi v302 c7_i32
  let c0_i32_214 : BitVec 32 := 0#32
  ![v305.toNat, v303.toNat, 0]

def k0_chk8 (i : grid0.Coords) (v305 : BitVec 32) : Prop :=
  (∀ a, (k0_off16 i v305) a + S1x1x1024.size a ≤ S1024x64x1024.size a)
instance k0_chk8.dec : ∀ (i : grid0.Coords) (v305 : BitVec 32), Decidable (k0_chk8 i v305) := fun i v305 => decidable_of_iff' _ (Iff.of_eq (k0_chk8.eq_1 i v305))
theorem k0_off16_inb : ∀ (i : grid0.Coords) (v305 : BitVec 32) (k0_hw8 : k0_chk8 i v305), ∀ a, (k0_off16 i v305) a + S1x1x1024.size a ≤ S1024x64x1024.size a := fun i v305 k0_hw8 => k0_hw8

def k0_off17 (i : grid0.Coords) (c6_i32_197 : BitVec 32) : Fin 1 → Nat :=
  let arg0 : BitVec 32 := BitVec.ofNat 32 (i 0).val
  let c8_i32_196 : BitVec 32 := 8#32
  let v288 : BitVec 32 := Scalar.muli arg0 c8_i32_196
  let v289 : BitVec 32 := Scalar.addi v288 c6_i32_197
  let v318 : Index := Scalar.indexCast v289
  ![v318.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x64_S64_d0 : S1024x64.ReducesTo [0] S64
  h_S_ : 0 < S_.numel
  bcast_S_S64 : S_.BroadcastsInDim S64 (![] : Fin 0 → Fin S64.rank)
  natLt_1_32 : 1 < 32
  inb_S1024_S1024_0 : ∀ a, (![0] : Fin 1 → Nat) a + S1024.size a ≤ S1024.size a
  h_S1024 : 0 < S1024.numel
  numel1_S1 : S1.numel = 1
  inb_S2_S1_0 : ∀ a, (![0] : Fin 1 → Nat) a + S1.size a ≤ S2.size a
  squeezes_S1_S_ : S1.Squeezes S_
  inb_S2x1024_S1x1024_0_0 : ∀ a, (![0, 0] : Fin 2 → Nat) a + S1x1024.size a ≤ S2x1024.size a
  squeezes_S1x1024_S1024 : S1x1024.Squeezes S1024
  squeezes_S1x1x1024_S1024 : S1x1x1024.Squeezes S1024
  inb_S1024x64x1024_S1x1x1024_0_0_0 : ∀ a, (![0, 0, 0] : Fin 3 → Nat) a + S1x1x1024.size a ≤ S1024x64x1024.size a
  inb_S2_S1_1 : ∀ a, (![1] : Fin 1 → Nat) a + S1.size a ≤ S2.size a
  inb_S2x1024_S1x1024_1_0 : ∀ a, (![1, 0] : Fin 2 → Nat) a + S1x1024.size a ≤ S2x1024.size a
  h_S1x1024 : 0 < S1x1024.numel
  shapeCasts_S1x1024_S1024 : S1x1024.ShapeCasts S1024
  inb_S8x1024_S1x1024_0_0 : ∀ a, (![0, 0] : Fin 2 → Nat) a + S1x1024.size a ≤ S8x1024.size a
  shapeCasts_S1024_S1x1024 : S1024.ShapeCasts S1x1024
  inb_S8x1024_S1x1024_1_0 : ∀ a, (![1, 0] : Fin 2 → Nat) a + S1x1024.size a ≤ S8x1024.size a
  inb_S8x1024_S1x1024_2_0 : ∀ a, (![2, 0] : Fin 2 → Nat) a + S1x1024.size a ≤ S8x1024.size a
  inb_S8x1024_S1x1024_3_0 : ∀ a, (![3, 0] : Fin 2 → Nat) a + S1x1024.size a ≤ S8x1024.size a
  inb_S8x1024_S1x1024_4_0 : ∀ a, (![4, 0] : Fin 2 → Nat) a + S1x1024.size a ≤ S8x1024.size a
  inb_S8x1024_S1x1024_5_0 : ∀ a, (![5, 0] : Fin 2 → Nat) a + S1x1024.size a ≤ S8x1024.size a
  inb_S8x1024_S1x1024_6_0 : ∀ a, (![6, 0] : Fin 2 → Nat) a + S1x1024.size a ≤ S8x1024.size a
  inb_S8x1024_S1x1024_7_0 : ∀ a, (![7, 0] : Fin 2 → Nat) a + S1x1024.size a ≤ S8x1024.size a
  hcc0_scratch2 : 6 + S2.numel ≤ 10
  hcc0_scratch3 : 8 + S2.numel ≤ 10
  hrank0 : 0 < grid0.rank
  k0_off1_inb : ∀ i : grid0.Coords, ∀ a, (k0_off1 i) a + S1.size a ≤ S64.size a
  k0_off3_inb : ∀ i : grid0.Coords, ∀ a, (k0_off3 i) a + S1.size a ≤ S64.size a
  k0_off5_inb : ∀ i : grid0.Coords, ∀ (r : Fin 2), ∀ a, (k0_off5 i (BitVec.ofNat 32 (2 * r.val))) a + S1.size a ≤ S64.size a
  k0_off7_inb : ∀ i : grid0.Coords, ∀ (r : Fin 2), ∀ a, (k0_off7 i (BitVec.ofNat 32 (1 + 2 * r.val))) a + S1.size a ≤ S64.size a
  k0_off9_inb : ∀ i : grid0.Coords, ∀ (r : Fin 2), ∀ a, (k0_off9 i (BitVec.ofNat 32 (2 + 2 * r.val))) a + S1.size a ≤ S64.size a
  k0_off11_inb : ∀ i : grid0.Coords, ∀ (r : Fin 2), ∀ a, (k0_off11 i (BitVec.ofNat 32 (3 + 2 * r.val))) a + S1.size a ≤ S64.size a
  k0_off13_inb : ∀ i : grid0.Coords, ∀ (r : Fin 2), ∀ a, (k0_off13 i (BitVec.ofNat 32 (4 + 2 * r.val))) a + S1.size a ≤ S64.size a
  k0_off15_inb : ∀ i : grid0.Coords, ∀ (r : Fin 2), ∀ a, (k0_off15 i (BitVec.ofNat 32 (5 + 2 * r.val))) a + S1.size a ≤ S64.size a
  k0_off17_inb : ∀ i : grid0.Coords, ∀ (r : Fin 2), ∀ a, (k0_off17 i (BitVec.ofNat 32 (6 + r.val))) a + S1.size a ≤ S64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S1024.size a
  hwx0_0 : ∀ i : grid0.Coords, EltTy.bits .f32 = 32 ∨ (Rect.block (s := S1024) S1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_4 i = cc0_transform_4 i'
  hinb0_2 : ∀ (i : grid0.Coords) a, (cc0_transform_4 i a + 1) * S8x1024.size a ≤ S64x1024.size a
  hwx0_2 : ∀ i : grid0.Coords, EltTy.bits .f32 = 32 ∨ (Rect.block (s := S64x1024) S8x1024.size (cc0_transform_4 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_5 i = cc0_transform_5 i'
  hinb0_3 : ∀ (i : grid0.Coords) a, (cc0_transform_5 i a + 1) * S8x1024.size a ≤ S64x1024.size a
  hwx0_3 : ∀ i : grid0.Coords, EltTy.bits .f32 = 32 ∨ (Rect.block (s := S64x1024) S8x1024.size (cc0_transform_5 i) (hinb0_3 i)).WholeWords (EltTy.packing .f32)

variable [Facts₀]

abbrev cc0_scratch2 : DmaSems sig S2 := SemArray.consecutive 6 S2 hcc0_scratch2
abbrev cc0_scratch3 : DmaSems sig S2 := SemArray.consecutive 8 S2 hcc0_scratch3

abbrev spec0_0 : Pipeline.WinSpec sig grid0.rank :=
  Pipeline.WinSpec.ofSpec (Memref.whole main_arg2) S1024.size reads0_0 false true 1 stage0_0 sem0_0 nbuf0_0 hstage0_0

abbrev spec0_1 : Pipeline.WinSpec sig grid0.rank :=
  Pipeline.WinSpec.ofSpec (Memref.whole main_arg3) S1024.size reads0_1 false true 1 stage0_1 sem0_1 nbuf0_1 hstage0_1

abbrev spec0_2 : Pipeline.WinSpec sig grid0.rank :=
  Pipeline.WinSpec.ofSpec (Memref.whole main_v0_0) S8x1024.size reads0_2 true false 2 stage0_2 sem0_2 nbuf0_2 hstage0_2

abbrev spec0_3 : Pipeline.WinSpec sig grid0.rank :=
  Pipeline.WinSpec.ofSpec (Memref.whole main_v0_1) S8x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_4 | 3 => cc0_transform_5 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S1024x64x1024 : Shape := ⟨3, ![1024, 64, 1024]⟩
abbrev S1024 : Shape := ⟨1, ![1024]⟩
abbrev S1024x64 : Shape := ⟨2, ![1024, 64]⟩
abbrev S64 : Shape := ⟨1, ![64]⟩
abbrev S1x64x1024 : Shape := ⟨3, ![1, 64, 1024]⟩
abbrev S1025x64x1024 : Shape := ⟨3, ![1025, 64, 1024]⟩
abbrev S_ : Shape := ⟨0, ![]⟩
abbrev S64x1 : Shape := ⟨2, ![64, 1]⟩
abbrev S64x2 : Shape := ⟨2, ![64, 2]⟩
abbrev S64x1024 : Shape := ⟨2, ![64, 1024]⟩

abbrev nBuf : Space → Nat
  | .hbm => 129
  | .vmem => 0
  | .smem => 0
  | _ => 0

abbrev hbmTy0_0 (i : Nat) : BufTy := match i % 128 with
  | 0 => ⟨S1024x64x1024, .f32⟩
  | 1 => ⟨S1024x64x1024, .f32⟩
  | 2 => ⟨S1024, .f32⟩
  | 3 => ⟨S1024, .f32⟩
  | 4 => ⟨S1024x64, .i32⟩
  | 5 => ⟨S64, .i32⟩
  | 6 => ⟨S1x64x1024, .f32⟩
  | 7 => ⟨S1025x64x1024, .f32⟩
  | 8 => ⟨S1x64x1024, .f32⟩
  | 9 => ⟨S1025x64x1024, .f32⟩
  | 10 => ⟨S_, .i32⟩
  | 11 => ⟨S64, .i32⟩
  | 12 => ⟨S_, .i32⟩
  | 13 => ⟨S64, .i32⟩
  | 14 => ⟨S64, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S64, .i32⟩
  | 22 => ⟨S64, .i32⟩
  | 23 => ⟨S_, .i32⟩
  | 24 => ⟨S64, .i32⟩
  | 25 => ⟨S64, .i1⟩
  | 26 => ⟨S_, .i32⟩
  | 27 => ⟨S64, .i32⟩
  | 28 => ⟨S64, .i1⟩
  | 29 => ⟨S_, .i32⟩
  | 30 => ⟨S_, .i1⟩
  | 31 => ⟨S64, .i1⟩
  | 32 => ⟨S64, .i1⟩
  | 33 => ⟨S64, .i1⟩
  | 34 => ⟨S64, .i32⟩
  | 35 => ⟨S64, .i32⟩
  | 36 => ⟨S64, .i32⟩
  | 37 => ⟨S64, .i32⟩
  | 38 => ⟨S_, .i32⟩
  | 39 => ⟨S64, .i32⟩
  | 40 => ⟨S64, .i1⟩
  | 41 => ⟨S_, .i32⟩
  | 42 => ⟨S64, .i32⟩
  | 43 => ⟨S64, .i32⟩
  | 44 => ⟨S64, .i32⟩
  | 45 => ⟨S_, .i32⟩
  | 46 => ⟨S64, .i32⟩
  | 47 => ⟨S64, .i1⟩
  | 48 => ⟨S_, .i32⟩
  | 49 => ⟨S64, .i32⟩
  | 50 => ⟨S64, .i32⟩
  | 51 => ⟨S64, .i32⟩
  | 52 => ⟨S64x1, .i32⟩
  | 53 => ⟨S64x1, .i32⟩
  | 54 => ⟨S64x2, .i32⟩
  | 55 => ⟨S64x1024, .f32⟩
  | 56 => ⟨S_, .i32⟩
  | 57 => ⟨S64, .i32⟩
  | 58 => ⟨S64, .i1⟩
  | 59 => ⟨S_, .i32⟩
  | 60 => ⟨S64, .i32⟩
  | 61 => ⟨S64, .i32⟩
  | 62 => ⟨S64, .i32⟩
  | 63 => ⟨S_, .i32⟩
  | 64 => ⟨S64, .i32⟩
  | 65 => ⟨S64, .i1⟩
  | 66 => ⟨S_, .i32⟩
  | 67 => ⟨S64, .i32⟩
  | 68 => ⟨S64, .i32⟩
  | 69 => ⟨S64, .i32⟩
  | 70 => ⟨S64x1, .i32⟩
  | 71 => ⟨S64x1, .i32⟩
  | 72 => ⟨S64x2, .i32⟩
  | 73 => ⟨S64x1024, .f32⟩
  | 74 => ⟨S_, .i32⟩
  | 75 => ⟨S64, .i32⟩
  | 76 => ⟨S64, .i1⟩
  | 77 => ⟨S_, .i32⟩
  | 78 => ⟨S64, .i32⟩
  | 79 => ⟨S64, .i32⟩
  | 80 => ⟨S64, .i32⟩
  | 81 => ⟨S_, .i32⟩
  | 82 => ⟨S64, .i32⟩
  | 83 => ⟨S64, .i1⟩
  | 84 => ⟨S_, .i32⟩
  | 85 => ⟨S64, .i32⟩
  | 86 => ⟨S64, .i32⟩
  | 87 => ⟨S64, .i32⟩
  | 88 => ⟨S64x1, .i32⟩
  | 89 => ⟨S64x1, .i32⟩
  | 90 => ⟨S64x2, .i32⟩
  | 91 => ⟨S64x1024, .f32⟩
  | 92 => ⟨S_, .i32⟩
  | 93 => ⟨S64, .i32⟩
  | 94 => ⟨S64, .i1⟩
  | 95 => ⟨S_, .i32⟩
  | 96 => ⟨S64, .i32⟩
  | 97 => ⟨S64, .i32⟩
  | 98 => ⟨S64, .i32⟩
  | 99 => ⟨S_, .i32⟩
  | 100 => ⟨S64, .i32⟩
  | 101 => ⟨S64, .i1⟩
  | 102 => ⟨S_, .i32⟩
  | 103 => ⟨S64, .i32⟩
  | 104 => ⟨S64, .i32⟩
  | 105 => ⟨S64, .i32⟩
  | 106 => ⟨S64x1, .i32⟩
  | 107 => ⟨S64x1, .i32⟩
  | 108 => ⟨S64x2, .i32⟩
  | 109 => ⟨S64x1024, .f32⟩
  | 110 => ⟨S64, .i32⟩
  | 111 => ⟨S64, .f32⟩
  | 112 => ⟨S64x1, .f32⟩
  | 113 => ⟨S64x1024, .f32⟩
  | 114 => ⟨S64x1024, .f32⟩
  | 115 => ⟨S_, .f32⟩
  | 116 => ⟨S64x1, .f32⟩
  | 117 => ⟨S64x1, .f32⟩
  | 118 => ⟨S64x1024, .f32⟩
  | 119 => ⟨S64x1024, .f32⟩
  | 120 => ⟨S64x1024, .f32⟩
  | 121 => ⟨S64x1024, .f32⟩
  | 122 => ⟨S64x1024, .f32⟩
  | 123 => ⟨S_, .f32⟩
  | 124 => ⟨S64x1, .f32⟩
  | 125 => ⟨S64x1, .f32⟩
  | 126 => ⟨S64x1024, .f32⟩
  | 127 => ⟨S64x1024, .f32⟩
  | _ => ⟨S1024x64x1024, .f32⟩

abbrev hbmTy0_1 (i : Nat) : BufTy := match i % 128 with
  | 0 => ⟨S64x1024, .f32⟩
  | _ => ⟨S1024x64x1024, .f32⟩

abbrev hbmTy (i : Nat) : BufTy := match i / 128 with
  | 0 => hbmTy0_0 i
  | 1 => hbmTy0_1 i
  | _ => ⟨S1024x64x1024, .f32⟩

abbrev bufTy : (tb : Table) → Fin (tcTables nBuf tb) → BufTy
  | .hbm, ⟨i, _⟩ => hbmTy i
  | _, _ => ⟨S1024x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v7 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_c_3 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_4 : Ref sig .tc := ⟨.hbm, 45, rfl⟩
abbrev main_v14 : Ref sig .tc := ⟨.hbm, 46, rfl⟩
abbrev main_v15 : Ref sig .tc := ⟨.hbm, 47, rfl⟩
abbrev main_c_5 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c_6 : Ref sig .tc := ⟨.hbm, 56, rfl⟩
abbrev main_v23 : Ref sig .tc := ⟨.hbm, 57, rfl⟩
abbrev main_v24 : Ref sig .tc := ⟨.hbm, 58, rfl⟩
abbrev main_c_7 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_8 : Ref sig .tc := ⟨.hbm, 63, rfl⟩
abbrev main_v28 : Ref sig .tc := ⟨.hbm, 64, rfl⟩
abbrev main_v29 : Ref sig .tc := ⟨.hbm, 65, rfl⟩
abbrev main_c_9 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_10 : Ref sig .tc := ⟨.hbm, 74, rfl⟩
abbrev main_v37 : Ref sig .tc := ⟨.hbm, 75, rfl⟩
abbrev main_v38 : Ref sig .tc := ⟨.hbm, 76, rfl⟩
abbrev main_c_11 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_12 : Ref sig .tc := ⟨.hbm, 81, rfl⟩
abbrev main_v42 : Ref sig .tc := ⟨.hbm, 82, rfl⟩
abbrev main_v43 : Ref sig .tc := ⟨.hbm, 83, rfl⟩
abbrev main_c_13 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_c_14 : Ref sig .tc := ⟨.hbm, 92, rfl⟩
abbrev main_v51 : Ref sig .tc := ⟨.hbm, 93, rfl⟩
abbrev main_v52 : Ref sig .tc := ⟨.hbm, 94, rfl⟩
abbrev main_c_15 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_c_16 : Ref sig .tc := ⟨.hbm, 99, rfl⟩
abbrev main_v56 : Ref sig .tc := ⟨.hbm, 100, rfl⟩
abbrev main_v57 : Ref sig .tc := ⟨.hbm, 101, rfl⟩
abbrev main_c_17 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_18 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩

abbrev nD : Nat := 1
abbrev τ : Topo := Topo.v7x

variable {F : FTy → Type} [FloatOps F]

class Facts₀ : Prop where
  bcast_S1024_S1x64x1024_2 : S1024.BroadcastsInDim S1x64x1024 (![2] : Fin 1 → Fin S1x64x1024.rank)
  concatenates_S1x64x1024_S1024x64x1024_S1025x64x1024_d0 : Shape.Concatenates [S1x64x1024, S1024x64x1024] S1025x64x1024 0
  reducesTo_S1024x64_S64_d0 : S1024x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S64x1_S64x1024_0_1 : S64x1.BroadcastsInDim S64x1024 (![0, 1] : Fin 2 → Fin S64x1024.rank)
  bcast_S_S64x1 : S_.BroadcastsInDim S64x1 (![] : Fin 0 → Fin S64x1.rank)
  gather_S1025x64x1024_S64x2_S64x1024_1_01_n_n_01_1_111024_wf : GatherDims.WF S1025x64x1024 S64x2 S64x1024 [1] [0, 1] [] [0, 1] [] 1 ![1, 1, 1024]

variable [Facts₀]

def gather_S1025x64x1024_S64x2_S64x1024_1_01_n_n_01_1_111024 : GatherDims S1025x64x1024 S64x2 S64x1024 where
  offsetDims := [1]
  collapsedSliceDims := [0, 1]
  operandBatchingDims := []
  startIndicesBatchingDims := []
  startIndexMap := [0, 1]
  indexVectorDim := 1
  sliceSizes := ![1, 1, 1024]
  wf := gather_S1025x64x1024_S64x2_S64x1024_1_01_n_n_01_1_111024_wf

class Facts : Prop extends Facts₀ where

variable [Facts]
-- ==== Proof.Spec.lean ====
/-
  The common value of the two programs, stated once over literal shapes and importing neither program.

  A batch of 64 examples each owns a stack of states: row 0 of example `b`'s stack is the initial state and row `n ≥ 1`
  is the input `hid[n - 1, b, ·]`. The mask words of column `b` (each 0 or 1) count the stack's height `p`; the row
  below the top, cyclically over the 1025 rows, is `(p + 1024) mod 1025`. An operation word of absolute value 1 reads
  that lower row, the word 0 reads row `p` itself. Both programs return, for every example and feature, the entry of
  the row so selected: the kernel by fetching that one row, the reference by the combination `prev·a + cur·(1 - a)`
  with `a = |op| ∈ {0, 1}`, which is a selection because one weight is 1 and the other 0.
-/
import Idealize.ShloMosaic.PureOps.Ideal
import Idealize.ShloMosaic.Lib.ValueIdx

noncomputable section

namespace Cert.StackSpec

open Idealize.ShloMosaic Idealize.ShloMosaic.ValueIdx

abbrev S_ : Shape := ⟨0, ![]⟩
abbrev S64 : Shape := ⟨1, ![64]⟩
abbrev S1024 : Shape := ⟨1, ![1024]⟩
abbrev S1024x64 : Shape := ⟨2, ![1024, 64]⟩
abbrev S64x1024 : Shape := ⟨2, ![64, 1024]⟩
abbrev S1024x64x1024 : Shape := ⟨3, ![1024, 64, 1024]⟩

variable {F : FTy → Type} [FloatOps F]

/-- Every mask word is 0 or 1. -/
def MasksOK (masks : S1024x64.Idx → BitVec 32) : Prop := ∀ i, masks i = 0#32 ∨ masks i = 1#32

/-- Every operation word is -1, 0 or 1. -/
def OpOK (op : S64.Idx → BitVec 32) : Prop := ∀ i, op i = 0#32 ∨ op i = 1#32 ∨ op i = 0xFFFFFFFF#32

/-- The height of example `b`'s stack: how many of its 1024 mask words are set. -/
def height (masks : S1024x64.Idx → BitVec 32) (b : Fin 64) : Nat := ∑ s : Fin 1024, (masks (ix2 s b)).toNat

/-- The row below row `p`, cyclically over the 1025 rows 0 … 1024. -/
def below (p : Nat) : Nat := (p + 1024) % 1025

/-- The row example `b` reads: the one below the top when its operation word has absolute value 1, else the top. -/
def selRow (masks : S1024x64.Idx → BitVec 32) (op : S64.Idx → BitVec 32) (b : Fin 64) : Nat :=
  if IntOp.absi (op (ix1 b)) = 1#32 then below (height masks b) else height masks b

/-- Entry `k` of row `n` of example `b`'s stack: the initial state at `n = 0`, else the input row `n - 1`. -/
def stackRow (hid : S1024x64x1024.Idx → Elt F .f32) (ini : S1024.Idx → Elt F .f32) (n : Nat) (b : Fin 64) (k : Fin 1024) : Elt F .f32 :=
  if n = 0 then ini (ix1 k) else hid (ix3 ⟨(n - 1) % 1024, Nat.mod_lt _ (by decide)⟩ b k)

/-- What both programs return for one of the two state arrays. -/
def result (hid : S1024x64x1024.Idx → Elt F .f32) (ini : S1024.Idx → Elt F .f32)
    (masks : S1024x64.Idx → BitVec 32) (op : S64.Idx → BitVec 32) : S64x1024.Idx → Elt F .f32 :=
  fun y => stackRow hid ini (selRow masks op (y 0)) (y 0) (y 1)

theorem result_apply (hid : S1024x64x1024.Idx → Elt F .f32) (ini : S1024.Idx → Elt F .f32)
    (masks : S1024x64.Idx → BitVec 32) (op : S64.Idx → BitVec 32) (b : Fin 64) (k : Fin 1024) :
    result hid ini masks op (ix2 b k) = stackRow hid ini (selRow masks op b) b k := rfl

theorem height_le (masks : S1024x64.Idx → BitVec 32) (h : MasksOK masks) (b : Fin 64) : height masks b ≤ 1024 := by
  unfold height
  calc ∑ s : Fin 1024, (masks (ix2 s b)).toNat ≤ ∑ _s : Fin 1024, 1 :=
        Finset.sum_le_sum fun s _ => by rcases h (ix2 s b) with e | e <;> simp [e]
    _ = 1024 := by simp

theorem below_le (p : Nat) : below p ≤ 1024 := by unfold below; omega

theorem selRow_le (masks : S1024x64.Idx → BitVec 32) (op : S64.Idx → BitVec 32) (h : MasksOK masks) (b : Fin 64) :
    selRow masks op b ≤ 1024 := by
  unfold selRow; split
  · exact below_le _
  · exact height_le masks h b

end Cert.StackSpec

end
-- ==== Proof.PreFacts.lean ====
/-
  The precondition, read back as the two integer facts of the specification.

  The printed predicate is a conjunction of six one-bit scalars; the last two are `all (0 ≤ masks ∧ masks ≤ 1)` and
  `all (-1 ≤ op ∧ op ≤ 1)`, the comparisons signed. A conjunction of bits is 1 exactly when each bit is 1; an
  and-reduction over every axis that is 1 had a 1 at every element; and a 32-bit word whose signed value lies in
  [0, 1] is the word 0 or the word 1, one whose signed value lies in [-1, 1] is 0, 1 or the all-ones word.
-/
import proofs.«407332_j39376260169764_2_alg».proof.Pre_finite_inputs
import proofs.«407332_j39376260169764_2_alg».proof.Proof.Gen.Pre_finite_inputs
import proofs.«407332_j39376260169764_2_alg».proof.Proof.Spec
import Idealize.ShloMosaic.Lib.Affine
import Idealize.ShloMosaic.Lib.ReduceAll
import Idealize.ShloMosaic.Lib.ValueIdx

noncomputable section

namespace Cert.PreFacts

open Idealize.ShloMosaic Idealize.ShloMosaic.ValueIdx

variable {F : FTy → Type} [FloatOps F]

/-- The scalar shape has one index. -/
instance : Subsingleton Cert.Pre_finite_inputs.S_.Idx := ⟨fun a b => funext fun d => d.elim0⟩

/-- A word whose signed value is at least 0 and at most 1 is 0 or 1. -/
theorem word_zero_one (w : BitVec 32) (h0 : IntOp.cmpi .sge w 0#32 = 1#1) (h1 : IntOp.cmpi .sle w 1#32 = 1#1) :
    w = 0#32 ∨ w = 1#32 := by
  rw [IntOp.cmpi_sge, show (0#32 : BitVec 32).toInt = 0 from by decide] at h0
  rw [IntOp.cmpi_sle, show (1#32 : BitVec 32).toInt = 1 from by decide] at h1
  have hw := w.isLt
  rw [BitVec.toInt_eq_toNat_cond] at h0 h1
  have hv : w.toNat = 0 ∨ w.toNat = 1 := by split at h0 <;> omega
  rcases hv with e | e
  · exact Or.inl (BitVec.eq_of_toNat_eq e)
  · exact Or.inr (BitVec.eq_of_toNat_eq e)

/-- A word whose signed value is at least -1 and at most 1 is 0, 1 or the all-ones word. -/
theorem word_sign (w : BitVec 32) (h0 : IntOp.cmpi .sge w 4294967295#32 = 1#1) (h1 : IntOp.cmpi .sle w 1#32 = 1#1) :
    w = 0#32 ∨ w = 1#32 ∨ w = 0xFFFFFFFF#32 := by
  rw [IntOp.cmpi_sge, show (4294967295#32 : BitVec 32).toInt = -1 from by decide] at h0
  rw [IntOp.cmpi_sle, show (1#32 : BitVec 32).toInt = 1 from by decide] at h1
  have hw := w.isLt
  rw [BitVec.toInt_eq_toNat_cond] at h0 h1
  have hv : w.toNat = 0 ∨ w.toNat = 1 ∨ w.toNat = 4294967295 := by split at h0 <;> omega
  rcases hv with e | e | e
  · exact Or.inl (BitVec.eq_of_toNat_eq e)
  · exact Or.inr (Or.inl (BitVec.eq_of_toNat_eq e))
  · exact Or.inr (Or.inr (BitVec.eq_of_toNat_eq e))

/-- The last two conjuncts of the precondition, read at one element each: the signed comparisons every mask word and
    every operation word passes. -/
theorem ranges [Cert.Pre_finite_inputs.Facts]
    (a0 a1 : FVec F Cert.Pre_finite_inputs.S1024x64x1024 .f32) (a2 a3 : FVec F Cert.Pre_finite_inputs.S1024 .f32)
    (a4 : IVec Cert.Pre_finite_inputs.S1024x64 32) (a5 : IVec Cert.Pre_finite_inputs.S64 32)
    (h : Cert.Pre_finite_inputs.fn (F := F) a0 a1 a2 a3 a4 a5 = (fun _ => 1#1)) :
    (∀ i, IntOp.cmpi .sge (a4 i) 0#32 = 1#1 ∧ IntOp.cmpi .sle (a4 i) 1#32 = 1#1) ∧
    (∀ i, IntOp.cmpi .sge (a5 i) 4294967295#32 = 1#1 ∧ IntOp.cmpi .sle (a5 i) 1#32 = 1#1) := by
  have h0 := congrFun h ix0
  dsimp only [Cert.Pre_finite_inputs.fn, Cert.Pre_finite_inputs.fn_part1] at h0
  -- the conjunction of six bits is 1: so are its last two
  obtain ⟨h1, hop⟩ := IntOp.andi_eq_one.1 h0
  obtain ⟨-, hmask⟩ := IntOp.andi_eq_one.1 h1
  refine ⟨fun i => ?_, fun i => ?_⟩
  · -- an and-reduction over both axes that is 1 had a 1 at element i; that element is the conjunction of the two comparisons,
    -- each against a broadcast scalar, which reads the scalar
    exact IntOp.andi_eq_one.1 (Host.reduce_andi_all _ _ _ _ _ hmask i)
  · exact IntOp.andi_eq_one.1 (Host.reduce_andi_all _ _ _ _ _ hop i)

/-- The precondition holds only if every mask word is 0 or 1. -/
theorem masksOK [Cert.Pre_finite_inputs.Facts]
    (a0 a1 : FVec F Cert.Pre_finite_inputs.S1024x64x1024 .f32) (a2 a3 : FVec F Cert.Pre_finite_inputs.S1024 .f32)
    (a4 : IVec Cert.Pre_finite_inputs.S1024x64 32) (a5 : IVec Cert.Pre_finite_inputs.S64 32)
    (h : Cert.Pre_finite_inputs.fn (F := F) a0 a1 a2 a3 a4 a5 = (fun _ => 1#1)) : Cert.StackSpec.MasksOK a4 :=
  fun i => word_zero_one (a4 i) ((ranges a0 a1 a2 a3 a4 a5 h).1 i).1 ((ranges a0 a1 a2 a3 a4 a5 h).1 i).2

/-- The precondition holds only if every operation word is -1, 0 or 1. -/
theorem opOK [Cert.Pre_finite_inputs.Facts]
    (a0 a1 : FVec F Cert.Pre_finite_inputs.S1024x64x1024 .f32) (a2 a3 : FVec F Cert.Pre_finite_inputs.S1024 .f32)
    (a4 : IVec Cert.Pre_finite_inputs.S1024x64 32) (a5 : IVec Cert.Pre_finite_inputs.S64 32)
    (h : Cert.Pre_finite_inputs.fn (F := F) a0 a1 a2 a3 a4 a5 = (fun _ => 1#1)) : Cert.StackSpec.OpOK a5 :=
  fun i => word_sign (a5 i) ((ranges a0 a1 a2 a3 a4 a5 h).2 i).1 ((ranges a0 a1 a2 a3 a4 a5 h).2 i).2

/-- info: 'Cert.PreFacts.masksOK' depends on axioms: [propext, Classical.choice, Quot.sound] -/
#guard_msgs (whitespace := lax) in #print axioms masksOK

/-- info: 'Cert.PreFacts.opOK' depends on axioms: [propext, Classical.choice, Quot.sound] -/
#guard_msgs (whitespace := lax) in #print axioms opOK

end Cert.PreFacts

end
-- ==== Proof.KSetup.lean ====
/-
  The kernel's frame, first part: what the region is entered with and what the body is handed.

  Before the region @main computes, from the mask and operation words, two tables of 64 words (which input row each
  example fetches, and whether it fetches one at all); the region reads them from scalar memory. The two large state
  arrays stay in main memory and the body copies single rows out of them itself, into a two-slot scratch per array,
  on four semaphore cells of its own, every copy waited for before the grid point ends. So between grid points nothing
  is in flight: the scratch holds anything, the four cells read zero, and the two arrays hold what they held at launch.
-/
import proofs.«407332_j39376260169764_2_alg».proof.Proof.Gen.KernelIdeal.Launch
import proofs.«407332_j39376260169764_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the region is entered: the host operations before it have run. -/
abbrev V (c : Dev nD) (b : Ref sig .tc) : Buf (Elt F) ((c : Thread nD τ).loc b) :=
  StableHlo.after hostOps0 (fun b => m (c, b)) b

/-- The two tables as the body is handed them: whole scalar-memory buffers. -/
abbrev tbM0 : Memref sig .tc .smem S64 .i32 := Memref.whole main_call0_v15
abbrev htbM0 : tbM0.IsWhole := Memref.isWhole_whole _
abbrev tbM1 : Memref sig .tc .smem S64 .i32 := Memref.whole main_call0_v10
abbrev htbM1 : tbM1.IsWhole := Memref.isWhole_whole _
/-- The two scratch buffers (two rows each) and the two state arrays left in main memory. -/
abbrev scM0 : Memref sig .tc .vmem S2x1024 .f32 := Memref.whole cc0_scratch0
abbrev scM1 : Memref sig .tc .vmem S2x1024 .f32 := Memref.whole cc0_scratch1
abbrev hbM0 : Memref sig .tc .hbm S1024x64x1024 .f32 := Memref.whole main_arg0
abbrev hbM1 : Memref sig .tc .hbm S1024x64x1024 .f32 := Memref.whole main_arg1

/-- A memref's buffer on core `c`, and that buffer held whole (a state array) or at half a share (a table, which the
    region keeps the other half of and only reads). -/
abbrev BufOf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : BufOf (F := F) c M) : sProp 𝕄 :=
  M.view.loc (c : Thread nD τ) ↦{fullShare} f
abbrev tbPt (c : Dev nD) {S : Shape} {e : EltTy} (M : Memref sig .tc .smem S e) (f : BufOf (F := F) c M) : sProp 𝕄 :=
  M.view.loc (c : Thread nD τ) ↦{fullShare.right} f

end Cert.KernelIdeal.KFrame

end
-- ==== Proof.KSlots.lean ====
/-
  The two-row scratch buffers as two slots each.

  Row j of a grid point is copied into slot j mod 2 while the body still reads the other slot, so a scratch buffer is
  never held whole during the point: it is held as its two rows, which are disjoint and together are the buffer.
  A copy in flight borrows one row; the body reads the other.
-/
import proofs.«407332_j39376260169764_2_alg».proof.Proof.KSetup

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The rows of a two-row scratch, as sets of indices: row `s` is the block at leading offset `s`. -/
theorem inb_slot (s : Fin 2) : ∀ a, (![s.val, 0] : Fin 2 → Nat) a + S1x1024.size a ≤ S2x1024.size a := by
  have := s.isLt; intro a; fin_cases a <;> simp <;> omega
abbrev slotSet (s : Fin 2) : Finset S2x1024.Idx := (Rect.unit (s := S2x1024) ![s.val, 0] S1x1024.size (inb_slot s)).set
theorem slots_disjoint (s s' : Fin 2) (h : s ≠ s') : Disjoint (slotSet s) (slotSet s') :=
  Ring.lead_disjoint (s := S2x1024) (0 : Fin 2) 1 (fun s : Fin 2 => (![s.val, 0] : Fin 2 → Nat)) S1x1024.size inb_slot (fun s => by simp) rfl s s' h
theorem slots_cover : Finset.univ.biUnion slotSet = Finset.univ :=
  Ring.lead_cover (s := S2x1024) (0 : Fin 2) 1 (fun s : Fin 2 => (![s.val, 0] : Fin 2 → Nat)) S1x1024.size inb_slot (fun s => by simp)
    (fun s a ha => by fin_cases a <;> first | exact absurd rfl ha | rfl) rfl (fun a ha => by fin_cases a <;> first | exact absurd rfl ha | rfl) rfl

/-- A slot held at `f`: the slot memref's own elements of the scratch buffer. -/
abbrev slotPt (c : Dev nD) (M : Memref sig .tc .vmem S1024 .f32) (f : BufOf (F := F) c M) : sProp 𝕄 :=
  M.view.loc (c : Thread nD τ) ↦[M.view.set]{fullShare} f

/-! ### The two slots of scratch `cc0_scratch0` -/

/-- Slot 0 and slot 1 of the scratch, spelt as the body's copies spell their destination: one row, squeezed. -/
abbrev sA0 : Memref sig .tc .vmem S1024 .f32 :=
  (scM0.slice (Rect.unit (s := S2x1024) ![0, 0] S1x1024.size inb_S2x1024_S1x1024_0_0) (fun _ => rfl)).squeeze S1024 squeezes_S1x1024_S1024
abbrev sA1 : Memref sig .tc .vmem S1024 .f32 :=
  (scM0.slice (Rect.unit (s := S2x1024) ![1, 0] S1x1024.size inb_S2x1024_S1x1024_1_0) (fun _ => rfl)).squeeze S1024 squeezes_S1x1024_S1024

theorem set_sA0 : sA0.view.set = slotSet 0 := by
  simp only [sA0, Memref.view_squeeze, View.set_reshape]; exact View.set_slice_whole _ _
theorem set_sA1 : sA1.view.set = slotSet 1 := by
  simp only [sA1, Memref.view_squeeze, View.set_reshape]; exact View.set_slice_whole _ _

section
variable (c : Dev nD)
theorem slotPt_sA0 (f : BufOf (F := F) c sA0) : slotPt (F := F) c sA0 f = (((c : Thread nD τ).loc cc0_scratch0) ↦[slotSet 0]{fullShare} f : sProp 𝕄) := by
  unfold slotPt; rw [set_sA0]
theorem slotPt_sA1 (f : BufOf (F := F) c sA1) : slotPt (F := F) c sA1 f = (((c : Thread nD τ).loc cc0_scratch0) ↦[slotSet 1]{fullShare} f : sProp 𝕄) := by
  unfold slotPt; rw [set_sA1]

set_option maxHeartbeats 1000000 in
/-- The scratch whole at anything is its two rows at something each, and back. -/
theorem slotsA_in : iprop(∃ d, owns (c : Thread nD τ) scM0 fullShare d) ⊢ (iprop((∃ f, slotPt (F := F) c sA0 f) ∗ ∃ f, slotPt (F := F) c sA1 f) : sProp 𝕄) := by
  simp only [scM0, owns_whole]
  exact Ring.slots2_split (U := Pipeline.UD sig nD τ) (ℓ := (c : Thread nD τ).loc cc0_scratch0) (q := fullShare) slotSet slots_disjoint slots_cover
    (slotPt c sA0) (slotPt c sA1) (slotPt_sA0 c) (slotPt_sA1 c)
set_option maxHeartbeats 1000000 in
theorem slotsA_out : (iprop((∃ f, slotPt (F := F) c sA0 f) ∗ ∃ f, slotPt (F := F) c sA1 f) : sProp 𝕄) ⊢ iprop(∃ d, owns (c : Thread nD τ) scM0 fullShare d) := by
  simp only [scM0, owns_whole]
  exact Ring.slots2_join (U := Pipeline.UD sig nD τ) (ℓ := (c : Thread nD τ).loc cc0_scratch0) (q := fullShare) slotSet slots_disjoint slots_cover
    (slotPt c sA0) (slotPt c sA1) (slotPt_sA0 c) (slotPt_sA1 c)
end

/-! ### The two slots of scratch `cc0_scratch1` -/

/-- Slot 0 and slot 1 of the scratch, spelt as the body's copies spell their destination: one row, squeezed. -/
abbrev sB0 : Memref sig .tc .vmem S1024 .f32 :=
  (scM1.slice (Rect.unit (s := S2x1024) ![0, 0] S1x1024.size inb_S2x1024_S1x1024_0_0) (fun _ => rfl)).squeeze S1024 squeezes_S1x1024_S1024
abbrev sB1 : Memref sig .tc .vmem S1024 .f32 :=
  (scM1.slice (Rect.unit (s := S2x1024) ![1, 0] S1x1024.size inb_S2x1024_S1x1024_1_0) (fun _ => rfl)).squeeze S1024 squeezes_S1x1024_S1024

theorem set_sB0 : sB0.view.set = slotSet 0 := by
  simp only [sB0, Memref.view_squeeze, View.set_reshape]; exact View.set_slice_whole _ _
theorem set_sB1 : sB1.view.set = slotSet 1 := by
  simp only [sB1, Memref.view_squeeze, View.set_reshape]; exact View.set_slice_whole _ _

section
variable (c : Dev nD)
theorem slotPt_sB0 (f : BufOf (F := F) c sB0) : slotPt (F := F) c sB0 f = (((c : Thread nD τ).loc cc0_scratch1) ↦[slotSet 0]{fullShare} f : sProp 𝕄) := by
  unfold slotPt; rw [set_sB0]
theorem slotPt_sB1 (f : BufOf (F := F) c sB1) : slotPt (F := F) c sB1 f = (((c : Thread nD τ).loc cc0_scratch1) ↦[slotSet 1]{fullShare} f : sProp 𝕄) := by
  unfold slotPt; rw [set_sB1]

set_option maxHeartbeats 1000000 in
/-- The scratch whole at anything is its two rows at something each, and back. -/
theorem slotsB_in : iprop(∃ d, owns (c : Thread nD τ) scM1 fullShare d) ⊢ (iprop((∃ f, slotPt (F := F) c sB0 f) ∗ ∃ f, slotPt (F := F) c sB1 f) : sProp 𝕄) := by
  simp only [scM1, owns_whole]
  exact Ring.slots2_split (U := Pipeline.UD sig nD τ) (ℓ := (c : Thread nD τ).loc cc0_scratch1) (q := fullShare) slotSet slots_disjoint slots_cover
    (slotPt c sB0) (slotPt c sB1) (slotPt_sB0 c) (slotPt_sB1 c)
set_option maxHeartbeats 1000000 in
theorem slotsB_out : (iprop((∃ f, slotPt (F := F) c sB0 f) ∗ ∃ f, slotPt (F := F) c sB1 f) : sProp 𝕄) ⊢ iprop(∃ d, owns (c : Thread nD τ) scM1 fullShare d) := by
  simp only [scM1, owns_whole]
  exact Ring.slots2_join (U := Pipeline.UD sig nD τ) (ℓ := (c : Thread nD τ).loc cc0_scratch1) (q := fullShare) slotSet slots_disjoint slots_cover
    (slotPt c sB0) (slotPt c sB1) (slotPt_sB0 c) (slotPt_sB1 c)
end

end Cert.KernelIdeal.KFrame

end
-- ==== Proof.KRun.lean ====
/-
  The kernel's body at one grid point, run once on any staging buffers.

  Handed the two initial-state blocks, the two output blocks at anything, the two scratch buffers as their slots at anything, its
  four semaphore cells at zero, the two state arrays whole and the two tables, the body does the same thing for each
  of its eight rows j: it reads the row's table word (assumed inside the array: the hypotheses below), starts two
  copies of one input row into a scratch slot (slot j mod 2), waits for both, starts the next row's copies into the
  other slot, and stores into row j of each output block either the copied row or the initial state. Every copy is
  waited for before its slot is read and before the point ends, so the cells are back at zero and the arrays are as
  they were; what the eight stores leave in each output block is recorded as a list of pieces.
-/
import proofs.«407332_j39376260169764_2_alg».proof.Proof.KSlots

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the run's proof term is large: the definition's epilogue walks it past the default budget
set_option maxHeartbeats 4000000 in
/-- The pieces the body's stores leave in the two output blocks (last first), with the proof that the body runs to the
    continuation holding every buffer it was handed: the inputs as they were, each output block with its pieces
    written, the scratch at some contents, the cells at zero, the arrays and tables as they were. -/
noncomputable def kernelRun (c : Dev nD) (i : grid0.Coords)
    (arg3 : Memref sig .tc .vmem S1024 .f32) (harg3 : arg3.IsWhole) (arg4 : Memref sig .tc .vmem S1024 .f32) (harg4 : arg4.IsWhole)
    (arg7 : Memref sig .tc .vmem S8x1024 .f32) (harg7 : arg7.IsWhole) (arg8 : Memref sig .tc .vmem S8x1024 .f32) (harg8 : arg8.IsWhole)
    (x0 x1 : Vec F S1024 .f32) (xt0 : BufOf (F := F) c tbM0) (xt1 : BufOf (F := F) c tbM1)
    (fh0 : BufOf (F := F) c hbM0) (fh1 : BufOf (F := F) c hbM1)
    (k0_hw1 : k0_chk1 i (tbM0.view.readAt (Elt F) (Rect.unit (s := S64) (k0_off1 i) S1.size (k0_off1_inb i)).toLoadRect xt0 (Shape.Idx.first (numel1_S1.symm ▸ Nat.one_pos))))
    (k0_hw2 : k0_chk2 i (tbM0.view.readAt (Elt F) (Rect.unit (s := S64) (k0_off3 i) S1.size (k0_off3_inb i)).toLoadRect xt0 (Shape.Idx.first (numel1_S1.symm ▸ Nat.one_pos))))
    (k0_hw3 : k0_chk3 i (tbM0.view.readAt (Elt F) (Rect.unit (s := S64) (k0_off5 i 2#32) S1.size (k0_off5_inb i 1)).toLoadRect xt0 (Shape.Idx.first (numel1_S1.symm ▸ Nat.one_pos))))
    (k0_hw4 : k0_chk4 i (tbM0.view.readAt (Elt F) (Rect.unit (s := S64) (k0_off7 i 3#32) S1.size (k0_off7_inb i 1)).toLoadRect xt0 (Shape.Idx.first (numel1_S1.symm ▸ Nat.one_pos))))
    (k0_hw5 : k0_chk5 i (tbM0.view.readAt (Elt F) (Rect.unit (s := S64) (k0_off9 i 4#32) S1.size (k0_off9_inb i 1)).toLoadRect xt0 (Shape.Idx.first (numel1_S1.symm ▸ Nat.one_pos))))
    (k0_hw6 : k0_chk6 i (tbM0.view.readAt (Elt F) (Rect.unit (s := S64) (k0_off11 i 5#32) S1.size (k0_off11_inb i 1)).toLoadRect xt0 (Shape.Idx.first (numel1_S1.symm ▸ Nat.one_pos))))
    (k0_hw7 : k0_chk7 i (tbM0.view.readAt (Elt F) (Rect.unit (s := S64) (k0_off13 i 6#32) S1.size (k0_off13_inb i 1)).toLoadRect xt0 (Shape.Idx.first (numel1_S1.symm ▸ Nat.one_pos))))
    (k0_hw8 : k0_chk8 i (tbM0.view.readAt (Elt F) (Rect.unit (s := S64) (k0_off15 i 7#32) S1.size (k0_off15_inb i 1)).toLoadRect xt0 (Shape.Idx.first (numel1_S1.symm ▸ Nat.one_pos)))) :
    Σ' (L2 : List (View.Piece (Elt F) S8x1024 .f32)), { L3 : List (View.Piece (Elt F) S8x1024 .f32) //
      ∀ (W : Waits sig Unit) (K : PUnit → sProp 𝕄),
        iprop(owns (c : Thread nD τ) arg3 fullShare x0 ∗ owns (c : Thread nD τ) arg4 fullShare x1
            ∗ (∃ d, owns (c : Thread nD τ) arg7 fullShare d) ∗ (∃ d, owns (c : Thread nD τ) arg8 fullShare d)
            ∗ (∃ f, slotPt (F := F) c sA0 f) ∗ (∃ f, slotPt (F := F) c sA1 f) ∗ (∃ f, slotPt (F := F) c sB0 f) ∗ (∃ f, slotPt (F := F) c sB1 f)
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ hbPt c hbM0 fh0 ∗ hbPt c hbM1 fh1 ∗ tbPt c tbM0 xt0 ∗ tbPt c tbM1 xt1 ∗ owes (c : Thread nD τ) 0 W
            ∗ (iprop(owns (c : Thread nD τ) arg3 fullShare x0 ∗ owns (c : Thread nD τ) arg4 fullShare x1
                ∗ (∃ f, arg7.view.loc (c : Thread nD τ) ↦[arg7.view.set]{fullShare} arg7.view.writes (Elt F) f L2)
                ∗ (∃ f, arg8.view.loc (c : Thread nD τ) ↦[arg8.view.set]{fullShare} arg8.view.writes (Elt F) f L3)
                ∗ (∃ f, slotPt (F := F) c sA0 f) ∗ (∃ f, slotPt (F := F) c sA1 f) ∗ (∃ f, slotPt (F := F) c sB0 f) ∗ (∃ f, slotPt (F := F) c sB1 f)
                ∗ semVal ((c : Thread nD τ), SemLoc.dma 6) 0 ∗ semVal ((c : Thread nD τ), SemLoc.dma 7) 0
                ∗ semVal ((c : Thread nD τ), SemLoc.dma 8) 0 ∗ semVal ((c : Thread nD τ), SemLoc.dma 9) 0
                ∗ hbPt c hbM0 fh0 ∗ hbPt c hbM1 fh1 ∗ tbPt c tbM0 xt0 ∗ tbPt c tbM1 xt1 ∗ (∃ W', owes (c : Thread nD τ) 0 W')) -∗ K ⟨⟩))
          ⊢ wp frame (wpE (defs₀ (F := F)) Variants.none c none) Set.univ
              (cc0_kernel i tbM0 htbM0 tbM1 htbM1 arg3 harg3 arg4 harg4 hbM0 (Memref.isWhole_whole _) hbM1 (Memref.isWhole_whole _)
                arg7 harg7 arg8 harg8 scM0 (Memref.isWhole_whole _) scM1 (Memref.isWhole_whole _) cc0_scratch2 cc0_scratch3) K } := by
  refine ⟨?_, ?_, fun W K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%d7, %f7, -, H7⟩, ⟨%d8, %f8, -, H8⟩, ⟨%fa0, HA0⟩, ⟨%fa1, HA1⟩, ⟨%fb0, HB0⟩, ⟨%fb1, HB1⟩, Hq6, Hq7, Hq8, Hq9, Hh0, Hh1, HT0, HT1, HW, Hk⟩
    obtain rfl := harg3.eq_unread hf0
    obtain rfl := harg4.eq_unread hf1
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg3.read_unread _
      iexact H0
    isplitl [H1]
    · iexists _; isplitr; · ipureintro; exact harg4.read_unread _
      iexact H1
    isplitl [H7]; · iexists _; iexact H7
    isplitl [H8]; · iexists _; iexact H8
    isplitl [HA0]; · iexists _; iexact HA0
    isplitl [HA1]; · iexists _; iexact HA1
    isplitl [HB0]; · iexists _; iexact HB0
    isplitl [HB1]; · iexists _; iexact HB1
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    isplitl [HT0]; · iexact HT0
    isplitl [HT1]; · iexact HT1
    iexists _; iexact HW

end Cert.KernelIdeal.KFrame

end
-- ==== Proof.KCover.lean ====
/-
  The eight rows the body stores tile each output block.

  Row j of an output block is stored once, whole, for j = 0 … 7; the rows are disjoint and fill the 8 × 1024 block.
  So every index of the block lies in one stored piece, whatever the values stored.
-/
import proofs.«407332_j39376260169764_2_alg».proof.Proof.KRun

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem cover2 (c : Dev nD) (i : grid0.Coords)
    (arg3 : Memref sig .tc .vmem S1024 .f32) (harg3 : arg3.IsWhole) (arg4 : Memref sig .tc .vmem S1024 .f32) (harg4 : arg4.IsWhole)
    (arg7 : Memref sig .tc .vmem S8x1024 .f32) (harg7 : arg7.IsWhole) (arg8 : Memref sig .tc .vmem S8x1024 .f32) (harg8 : arg8.IsWhole)
    (x0 x1 : Vec F S1024 .f32) (xt0 : BufOf (F := F) c tbM0) (xt1 : BufOf (F := F) c tbM1)
    (fh0 : BufOf (F := F) c hbM0) (fh1 : BufOf (F := F) c hbM1)
    (k0_hw1 : k0_chk1 i (tbM0.view.readAt (Elt F) (Rect.unit (s := S64) (k0_off1 i) S1.size (k0_off1_inb i)).toLoadRect xt0 (Shape.Idx.first (numel1_S1.symm ▸ Nat.one_pos))))
    (k0_hw2 : k0_chk2 i (tbM0.view.readAt (Elt F) (Rect.unit (s := S64) (k0_off3 i) S1.size (k0_off3_inb i)).toLoadRect xt0 (Shape.Idx.first (numel1_S1.symm ▸ Nat.one_pos))))
    (k0_hw3 : k0_chk3 i (tbM0.view.readAt (Elt F) (Rect.unit (s := S64) (k0_off5 i 2#32) S1.size (k0_off5_inb i 1)).toLoadRect xt0 (Shape.Idx.first (numel1_S1.symm ▸ Nat.one_pos))))
    (k0_hw4 : k0_chk4 i (tbM0.view.readAt (Elt F) (Rect.unit (s := S64) (k0_off7 i 3#32) S1.size (k0_off7_inb i 1)).toLoadRect xt0 (Shape.Idx.first (numel1_S1.symm ▸ Nat.one_pos))))
    (k0_hw5 : k0_chk5 i (tbM0.view.readAt (Elt F) (Rect.unit (s := S64) (k0_off9 i 4#32) S1.size (k0_off9_inb i 1)).toLoadRect xt0 (Shape.Idx.first (numel1_S1.symm ▸ Nat.one_pos))))
    (k0_hw6 : k0_chk6 i (tbM0.view.readAt (Elt F) (Rect.unit (s := S64) (k0_off11 i 5#32) S1.size (k0_off11_inb i 1)).toLoadRect xt0 (Shape.Idx.first (numel1_S1.symm ▸ Nat.one_pos))))
    (k0_hw7 : k0_chk7 i (tbM0.view.readAt (Elt F) (Rect.unit (s := S64) (k0_off13 i 6#32) S1.size (k0_off13_inb i 1)).toLoadRect xt0 (Shape.Idx.first (numel1_S1.symm ▸ Nat.one_pos))))
    (k0_hw8 : k0_chk8 i (tbM0.view.readAt (Elt F) (Rect.unit (s := S64) (k0_off15 i 7#32) S1.size (k0_off15_inb i 1)).toLoadRect xt0 (Shape.Idx.first (numel1_S1.symm ▸ Nat.one_pos)))) (y : S8x1024.Idx) :
    ∃ pc ∈ (kernelRun (F := F) c i arg3 harg3 arg4 harg4 arg7 harg7 arg8 harg8 x0 x1 xt0 xt1 fh0 fh1 k0_hw1 k0_hw2 k0_hw3 k0_hw4 k0_hw5 k0_hw6 k0_hw7 k0_hw8).1, y ∈ pc.1.set :=
  View.cover_of_tiledL (kernelRun (F := F) c i arg3 harg3 arg4 harg4 arg7 harg7 arg8 harg8 x0 x1 xt0 xt1 fh0 fh1 k0_hw1 k0_hw2 k0_hw3 k0_hw4 k0_hw5 k0_hw6 k0_hw7 k0_hw8).1 S1x1024.size (by sl_kernel_rfl) y

theorem cover3 (c : Dev nD) (i : grid0.Coords)
    (arg3 : Memref sig .tc .vmem S1024 .f32) (harg3 : arg3.IsWhole) (arg4 : Memref sig .tc .vmem S1024 .f32) (harg4 : arg4.IsWhole)
    (arg7 : Memref sig .tc .vmem S8x1024 .f32) (harg7 : arg7.IsWhole) (arg8 : Memref sig .tc .vmem S8x1024 .f32) (harg8 : arg8.IsWhole)
    (x0 x1 : Vec F S1024 .f32) (xt0 : BufOf (F := F) c tbM0) (xt1 : BufOf (F := F) c tbM1)
    (fh0 : BufOf (F := F) c hbM0) (fh1 : BufOf (F := F) c hbM1)
    (k0_hw1 : k0_chk1 i (tbM0.view.readAt (Elt F) (Rect.unit (s := S64) (k0_off1 i) S1.size (k0_off1_inb i)).toLoadRect xt0 (Shape.Idx.first (numel1_S1.symm ▸ Nat.one_pos))))
    (k0_hw2 : k0_chk2 i (tbM0.view.readAt (Elt F) (Rect.unit (s := S64) (k0_off3 i) S1.size (k0_off3_inb i)).toLoadRect xt0 (Shape.Idx.first (numel1_S1.symm ▸ Nat.one_pos))))
    (k0_hw3 : k0_chk3 i (tbM0.view.readAt (Elt F) (Rect.unit (s := S64) (k0_off5 i 2#32) S1.size (k0_off5_inb i 1)).toLoadRect xt0 (Shape.Idx.first (numel1_S1.symm ▸ Nat.one_pos))))
    (k0_hw4 : k0_chk4 i (tbM0.view.readAt (Elt F) (Rect.unit (s := S64) (k0_off7 i 3#32) S1.size (k0_off7_inb i 1)).toLoadRect xt0 (Shape.Idx.first (numel1_S1.symm ▸ Nat.one_pos))))
    (k0_hw5 : k0_chk5 i (tbM0.view.readAt (Elt F) (Rect.unit (s := S64) (k0_off9 i 4#32) S1.size (k0_off9_inb i 1)).toLoadRect xt0 (Shape.Idx.first (numel1_S1.symm ▸ Nat.one_pos))))
    (k0_hw6 : k0_chk6 i (tbM0.view.readAt (Elt F) (Rect.unit (s := S64) (k0_off11 i 5#32) S1.size (k0_off11_inb i 1)).toLoadRect xt0 (Shape.Idx.first (numel1_S1.symm ▸ Nat.one_pos))))
    (k0_hw7 : k0_chk7 i (tbM0.view.readAt (Elt F) (Rect.unit (s := S64) (k0_off13 i 6#32) S1.size (k0_off13_inb i 1)).toLoadRect xt0 (Shape.Idx.first (numel1_S1.symm ▸ Nat.one_pos))))
    (k0_hw8 : k0_chk8 i (tbM0.view.readAt (Elt F) (Rect.unit (s := S64) (k0_off15 i 7#32) S1.size (k0_off15_inb i 1)).toLoadRect xt0 (Shape.Idx.first (numel1_S1.symm ▸ Nat.one_pos)))) (y : S8x1024.Idx) :
    ∃ pc ∈ (kernelRun (F := F) c i arg3 harg3 arg4 harg4 arg7 harg7 arg8 harg8 x0 x1 xt0 xt1 fh0 fh1 k0_hw1 k0_hw2 k0_hw3 k0_hw4 k0_hw5 k0_hw6 k0_hw7 k0_hw8).2.1, y ∈ pc.1.set :=
  View.cover_of_tiledL (kernelRun (F := F) c i arg3 harg3 arg4 harg4 arg7 harg7 arg8 harg8 x0 x1 xt0 xt1 fh0 fh1 k0_hw1 k0_hw2 k0_hw3 k0_hw4 k0_hw5 k0_hw6 k0_hw7 k0_hw8).2.1 S1x1024.size (by sl_kernel_rfl) y

end Cert.KernelIdeal.KFrame

end
-- ==== Proof.KLaunch.lean ====
/-
  The kernel's frame, second part: @main up to the region, the tables' contents, and the region's invariant.

  The 46 host operations write only buffers of their own, so the six arguments reach the region as launched, and the
  two tables reach it holding what those operations computed. The body only reads the tables' words, so the region
  may hold any contents of them. Between grid points the body's invariant is the same: both scratch buffers at some
  contents, the random-number register at some state, the four semaphore cells at zero, the two state arrays whole at
  their launch contents, and half of each table.
-/
import proofs.«407332_j39376260169764_2_alg».proof.Proof.KSetup

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor

/-- @main is its host operations, then the region: the region is entered at the contents they leave. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

/-! ## The tables -/

/-- The tables' contents when the region is entered (one device: device 0's). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No index map reads a table, so every contents is admissible. -/
abbrev adm : (pcfg0 (F := F)).Adm := ⟨tbl m, trivial⟩
abbrev cfgM : Pipeline.Cfg sig Λ₀ := cfg0 (adm m)

/-- The halves of the tables the body is handed, table by table. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The body's own semaphore cells and the arrays it copies from -/

abbrev osem : Fin 4 → SemLoc sig := fun j => (![SemLoc.dma 6, SemLoc.dma 7, SemLoc.dma 8, SemLoc.dma 9] : Fin 4 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0) := by
  rw [Pipeline.ownSems0_eq_of_list c osem [0, 1, 2, 3] (by decide) (by decide)]; rfl

/-- The two state arrays: unscoped, no window's array, no table. -/
def H0 : Finset (Ref sig .tc) := {main_arg0, main_arg1}
theorem H0_sub : H0 ⊆ Pipeline.restRefsP sig pre0 spec0 := by decide
theorem hbmPts_eq (c : Dev nD) :
    (bigSep H0 (fun b => ((c : Thread nD τ).loc b) ↦{fullShare} V m c b) : sProp 𝕄)
      = iprop(hbPt c hbM0 (V m c main_arg0) ∗ hbPt c hbM1 (V m c main_arg1)) := by
  rw [BI.bigSep_eq_bigSepL_of_eq [main_arg0, main_arg1] (by decide) (by decide)]; rfl

/-- The invariant between grid points, conjunct by conjunct. -/
theorem PhiD_eq (c : Dev nD) :
    (Pipeline.ΦD osem spec0 H0 (V m) c : sProp 𝕄)
      = iprop(iprop((∃ d, owns (c : Thread nD τ) scM0 fullShare d) ∗ (∃ d, owns (c : Thread nD τ) scM1 fullShare d)) ∗ (∃ r, prngReg c r)
          ∗ iprop(semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0)
          ∗ iprop(hbPt c hbM0 (V m c main_arg0) ∗ hbPt c hbM1 (V m c main_arg1))) := by
  rw [Pipeline.ΦD_eq, scopedRest0_eq, ownSems0_eq, hbmPts_eq]; simp only [scM0, scM1, owns_whole]; try rfl

end Cert.KernelIdeal.KFrame

end
-- ==== Proof.KBody.lean ====
/-
  The kernel's frame, last part: the proof data of the region, the body's obligation at every grid point, the run.

  Each grid point t handles examples 8t … 8t + 7. Its body needs the eight row words it reads from the first table to
  name rows inside the state arrays (the hypothesis `Hyps`); given that, the run of KRun applies at every point: the
  two input blocks (the initial states, the same block at every point) are found in place, the invariant hands the
  body its scratch as two slots each, its cells, the arrays and the tables, and takes them back unchanged, and each
  output block ends as the eight stored rows. The launch theorem for a region whose body copies out of main memory
  within each point then gives the run of @main.
-/
import proofs.«407332_j39376260169764_2_alg».proof.Proof.KCover
import proofs.«407332_j39376260169764_2_alg».proof.Proof.KLaunch

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The side conditions, at every point -/

/-- At every grid point each of the eight row words the body reads names a row inside the state arrays (and the
    example index 8t + j a column inside them). -/
def Hyps : Prop := ∀ i : grid0.Coords,
    k0_chk1 i (tbM0.view.readAt (Elt F) (Rect.unit (s := S64) (k0_off1 i) S1.size (k0_off1_inb i)).toLoadRect (tbl m 0) (Shape.Idx.first (numel1_S1.symm ▸ Nat.one_pos)))
    ∧ k0_chk2 i (tbM0.view.readAt (Elt F) (Rect.unit (s := S64) (k0_off3 i) S1.size (k0_off3_inb i)).toLoadRect (tbl m 0) (Shape.Idx.first (numel1_S1.symm ▸ Nat.one_pos)))
    ∧ k0_chk3 i (tbM0.view.readAt (Elt F) (Rect.unit (s := S64) (k0_off5 i 2#32) S1.size (k0_off5_inb i 1)).toLoadRect (tbl m 0) (Shape.Idx.first (numel1_S1.symm ▸ Nat.one_pos)))
    ∧ k0_chk4 i (tbM0.view.readAt (Elt F) (Rect.unit (s := S64) (k0_off7 i 3#32) S1.size (k0_off7_inb i 1)).toLoadRect (tbl m 0) (Shape.Idx.first (numel1_S1.symm ▸ Nat.one_pos)))
    ∧ k0_chk5 i (tbM0.view.readAt (Elt F) (Rect.unit (s := S64) (k0_off9 i 4#32) S1.size (k0_off9_inb i 1)).toLoadRect (tbl m 0) (Shape.Idx.first (numel1_S1.symm ▸ Nat.one_pos)))
    ∧ k0_chk6 i (tbM0.view.readAt (Elt F) (Rect.unit (s := S64) (k0_off11 i 5#32) S1.size (k0_off11_inb i 1)).toLoadRect (tbl m 0) (Shape.Idx.first (numel1_S1.symm ▸ Nat.one_pos)))
    ∧ k0_chk7 i (tbM0.view.readAt (Elt F) (Rect.unit (s := S64) (k0_off13 i 6#32) S1.size (k0_off13_inb i 1)).toLoadRect (tbl m 0) (Shape.Idx.first (numel1_S1.symm ▸ Nat.one_pos)))
    ∧ k0_chk8 i (tbM0.view.readAt (Elt F) (Rect.unit (s := S64) (k0_off15 i 7#32) S1.size (k0_off15_inb i 1)).toLoadRect (tbl m 0) (Shape.Idx.first (numel1_S1.symm ▸ Nat.one_pos)))

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's staging buffer holds its block at every point, fetched there or not: the block index never moves. -/
theorem before0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body at a point -/

/-- Each window's current staging memref at point `t`, as the pipeline passes it, and its wholeness. -/
abbrev ms0 (t : Fin (cfgM m).N) : Memref sig .tc .vmem S1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1024 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S8x1024 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S8x1024 .f32 := spec0_3.stage ((cfgM m).slots t 3)
abbrev hs3 (t : Fin (cfgM m).N) : (ms3 m t).IsWhole := hstage0_3 (((cfgM m).slots t 3).cast nbuf0_3)

/-- The kernel body at point `t`, on what the pipeline calls it with. -/
abbrev bodyAt (t : Fin (cfgM m).N) : Prog (TpuEff nD τ sig (Elt F) Λ₀ .tc) PUnit :=
  cc0_kernel (grid0.coords t) tbM0 htbM0 tbM1 htbM1 (ms0 m t) (hs0 m t) (ms1 m t) (hs1 m t) hbM0 (Memref.isWhole_whole _) hbM1 (Memref.isWhole_whole _)
    (ms2 m t) (hs2 m t) (ms3 m t) (hs3 m t) scM0 (Memref.isWhole_whole _) scM1 (Memref.isWhole_whole _) cc0_scratch2 cc0_scratch3

/-- One staging buffer of each output window, through which its contents are stated (the choice does not matter). -/
abbrev VO2 : View sig .tc .vmem S8x1024 .f32 := (Memref.whole cc0_stg2_0 : Memref sig .tc .vmem S8x1024 .f32).view
abbrev VO3 : View sig .tc .vmem S8x1024 .f32 := (Memref.whole cc0_stg3_0 : Memref sig .tc .vmem S8x1024 .f32).view

/-- The body's run at point `t`: on the point's memrefs, the two initial-state blocks, the tables and the arrays. -/
def runAt (hH : Hyps m) (c : Dev nD) (t : Fin (cfgM m).N) :=
  kernelRun (F := F) c (grid0.coords t) (ms0 m t) (hs0 m t) (ms1 m t) (hs1 m t) (ms2 m t) (hs2 m t) (ms3 m t) (hs3 m t) (iblk m c 0 t) (iblk m c 1 t) (tbl m 0) (tbl m 1) (V m c main_arg0) (V m c main_arg1) (hH _).1 (hH _).2.1 (hH _).2.2.1 (hH _).2.2.2.1 (hH _).2.2.2.2.1 (hH _).2.2.2.2.2.1 (hH _).2.2.2.2.2.2.1 (hH _).2.2.2.2.2.2.2

/-- The eight stored rows tile each output block, so they cover it. -/
theorem cover2At (hH : Hyps m) (c : Dev nD) (t : Fin (cfgM m).N) (y : S8x1024.Idx) : ∃ pc ∈ (runAt m hH c t).1, y ∈ pc.1.set :=
  cover2 (F := F) c (grid0.coords t) (ms0 m t) (hs0 m t) (ms1 m t) (hs1 m t) (ms2 m t) (hs2 m t) (ms3 m t) (hs3 m t) (iblk m c 0 t) (iblk m c 1 t) (tbl m 0) (tbl m 1) (V m c main_arg0) (V m c main_arg1) (hH _).1 (hH _).2.1 (hH _).2.2.1 (hH _).2.2.2.1 (hH _).2.2.2.2.1 (hH _).2.2.2.2.2.1 (hH _).2.2.2.2.2.2.1 (hH _).2.2.2.2.2.2.2 y
theorem cover3At (hH : Hyps m) (c : Dev nD) (t : Fin (cfgM m).N) (y : S8x1024.Idx) : ∃ pc ∈ (runAt m hH c t).2.1, y ∈ pc.1.set :=
  cover3 (F := F) c (grid0.coords t) (ms0 m t) (hs0 m t) (ms1 m t) (hs1 m t) (ms2 m t) (hs2 m t) (ms3 m t) (hs3 m t) (iblk m c 0 t) (iblk m c 1 t) (tbl m 0) (tbl m 1) (V m c main_arg0) (V m c main_arg1) (hH _).1 (hH _).2.1 (hH _).2.2.1 (hH _).2.2.2.1 (hH _).2.2.2.2.1 (hH _).2.2.2.2.2.1 (hH _).2.2.2.2.2.2.1 (hH _).2.2.2.2.2.2.2 y

/-- What the run leaves in each output block: its pieces read back. -/
def out2At (hH : Hyps m) (c : Dev nD) (t : Fin (cfgM m).N) : Vec F S8x1024 .f32 :=
  VO2.read (Elt F) (VO2.writes (Elt F) VO2.junk (runAt m hH c t).1)
def out3At (hH : Hyps m) (c : Dev nD) (t : Fin (cfgM m).N) : Vec F S8x1024 .f32 :=
  VO3.read (Elt F) (VO3.writes (Elt F) VO3.junk (runAt m hH c t).2.1)

/-! ## The pipeline's proof data -/

/-- The proof data on core `c`: the arrays as the region finds them; after the body at point `t` each input's buffer
    at its block and each output's at the eight stored rows; the invariant of a body that copies out of main memory
    within the point, with the tables' halves; nothing owed; full shares. -/
def dats (hH : Hyps m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => out2At m hH c t
    | ⟨3, _⟩ => out3At m hH c t
  Φ _ := iprop(Pipeline.ΦD osem spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after_0 (hH : Hyps m) (c : Dev nD) (t : Fin (cfgM m).N) : (dats m hH 0 c).after 0 t = iblk m c 0 t := by dsimp only [dats]; try rfl
theorem after_1 (hH : Hyps m) (c : Dev nD) (t : Fin (cfgM m).N) : (dats m hH 0 c).after 1 t = iblk m c 1 t := by dsimp only [dats]; try rfl
theorem after_2 (hH : Hyps m) (c : Dev nD) (t : Fin (cfgM m).N) : (dats m hH 0 c).after 2 t = out2At m hH c t := by dsimp only [dats]; try rfl
theorem after_3 (hH : Hyps m) (c : Dev nD) (t : Fin (cfgM m).N) : (dats m hH 0 c).after 3 t = out3At m hH c t := by dsimp only [dats]; try rfl

theorem before_0 (hH : Hyps m) (c : Dev nD) (t : Fin (cfgM m).N) (d) : (dats m hH 0 c).before 0 t d = iblk m c 0 t :=
  before0_of m (dats m hH 0 c) (A_eq m hH c 0) (after_0 m hH c) t d
theorem before_1 (hH : Hyps m) (c : Dev nD) (t : Fin (cfgM m).N) (d) : (dats m hH 0 c).before 1 t d = iblk m c 1 t :=
  before1_of m (dats m hH 0 c) (A_eq m hH c 1) (after_1 m hH c) t d

/-! ## The body obligation, at a generic point -/

def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d))
    ∗ (∃ d, owns (c : Thread nD τ) (ms2 m t) fullShare ((dats m hH 0 c).before 2 t d))
    ∗ (∃ d, owns (c : Thread nD τ) (ms3 m t) fullShare ((dats m hH 0 c).before 3 t d)))

def bodyPost (hH : Hyps m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t)
    ∗ owns (c : Thread nD τ) (ms2 m t) fullShare ((dats m hH 0 c).after 2 t)
    ∗ owns (c : Thread nD τ) (ms3 m t) fullShare ((dats m hH 0 c).after 3 t))

/-- The body at any point: the inputs' memrefs hold their blocks, so the run applies; the invariant hands the body its
    scratch (split into slots), the register, its cells at zero, the arrays and the tables, and takes them back as they
    were (the slots joined again); the core's waits are recorded and nothing is owed. -/
theorem sound_body (hH : Hyps m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  simp only [before_0, before_1]
  rw [show (dats m hH 0 c).Φ t.succ = (dats m hH 0 c).Φ t.castSucc from rfl,
    after_0, after_1, after_2, after_3]
  rw [show (dats m hH 0 c).Φ t.castSucc = iprop(Pipeline.ΦD osem spec0 H0 (V m) c ∗ Pipeline.ΦT pre0 (tbl m) c) from rfl, PhiD_eq, PhiT_eq]
  unfold Dat.owesAt Pipeline.owesWithin
  rw [show (dats m hH 0 c).owed t.castSucc = 0 from rfl, show (dats m hH 0 c).owed t.succ = 0 from rfl]
  unfold out2At out3At
  iintro ⟨⟨⟨⟨HS0, HS1⟩, Hg, ⟨Hq6, Hq7, Hq8, Hq9⟩, ⟨Hh0, Hh1⟩⟩, ⟨HT0, HT1⟩⟩, ⟨%W, -, HW⟩, ⟨%d0, H0⟩, ⟨%d1, H1⟩, ⟨%d2, H2⟩, ⟨%d3, H3⟩⟩
  ihave HA := (slotsA_in (F := F) c) $$ HS0
  icases HA with ⟨HA0, HA1⟩
  ihave HB := (slotsB_in (F := F) c) $$ HS1
  icases HB with ⟨HB0, HB1⟩
  iapply ((runAt m hH c t).2.2 W _)
  isplitl [H0]; · iexact H0
  isplitl [H1]; · iexact H1
  isplitl [H2]; · iexists _; iexact H2
  isplitl [H3]; · iexists _; iexact H3
  isplitl [HA0]; · iexact HA0
  isplitl [HA1]; · iexact HA1
  isplitl [HB0]; · iexact HB0
  isplitl [HB1]; · iexact HB1
  isplitl [Hq6]; · iexact Hq6
  isplitl [Hq7]; · iexact Hq7
  isplitl [Hq8]; · iexact Hq8
  isplitl [Hq9]; · iexact Hq9
  isplitl [Hh0]; · iexact Hh0
  isplitl [Hh1]; · iexact Hh1
  isplitl [HT0]; · iexact HT0
  isplitl [HT1]; · iexact HT1
  isplitl [HW]; · iexact HW
  iintro ⟨H0, H1, ⟨%e2, H2⟩, ⟨%e3, H3⟩, HA0, HA1, HB0, HB1, Hq6, Hq7, Hq8, Hq9, Hh0, Hh1, HT0, HT1, ⟨%W', HW'⟩⟩
  isplitl [HA0 HA1 HB0 HB1 Hg Hq6 Hq7 Hq8 Hq9 Hh0 Hh1 HT0 HT1]
  · isplitr [HT0 HT1]
    · isplitl [HA0 HA1 HB0 HB1]
      · isplitl [HA0 HA1]
        · iapply (slotsA_out (F := F) c); isplitl [HA0]; · iexact HA0
          iexact HA1
        iapply (slotsB_out (F := F) c); isplitl [HB0]; · iexact HB0
        iexact HB1
      isplitl [Hg]; · iexact Hg
      isplitl [Hq6 Hq7 Hq8 Hq9]
      · isplitl [Hq6]; · iexact Hq6
        isplitl [Hq7]; · iexact Hq7
        isplitl [Hq8]; · iexact Hq8
        iexact Hq9
      isplitl [Hh0]; · iexact Hh0
      iexact Hh1
    isplitl [HT0]; · iexact HT0
    iexact HT1
  isplitl [HW']
  · iexists W'; isplitr; · ipureintro; exact fun _ _ => Or.inl trivial
    iexact HW'
  isplitl [H0]; · iexact H0
  isplitl [H1]; · iexact H1
  isplitl [H2]
  · unfold owns; iexists _; isplitr
    swap; · iexact H2
    ipureintro; exact View.read_writes_of_cover _ _ _ _ _ (cover2At m hH c t)
  unfold owns; iexists _; isplitr
  swap; · iexact H3
  ipureintro; exact View.read_writes_of_cover _ _ _ _ _ (cover3At m hH c t)

/-- The library's body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

/-! ## The run and the frame -/

set_option backward.isDefEq.respectTransparency.types false in
/-- From any memory with zero counters every weakly fair execution of @main terminates, and every final state has every
    array of the pipeline at what the proof data computes and every other unscoped buffer as the region found it. -/
theorem run_main (hH : Hyps m) : θ_run defs (onTc (τ := τ) (main (F := F))) (s₀ m ρ) (Pipeline.FramePost (Pipeline.pin pcfgs fun _ => adm m) (dats m hH) 0 (V m)) :=
  Pipeline.θ_run_frameP_dma pcfgs (fun _ => adm m) (dats m hH) (0 : Fin 1) launch0 osem defs₀ Variants.none ownSemFacts H0 H0_sub m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hin := fun _ => .rfl) (hout := fun c => by
      rw [show (dats m hH 0 c).Φ (Fin.last _) = iprop(Pipeline.ΦD osem spec0 H0 (V m) c ∗ Pipeline.ΦT pre0 (tbl m) c) from rfl]
      iintro ⟨HD, -⟩; iexact HD)

end Cert.KernelIdeal.KFrame

end
-- ==== Proof.Words.lean ====
/-
  The integer side of the claim, word by word: what the host operations of both programs compute on 32-bit words,
  read as the natural numbers of the specification. The mask words of a column sum to the stack's height without
  wrapping (at most 1024 ones); the floored remainder by 1025 of `p - 1`, computed as a truncated remainder corrected
  when its sign differs from the divisor's, is the row below row `p`; the selected word, its positivity test and its
  predecessor are the row the example reads, whether that row is an input row, and which input row.
-/
import proofs.«407332_j39376260169764_2_alg».proof.Proof.Spec
import Idealize.ShloMosaic.PureOps.Ideal.Laws
import Idealize.ShloMosaic.PureOps.BitExact.Laws
import Idealize.ShloMosaic.PureOps.Reduce
import Idealize.ShloMosaic.Lib.StableHlo.Predicate

noncomputable section

namespace Cert.StackSpec

open Idealize.ShloMosaic Idealize.ShloMosaic.ValueIdx

/-- The floored remainder by 1025 as the outlined host function computes it on one word: the divisor guarded against
    zero, the truncated remainder, and the divisor added back when the remainder is nonzero and of the other sign. -/
def remW (x : BitVec 32) : BitVec 32 :=
  let d : BitVec 32 := Scalar.select (IntOp.cmpi .eq 1025#32 0#32) 1#32 1025#32
  let r : BitVec 32 := IntOp.remsi .host x d
  Scalar.select (IntOp.andi (IntOp.cmpi .ne (IntOp.cmpi .slt r 0#32) (IntOp.cmpi .slt d 0#32)) (IntOp.cmpi .ne r 0#32))
    (IntOp.addi r d) r

/-- The word of the row an example reads, from its height word `p` and its operation word `o`. -/
def selW (p o : BitVec 32) : BitVec 32 :=
  Scalar.select (IntOp.cmpi .eq (IntOp.absi o) 1#32) (remW (IntOp.subi p 1#32)) p

/-- Whether the selected row is an input row (1) or the initial state (0), as a 32-bit word. -/
def validW (w : BitVec 32) : BitVec 32 := (IntOp.cmpi .sgt w 0#32).setWidth 32

/-- The input row to fetch: the selected row's predecessor, or row 0 when the initial state is selected. -/
def rowW (w : BitVec 32) : BitVec 32 := Scalar.select (IntOp.cmpi .sgt w 0#32) (IntOp.subi w 1#32) 0#32

/-- A select on a condition word that is not 1 takes its second branch. -/
private theorem select_of_ne_one {α : Type} (c : BitVec 1) (a b : α) (hc : c ≠ 1#1) : Scalar.select c a b = b := by
  unfold Scalar.select; exact if_neg hc

/-- A select on the condition word 1 takes its first branch. -/
private theorem select_of_eq_one {α : Type} (c : BitVec 1) (a b : α) (hc : c = 1#1) : Scalar.select c a b = a := by
  unfold Scalar.select; exact if_pos hc

/-- A row number up to 1024 is its own value as a word. -/
private theorem toNat_row (n : Nat) (hn : n ≤ 1024) : (BitVec.ofNat 32 n).toNat = n := by
  rw [BitVec.toNat_ofNat]; omega

/-- The column's mask words, added up from zero in any order, are its height: at most 1024 ones do not wrap. -/
theorem reduce_height (masks : S1024x64.Idx → BitVec 32) (h : MasksOK masks) (hr : S1024x64.ReducesTo [0] S64)
    (h0 : 0 < S_.numel) (b : Fin 64) :
    Host.reduce IntOp.addi masks (constantI S_ 32 0#32) hr h0 (ix1 b) = BitVec.ofNat 32 (height masks b) := by
  classical
  have hR : S1024x64.Reduces [0] S64 := by decide
  -- the words reducing to column b are those at (s, b), one per row s
  have hl : ∀ k : Fin (S1024x64.size 0), hR.lift (ix1 b) k = ix2 (n0 := 1024) k b := by
    intro k; funext d; apply Fin.ext
    match d with
    | ⟨0, _⟩ => rfl
    | ⟨1, _⟩ => rfl
  have hle := height_le masks h b
  apply BitVec.eq_of_toNat_eq
  rw [toNat_row _ hle, Host.reduce_eq_fold_single IntOp.addi masks _ hr hR h0 (ix1 b)]
  show (Finset.fold IntOp.addi 0#32 (masks ∘ hR.lift (ix1 b)) Finset.univ).toNat = _
  have hsum : ∑ k, ((masks ∘ hR.lift (ix1 b)) k).toNat = height masks b := by
    unfold height
    exact Finset.sum_congr rfl fun k _ => by rw [Function.comp_apply, hl]
  rw [StableHlo.Predicate.toNat_fold_addi _ _ (by rw [hsum]; omega), hsum]

/-- A word below 1025 is its own floored remainder by 1025: it is not negative, the truncated remainder is the word,
    and no correction is made. -/
private theorem remW_of_lt (x : BitVec 32) (hx : x.toNat < 1025) : remW x = x := by
  have hm : x.msb = false := BitVec.msb_eq_false_iff_two_mul_lt.mpr (by omega)
  have hd : (Scalar.select (IntOp.cmpi .eq 1025#32 0#32) 1#32 1025#32 : BitVec 32) = 1025#32 := by decide
  have hc : ¬ IntOp.SDivCorner x 1025#32 := by
    rintro (e | ⟨_, e⟩) <;> exact absurd e (by decide)
  have hr : IntOp.remsi .host x 1025#32 = x := by
    unfold IntOp.remsi
    rw [if_neg hc]
    apply BitVec.eq_of_toNat_eq
    rw [BitVec.srem_eq, hm, show (1025#32 : BitVec 32).msb = false from by decide]
    show (x % 1025#32).toNat = x.toNat
    rw [BitVec.toNat_umod]
    exact Nat.mod_eq_of_lt hx
  have hs : IntOp.cmpi .slt x 0#32 ≠ 1#1 := fun e => by
    have := (StableHlo.Predicate.slt_iff_toNat (by omega) (by decide)).mp e
    exact absurd this (by show ¬ x.toNat < 0; omega)
  have hs0 : IntOp.cmpi .slt x 0#32 = 0#1 := (BitVec.eq_zero_or_eq_one _).resolve_right hs
  unfold remW
  simp only [hd, hr, hs0]
  apply select_of_ne_one
  rw [show IntOp.cmpi .ne (0#1 : BitVec 1) (IntOp.cmpi .slt 1025#32 0#32) = 0#1 from by decide]
  show (0#1 &&& _ : BitVec 1) ≠ 1#1
  rw [BitVec.zero_and]; decide

/-- The floored remainder of `p - 1` by 1025 is the row below row `p`. -/
theorem remW_pred (p : Nat) (hp : p ≤ 1024) : remW (IntOp.subi (BitVec.ofNat 32 p) 1#32) = BitVec.ofNat 32 (below p) := by
  rcases Nat.eq_zero_or_pos p with rfl | hpos
  · -- -1 has truncated remainder -1, nonzero and negative: 1025 is added, giving 1024
    decide
  · -- p - 1 lies in 0 … 1023 and is its own remainder
    have hx : IntOp.subi (BitVec.ofNat 32 p) 1#32 = BitVec.ofNat 32 (p - 1) :=
      StableHlo.Predicate.sub_one_ofNat p hpos (by omega)
    have hb : below p = p - 1 := by unfold below; omega
    rw [hx, hb]
    exact remW_of_lt _ (by rw [BitVec.toNat_ofNat]; omega)

/-- An operation word in {-1, 0, 1} has absolute value 1 exactly when it is not 0, and absolute value 0 or 1. -/
theorem absi_cases (o : BitVec 32) (h : o = 0#32 ∨ o = 1#32 ∨ o = 0xFFFFFFFF#32) :
    IntOp.absi o = 0#32 ∨ IntOp.absi o = 1#32 := by
  rcases h with rfl | rfl | rfl
  · left; decide
  · right; decide
  · right; decide

/-- The selected word is the specification's row number. -/
theorem selW_eq (masks : S1024x64.Idx → BitVec 32) (op : S64.Idx → BitVec 32) (h : MasksOK masks) (b : Fin 64) :
    selW (BitVec.ofNat 32 (height masks b)) (op (ix1 b)) = BitVec.ofNat 32 (selRow masks op b) := by
  unfold selW selRow
  by_cases ha : IntOp.absi (op (ix1 b)) = 1#32
  · rw [if_pos ha, select_of_eq_one _ _ _ (StableHlo.Predicate.cmpi_eq_iff.mpr ha)]
    exact remW_pred _ (height_le masks h b)
  · rw [if_neg ha, select_of_ne_one _ _ _ (fun e => ha (StableHlo.Predicate.cmpi_eq_iff.mp e))]

/-- A row number up to 1024 is positive as a signed word exactly when it is not 0. -/
theorem sgt_zero (n : Nat) (hn : n ≤ 1024) : IntOp.cmpi .sgt (BitVec.ofNat 32 n) 0#32 = if n = 0 then 0#1 else 1#1 := by
  by_cases hn0 : n = 0
  · subst hn0; decide
  · rw [if_neg hn0]
    refine (StableHlo.Predicate.sgt_iff_toNat (by rw [toNat_row n hn]; omega) (by decide)).mpr ?_
    rw [toNat_row n hn]; show 0 < n; omega

/-- The fetched row is the selected row's predecessor (row 0 for the initial state), and lies inside the input. -/
theorem rowW_toNat (n : Nat) (hn : n ≤ 1024) : (rowW (BitVec.ofNat 32 n)).toNat = n - 1 := by
  unfold rowW
  rw [sgt_zero n hn]
  by_cases hn0 : n = 0
  · subst hn0; rfl
  · rw [if_neg hn0, select_of_eq_one _ _ _ rfl,
      show IntOp.subi (BitVec.ofNat 32 n) 1#32 = BitVec.ofNat 32 (n - 1) from
        StableHlo.Predicate.sub_one_ofNat n (by omega) (by omega),
      toNat_row _ (by omega)]

theorem rowW_lt (n : Nat) (hn : n ≤ 1024) : (rowW (BitVec.ofNat 32 n)).toNat < 1024 := by
  rw [rowW_toNat n hn]; omega

/-- A row number up to 1024 is not negative, so numpy's wrap of negative indices (add 1025) leaves it alone. -/
theorem wrap_id (n : Nat) (hn : n ≤ 1024) :
    Scalar.select (IntOp.cmpi .slt (BitVec.ofNat 32 n) 0#32) (IntOp.addi (BitVec.ofNat 32 n) 1025#32) (BitVec.ofNat 32 n)
      = BitVec.ofNat 32 n := by
  apply select_of_ne_one
  intro e
  have := (StableHlo.Predicate.slt_iff_toNat (by rw [toNat_row n hn]; omega) (by decide)).mp e
  exact absurd this (by show ¬ (BitVec.ofNat 32 n).toNat < 0; omega)

/-- The weight `a = |op|` as an extended real: 0 or 1. -/
theorem weight_zero : FloatOps.sitofp (F := Ideal) .f32 (0#32 : BitVec 32) = (0 : EReal) := by
  show ((((0#32 : BitVec 32).toInt : ℤ) : ℝ) : EReal) = 0
  rw [show (0#32 : BitVec 32).toInt = 0 from by decide]; simp

theorem weight_one : FloatOps.sitofp (F := Ideal) .f32 (1#32 : BitVec 32) = (1 : EReal) := by
  show ((((1#32 : BitVec 32).toInt : ℤ) : ℝ) : EReal) = 1
  rw [show (1#32 : BitVec 32).toInt = 1 from by decide]; simp

end Cert.StackSpec

end
-- ==== Proof.KTables.lean ====
/-
  What the host operations before the kernel region leave in the buffers the kernel reads.

  No host operation writes an argument, so each argument reaches the region as launched. The two tables the kernel
  prefetches are computed word by word from the column sums of the mask words and from the operation words: with
  `p` the column's sum and `o` the operation word, the selected row's word is `p` when `|o| ≠ 1` and the floored
  remainder of `p - 1` by 1025 when `|o| = 1`; one table holds its positivity test widened to 32 bits, the other its
  predecessor (0 when the word is not positive). Every operation on the way is pointwise, a broadcast scalar reads
  its value everywhere, so each table's word at example `b` is the word function of the specification at `b`'s two
  words. Under the preconditions the selected word is the specification's row number, which is at most 1024: the
  fetched row is that number's predecessor and lies below 1024, and the kernel's test of the validity word is the test
  that the row number is not 0.
-/
import proofs.«407332_j39376260169764_2_alg».proof.Proof.Gen.KernelIdeal.Launch
import proofs.«407332_j39376260169764_2_alg».proof.Proof.Words
import Idealize.ShloMosaic.Lib.StableHlo.Run
import Idealize.ShloMosaic.Lib.ValueIdx

noncomputable section

namespace Cert.KernelIdeal.Tables

open Idealize.ShloMosaic Idealize.ShloMosaic.ValueIdx
open Cert.KernelIdeal.Gen

variable {F : FTy → Type} [FloatOps F]
variable (W : Valuation τ sig (Elt F))

/-! ## The arguments reach the region as launched -/

/-- No host operation writes argument 0. -/
theorem after_arg0 : StableHlo.after (hostOps0 (F := F)) W (Proc.devRef .tc main_arg0) = W (Proc.devRef .tc main_arg0) := by
  dsimp only [hostOps0]
  after_results_simp

/-- No host operation writes argument 1. -/
theorem after_arg1 : StableHlo.after (hostOps0 (F := F)) W (Proc.devRef .tc main_arg1) = W (Proc.devRef .tc main_arg1) := by
  dsimp only [hostOps0]
  after_results_simp

/-- No host operation writes argument 2. -/
theorem after_arg2 : StableHlo.after (hostOps0 (F := F)) W (Proc.devRef .tc main_arg2) = W (Proc.devRef .tc main_arg2) := by
  dsimp only [hostOps0]
  after_results_simp

/-- No host operation writes argument 3. -/
theorem after_arg3 : StableHlo.after (hostOps0 (F := F)) W (Proc.devRef .tc main_arg3) = W (Proc.devRef .tc main_arg3) := by
  dsimp only [hostOps0]
  after_results_simp

/-- No host operation writes argument 4. -/
theorem after_arg4 : StableHlo.after (hostOps0 (F := F)) W (Proc.devRef .tc main_arg4) = W (Proc.devRef .tc main_arg4) := by
  dsimp only [hostOps0]
  after_results_simp

/-- No host operation writes argument 5. -/
theorem after_arg5 : StableHlo.after (hostOps0 (F := F)) W (Proc.devRef .tc main_arg5) = W (Proc.devRef .tc main_arg5) := by
  dsimp only [hostOps0]
  after_results_simp

/-! ## The two prefetched tables, word by word -/

/-- The table of rows to fetch: at example `b` the predecessor of the selected row's word, or 0. -/
theorem row_word (b : Fin 64) :
    (StableHlo.after (hostOps0 (F := F)) W (Proc.devRef .tc main_call0_v15) : S64.Idx → BitVec 32) (ix1 b)
      = Cert.StackSpec.rowW (Cert.StackSpec.selW
          (Host.reduce IntOp.addi (W (Proc.devRef .tc main_arg4)) (constantI S_ 32 0#32) reducesTo_S1024x64_S64_d0 h_S_ (ix1 b))
          ((W (Proc.devRef .tc main_arg5) : S64.Idx → BitVec 32) (ix1 b))) := by
  dsimp only [hostOps0]
  after_results_simp
  simp only [StableHlo.TRef.ofBuf, StableHlo.TRef.toBuf, cast_eq]
  rfl

/-- The validity table: at example `b` the positivity test of the selected row's word, as a 32-bit word. -/
theorem valid_word (b : Fin 64) :
    (StableHlo.after (hostOps0 (F := F)) W (Proc.devRef .tc main_call0_v10) : S64.Idx → BitVec 32) (ix1 b)
      = Cert.StackSpec.validW (Cert.StackSpec.selW
          (Host.reduce IntOp.addi (W (Proc.devRef .tc main_arg4)) (constantI S_ 32 0#32) reducesTo_S1024x64_S64_d0 h_S_ (ix1 b))
          ((W (Proc.devRef .tc main_arg5) : S64.Idx → BitVec 32) (ix1 b))) := by
  dsimp only [hostOps0]
  after_results_simp
  simp only [StableHlo.TRef.ofBuf, StableHlo.TRef.toBuf, cast_eq]
  rfl

/-! ## Under the preconditions: the specification's row number -/

section Pre

variable (hM : Cert.StackSpec.MasksOK (W (Proc.devRef .tc main_arg4)))

include hM in
/-- The selected row's word is the specification's row number as a word. -/
theorem sel_eq (b : Fin 64) :
    Cert.StackSpec.selW
        (Host.reduce IntOp.addi (W (Proc.devRef .tc main_arg4)) (constantI S_ 32 0#32) reducesTo_S1024x64_S64_d0 h_S_ (ix1 b))
        ((W (Proc.devRef .tc main_arg5) : S64.Idx → BitVec 32) (ix1 b))
      = BitVec.ofNat 32 (Cert.StackSpec.selRow (W (Proc.devRef .tc main_arg4)) (W (Proc.devRef .tc main_arg5)) b) := by
  rw [Cert.StackSpec.reduce_height (W (Proc.devRef .tc main_arg4)) hM reducesTo_S1024x64_S64_d0 h_S_ b]
  exact Cert.StackSpec.selW_eq (W (Proc.devRef .tc main_arg4)) (W (Proc.devRef .tc main_arg5)) hM b

include hM in
/-- The fetched row is the predecessor of the specification's row number (row 0 for the initial state). -/
theorem row_toNat (b : Fin 64) :
    ((StableHlo.after (hostOps0 (F := F)) W (Proc.devRef .tc main_call0_v15) : S64.Idx → BitVec 32) (ix1 b)).toNat
      = Cert.StackSpec.selRow (W (Proc.devRef .tc main_arg4)) (W (Proc.devRef .tc main_arg5)) b - 1 := by
  rw [row_word, sel_eq W hM b]
  exact Cert.StackSpec.rowW_toNat _ (Cert.StackSpec.selRow_le _ _ hM b)

include hM in
/-- The fetched row lies inside the input's 1024 rows. -/
theorem row_lt (b : Fin 64) :
    ((StableHlo.after (hostOps0 (F := F)) W (Proc.devRef .tc main_call0_v15) : S64.Idx → BitVec 32) (ix1 b)).toNat < 1024 := by
  rw [row_word, sel_eq W hM b]
  exact Cert.StackSpec.rowW_lt _ (Cert.StackSpec.selRow_le _ _ hM b)

include hM in
/-- The validity word is positive exactly when the specification's row number is not 0. -/
theorem valid_sgt (b : Fin 64) :
    IntOp.cmpi .sgt ((StableHlo.after (hostOps0 (F := F)) W (Proc.devRef .tc main_call0_v10) : S64.Idx → BitVec 32) (ix1 b)) 0#32
      = if Cert.StackSpec.selRow (W (Proc.devRef .tc main_arg4)) (W (Proc.devRef .tc main_arg5)) b = 0 then 0#1 else 1#1 := by
  rw [valid_word, sel_eq W hM b]
  unfold Cert.StackSpec.validW
  rw [Cert.StackSpec.sgt_zero _ (Cert.StackSpec.selRow_le _ _ hM b)]
  split <;> rfl

end Pre

end Cert.KernelIdeal.Tables

end
-- ==== Proof.KHyps.lean ====
/-
  The side conditions of the kernel's run, from the mask words.

  At grid point t the body reads, for j = 0 … 7, the word of the first table at cell 8t + j and copies, out of each
  state array, the block of one row and one example that starts at that row, example 8t + j, feature 0. The block
  lies inside the array when the row word is below 1024 (the example index is at most 63 and the block spans all 1024
  features). A one-word read of the whole table at offset 8t + j is the table's entry there; the table is what the host
  operations before the region leave in its buffer; and with every mask word 0 or 1 each of its entries is below 1024.
-/
import proofs.«407332_j39376260169764_2_alg».proof.Proof.KBody
import proofs.«407332_j39376260169764_2_alg».proof.Proof.KTables

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ)

/-! ## One word of the first table -/

/-- A word read through the first table's whole view at a one-element rectangle is the table's entry at the
    rectangle's offset. -/
theorem word_at (f : S64.Idx → BitVec 32) (off : Fin 1 → Nat) (inb : ∀ a, off a + S1.size a ≤ S64.size a) (h1 : 0 < S1.numel)
    (b : Fin 64) (hb : off 0 = b.val) :
    tbM0.view.readAt (Elt F) (Rect.unit (s := S64) off S1.size inb).toLoadRect f (Shape.Idx.first h1) = f (ix1 b) := by
  show f _ = f _
  congr 1
  funext a
  apply Fin.ext
  have ha : a = (0 : Fin 1) := Subsingleton.elim (α := Fin 1) _ _
  subst ha
  show off 0 + 1 * (Shape.Idx.first h1 (0 : Fin 1)).val = b.val
  have h0 : (Shape.Idx.first h1 (0 : Fin 1)).val = 0 := by
    have hlt := (Shape.Idx.first h1 (0 : Fin 1)).isLt
    have e : S1.size (0 : Fin 1) = 1 := by decide
    omega
  rw [h0, hb]; omega

/-- The first table when the region is entered is what the host operations leave in its buffer. -/
theorem tbl_zero : (tbl m 0 : S64.Idx → BitVec 32)
    = StableHlo.after (hostOps0 (F := F)) (fun b => m ((0 : Dev nD), b)) (Proc.devRef .tc main_call0_v15) := rfl

/-! ## The checks -/

/-- A one-row, one-example, full-width block at row `o 0 < 1024`, example `o 1 < 64`, feature 0 lies inside a state array. -/
theorem chk_of (o : Fin 3 → Nat) (h0 : o 0 < 1024) (h1 : o 1 < 64) (h2 : o 2 = 0) :
    ∀ a, o a + S1x1x1024.size a ≤ S1024x64x1024.size a := by
  intro a
  fin_cases a
  · show o 0 + 1 ≤ 1024; omega
  · show o 1 + 1 ≤ 64; omega
  · show o 2 + 1024 ≤ 1024; omega

/-- Example 8t + j of grid point t. -/
def cell (i : grid0.Coords) (j : Fin 8) : Fin 64 := ⟨8 * (i 0).val + j.val, by have h : (i 0).val < 8 := (i 0).isLt; have := j.isLt; omega⟩

/-- The example coordinate of each block's offset is 8t + j as a word, whatever the row word: below 64 at every grid point. -/
theorem col2 : ∀ i : grid0.Coords, (k0_off2 i 0#32) 1 < 64 := by decide +kernel
theorem col4 : ∀ i : grid0.Coords, (k0_off4 i 0#32) 1 < 64 := by decide +kernel
theorem col6 : ∀ i : grid0.Coords, (k0_off6 i 0#32) 1 < 64 := by decide +kernel
theorem col8 : ∀ i : grid0.Coords, (k0_off8 i 0#32) 1 < 64 := by decide +kernel
theorem col10 : ∀ i : grid0.Coords, (k0_off10 i 0#32) 1 < 64 := by decide +kernel
theorem col12 : ∀ i : grid0.Coords, (k0_off12 i 0#32) 1 < 64 := by decide +kernel
theorem col14 : ∀ i : grid0.Coords, (k0_off14 i 0#32) 1 < 64 := by decide +kernel
theorem col16 : ∀ i : grid0.Coords, (k0_off16 i 0#32) 1 < 64 := by decide +kernel

/-- Each check holds of a row word below 1024: its block starts at row `v`, example 8t + j, feature 0. -/
theorem chk1_of_lt (i : grid0.Coords) (v : BitVec 32) (hv : v.toNat < 1024) : k0_chk1 i v := chk_of (k0_off2 i v) hv (col2 i) rfl
theorem chk2_of_lt (i : grid0.Coords) (v : BitVec 32) (hv : v.toNat < 1024) : k0_chk2 i v := chk_of (k0_off4 i v) hv (col4 i) rfl
theorem chk3_of_lt (i : grid0.Coords) (v : BitVec 32) (hv : v.toNat < 1024) : k0_chk3 i v := chk_of (k0_off6 i v) hv (col6 i) rfl
theorem chk4_of_lt (i : grid0.Coords) (v : BitVec 32) (hv : v.toNat < 1024) : k0_chk4 i v := chk_of (k0_off8 i v) hv (col8 i) rfl
theorem chk5_of_lt (i : grid0.Coords) (v : BitVec 32) (hv : v.toNat < 1024) : k0_chk5 i v := chk_of (k0_off10 i v) hv (col10 i) rfl
theorem chk6_of_lt (i : grid0.Coords) (v : BitVec 32) (hv : v.toNat < 1024) : k0_chk6 i v := chk_of (k0_off12 i v) hv (col12 i) rfl
theorem chk7_of_lt (i : grid0.Coords) (v : BitVec 32) (hv : v.toNat < 1024) : k0_chk7 i v := chk_of (k0_off14 i v) hv (col14 i) rfl
theorem chk8_of_lt (i : grid0.Coords) (v : BitVec 32) (hv : v.toNat < 1024) : k0_chk8 i v := chk_of (k0_off16 i v) hv (col16 i) rfl

/-! ## The hypothesis of the run, from the mask words -/

/-- With every mask word 0 or 1 each row word the body reads lies below 1024, so every block it copies lies inside the
    state arrays. -/
theorem hyps_of_masks (hM : Cert.StackSpec.MasksOK (m ((0 : Dev nD), Proc.devRef .tc main_arg4))) : Hyps (F := F) m := by
  intro i
  -- the table's words are kept as one function `T`: only its bound is used
  have row : ∀ b : Fin 64, ((tbl m 0 : S64.Idx → BitVec 32) (ix1 b)).toNat < 1024 := fun b => by
    rw [tbl_zero]; exact Cert.KernelIdeal.Tables.row_lt (fun b => m ((0 : Dev nD), b)) hM b
  generalize (tbl m 0 : S64.Idx → BitVec 32) = T at row ⊢
  refine ⟨?_, ?_, ?_, ?_, ?_, ?_, ?_, ?_⟩
  · rw [word_at (F := F) T (k0_off1 i) _ _ (cell i 0) (congrFun (k0_off1_eq i) 0)]
    exact chk1_of_lt i _ (row _)
  · rw [word_at (F := F) T (k0_off3 i) _ _ (cell i 1) (congrFun (k0_off3_eq i) 0)]
    exact chk2_of_lt i _ (row _)
  · rw [word_at (F := F) T (k0_off5 i 2#32) _ _ (cell i 2) (congrFun (k0_off5_eq i 1) 0)]
    exact chk3_of_lt i _ (row _)
  · rw [word_at (F := F) T (k0_off7 i 3#32) _ _ (cell i 3) (congrFun (k0_off7_eq i 1) 0)]
    exact chk4_of_lt i _ (row _)
  · rw [word_at (F := F) T (k0_off9 i 4#32) _ _ (cell i 4) (congrFun (k0_off9_eq i 1) 0)]
    exact chk5_of_lt i _ (row _)
  · rw [word_at (F := F) T (k0_off11 i 5#32) _ _ (cell i 5) (congrFun (k0_off11_eq i 1) 0)]
    exact chk6_of_lt i _ (row _)
  · rw [word_at (F := F) T (k0_off13 i 6#32) _ _ (cell i 6) (congrFun (k0_off13_eq i 1) 0)]
    exact chk7_of_lt i _ (row _)
  · rw [word_at (F := F) T (k0_off15 i 7#32) _ _ (cell i 7) (congrFun (k0_off15_eq i 1) 0)]
    exact chk8_of_lt i _ (row _)

/-- info: 'Cert.KernelIdeal.KFrame.hyps_of_masks' depends on axioms: [propext, Classical.choice, Quot.sound] -/
#guard_msgs (whitespace := lax) in #print axioms hyps_of_masks

end Cert.KernelIdeal.KFrame

end
-- ==== Proof.KFrameOf.lean ====
/-
  The kernel's frame: the six arguments end as launched.

  The run of @main ends with every window's array at what the proof data computes and every other unscoped buffer as
  the region found it. The two initial states are input windows: an input's array ends at its entry contents. The two
  state arrays, the mask words and the operation words are no window's array: they end as the region found them. And
  the region found all six as launched, because no host operation before it writes an argument.
-/
import proofs.«407332_j39376260169764_2_alg».proof.Proof.KBody

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- From any memory with zero counters every weakly fair execution of @main terminates, and every argument array ends
    holding what it held at launch. -/
theorem frame (hH : Hyps m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats m hH 0 c).arrAt_in 0 rfl _).trans ((A_eq m hH c 0).trans (V_main_arg2 m c))),
      ((h c).1 1).trans (((dats m hH 0 c).arrAt_in 1 rfl _).trans ((A_eq m hH c 1).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hH)

end Cert.KernelIdeal.KFrame

end
-- ==== Proof.BSetup.lean ====
/-
  The kernel's frame, first part: what the region is entered with and what the body is handed.

  Before the region @main computes, from the mask and operation words, two tables of 64 words (which input row each
  example fetches, and whether it fetches one at all); the region reads them from scalar memory. The two large state
  arrays stay in main memory and the body copies single rows out of them itself, into a two-slot scratch per array,
  on four semaphore cells of its own, every copy waited for before the grid point ends. So between grid points nothing
  is in flight: the scratch holds anything, the four cells read zero, and the two arrays hold what they held at launch.
-/
import proofs.«407332_j39376260169764_2_alg».proof.Proof.Gen.Kernel.Launch
import proofs.«407332_j39376260169764_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the region is entered: the host operations before it have run. -/
abbrev V (c : Dev nD) (b : Ref sig .tc) : Buf (Elt F) ((c : Thread nD τ).loc b) :=
  StableHlo.after hostOps0 (fun b => m (c, b)) b

/-- The two tables as the body is handed them: whole scalar-memory buffers. -/
abbrev tbM0 : Memref sig .tc .smem S64 .i32 := Memref.whole main_call0_v15
abbrev htbM0 : tbM0.IsWhole := Memref.isWhole_whole _
abbrev tbM1 : Memref sig .tc .smem S64 .i32 := Memref.whole main_call0_v10
abbrev htbM1 : tbM1.IsWhole := Memref.isWhole_whole _
/-- The two scratch buffers (two rows each) and the two state arrays left in main memory. -/
abbrev scM0 : Memref sig .tc .vmem S2x1024 .f32 := Memref.whole cc0_scratch0
abbrev scM1 : Memref sig .tc .vmem S2x1024 .f32 := Memref.whole cc0_scratch1
abbrev hbM0 : Memref sig .tc .hbm S1024x64x1024 .f32 := Memref.whole main_arg0
abbrev hbM1 : Memref sig .tc .hbm S1024x64x1024 .f32 := Memref.whole main_arg1

/-- A memref's buffer on core `c`, and that buffer held whole (a state array) or at half a share (a table, which the
    region keeps the other half of and only reads). -/
abbrev BufOf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : BufOf (F := F) c M) : sProp 𝕄 :=
  M.view.loc (c : Thread nD τ) ↦{fullShare} f
abbrev tbPt (c : Dev nD) {S : Shape} {e : EltTy} (M : Memref sig .tc .smem S e) (f : BufOf (F := F) c M) : sProp 𝕄 :=
  M.view.loc (c : Thread nD τ) ↦{fullShare.right} f

end Cert.Kernel.KFrame

end
-- ==== Proof.BSlots.lean ====
/-
  The two-row scratch buffers as two slots each.

  Row j of a grid point is copied into slot j mod 2 while the body still reads the other slot, so a scratch buffer is
  never held whole during the point: it is held as its two rows, which are disjoint and together are the buffer.
  A copy in flight borrows one row; the body reads the other.
-/
import proofs.«407332_j39376260169764_2_alg».proof.Proof.BSetup

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The rows of a two-row scratch, as sets of indices: row `s` is the block at leading offset `s`. -/
theorem inb_slot (s : Fin 2) : ∀ a, (![s.val, 0] : Fin 2 → Nat) a + S1x1024.size a ≤ S2x1024.size a := by
  have := s.isLt; intro a; fin_cases a <;> simp <;> omega
abbrev slotSet (s : Fin 2) : Finset S2x1024.Idx := (Rect.unit (s := S2x1024) ![s.val, 0] S1x1024.size (inb_slot s)).set
theorem slots_disjoint (s s' : Fin 2) (h : s ≠ s') : Disjoint (slotSet s) (slotSet s') :=
  Ring.lead_disjoint (s := S2x1024) (0 : Fin 2) 1 (fun s : Fin 2 => (![s.val, 0] : Fin 2 → Nat)) S1x1024.size inb_slot (fun s => by simp) rfl s s' h
theorem slots_cover : Finset.univ.biUnion slotSet = Finset.univ :=
  Ring.lead_cover (s := S2x1024) (0 : Fin 2) 1 (fun s : Fin 2 => (![s.val, 0] : Fin 2 → Nat)) S1x1024.size inb_slot (fun s => by simp)
    (fun s a ha => by fin_cases a <;> first | exact absurd rfl ha | rfl) rfl (fun a ha => by fin_cases a <;> first | exact absurd rfl ha | rfl) rfl

/-- A slot held at `f`: the slot memref's own elements of the scratch buffer. -/
abbrev slotPt (c : Dev nD) (M : Memref sig .tc .vmem S1024 .f32) (f : BufOf (F := F) c M) : sProp 𝕄 :=
  M.view.loc (c : Thread nD τ) ↦[M.view.set]{fullShare} f

/-! ### The two slots of scratch `cc0_scratch0` -/

/-- Slot 0 and slot 1 of the scratch, spelt as the body's copies spell their destination: one row, squeezed. -/
abbrev sA0 : Memref sig .tc .vmem S1024 .f32 :=
  (scM0.slice (Rect.unit (s := S2x1024) ![0, 0] S1x1024.size inb_S2x1024_S1x1024_0_0) (fun _ => rfl)).squeeze S1024 squeezes_S1x1024_S1024
abbrev sA1 : Memref sig .tc .vmem S1024 .f32 :=
  (scM0.slice (Rect.unit (s := S2x1024) ![1, 0] S1x1024.size inb_S2x1024_S1x1024_1_0) (fun _ => rfl)).squeeze S1024 squeezes_S1x1024_S1024

theorem set_sA0 : sA0.view.set = slotSet 0 := by
  simp only [sA0, Memref.view_squeeze, View.set_reshape]; exact View.set_slice_whole _ _
theorem set_sA1 : sA1.view.set = slotSet 1 := by
  simp only [sA1, Memref.view_squeeze, View.set_reshape]; exact View.set_slice_whole _ _

section
variable (c : Dev nD)
theorem slotPt_sA0 (f : BufOf (F := F) c sA0) : slotPt (F := F) c sA0 f = (((c : Thread nD τ).loc cc0_scratch0) ↦[slotSet 0]{fullShare} f : sProp 𝕄) := by
  unfold slotPt; rw [set_sA0]
theorem slotPt_sA1 (f : BufOf (F := F) c sA1) : slotPt (F := F) c sA1 f = (((c : Thread nD τ).loc cc0_scratch0) ↦[slotSet 1]{fullShare} f : sProp 𝕄) := by
  unfold slotPt; rw [set_sA1]

set_option maxHeartbeats 1000000 in
/-- The scratch whole at anything is its two rows at something each, and back. -/
theorem slotsA_in : iprop(∃ d, owns (c : Thread nD τ) scM0 fullShare d) ⊢ (iprop((∃ f, slotPt (F := F) c sA0 f) ∗ ∃ f, slotPt (F := F) c sA1 f) : sProp 𝕄) := by
  simp only [scM0, owns_whole]
  exact Ring.slots2_split (U := Pipeline.UD sig nD τ) (ℓ := (c : Thread nD τ).loc cc0_scratch0) (q := fullShare) slotSet slots_disjoint slots_cover
    (slotPt c sA0) (slotPt c sA1) (slotPt_sA0 c) (slotPt_sA1 c)
set_option maxHeartbeats 1000000 in
theorem slotsA_out : (iprop((∃ f, slotPt (F := F) c sA0 f) ∗ ∃ f, slotPt (F := F) c sA1 f) : sProp 𝕄) ⊢ iprop(∃ d, owns (c : Thread nD τ) scM0 fullShare d) := by
  simp only [scM0, owns_whole]
  exact Ring.slots2_join (U := Pipeline.UD sig nD τ) (ℓ := (c : Thread nD τ).loc cc0_scratch0) (q := fullShare) slotSet slots_disjoint slots_cover
    (slotPt c sA0) (slotPt c sA1) (slotPt_sA0 c) (slotPt_sA1 c)
end

/-! ### The two slots of scratch `cc0_scratch1` -/

/-- Slot 0 and slot 1 of the scratch, spelt as the body's copies spell their destination: one row, squeezed. -/
abbrev sB0 : Memref sig .tc .vmem S1024 .f32 :=
  (scM1.slice (Rect.unit (s := S2x1024) ![0, 0] S1x1024.size inb_S2x1024_S1x1024_0_0) (fun _ => rfl)).squeeze S1024 squeezes_S1x1024_S1024
abbrev sB1 : Memref sig .tc .vmem S1024 .f32 :=
  (scM1.slice (Rect.unit (s := S2x1024) ![1, 0] S1x1024.size inb_S2x1024_S1x1024_1_0) (fun _ => rfl)).squeeze S1024 squeezes_S1x1024_S1024

theorem set_sB0 : sB0.view.set = slotSet 0 := by
  simp only [sB0, Memref.view_squeeze, View.set_reshape]; exact View.set_slice_whole _ _
theorem set_sB1 : sB1.view.set = slotSet 1 := by
  simp only [sB1, Memref.view_squeeze, View.set_reshape]; exact View.set_slice_whole _ _

section
variable (c : Dev nD)
theorem slotPt_sB0 (f : BufOf (F := F) c sB0) : slotPt (F := F) c sB0 f = (((c : Thread nD τ).loc cc0_scratch1) ↦[slotSet 0]{fullShare} f : sProp 𝕄) := by
  unfold slotPt; rw [set_sB0]
theorem slotPt_sB1 (f : BufOf (F := F) c sB1) : slotPt (F := F) c sB1 f = (((c : Thread nD τ).loc cc0_scratch1) ↦[slotSet 1]{fullShare} f : sProp 𝕄) := by
  unfold slotPt; rw [set_sB1]

set_option maxHeartbeats 1000000 in
/-- The scratch whole at anything is its two rows at something each, and back. -/
theorem slotsB_in : iprop(∃ d, owns (c : Thread nD τ) scM1 fullShare d) ⊢ (iprop((∃ f, slotPt (F := F) c sB0 f) ∗ ∃ f, slotPt (F := F) c sB1 f) : sProp 𝕄) := by
  simp only [scM1, owns_whole]
  exact Ring.slots2_split (U := Pipeline.UD sig nD τ) (ℓ := (c : Thread nD τ).loc cc0_scratch1) (q := fullShare) slotSet slots_disjoint slots_cover
    (slotPt c sB0) (slotPt c sB1) (slotPt_sB0 c) (slotPt_sB1 c)
set_option maxHeartbeats 1000000 in
theorem slotsB_out : (iprop((∃ f, slotPt (F := F) c sB0 f) ∗ ∃ f, slotPt (F := F) c sB1 f) : sProp 𝕄) ⊢ iprop(∃ d, owns (c : Thread nD τ) scM1 fullShare d) := by
  simp only [scM1, owns_whole]
  exact Ring.slots2_join (U := Pipeline.UD sig nD τ) (ℓ := (c : Thread nD τ).loc cc0_scratch1) (q := fullShare) slotSet slots_disjoint slots_cover
    (slotPt c sB0) (slotPt c sB1) (slotPt_sB0 c) (slotPt_sB1 c)
end

end Cert.Kernel.KFrame

end
-- ==== Proof.BRun.lean ====
/-
  The kernel's body at one grid point, run once on any staging buffers.

  Handed the two initial-state blocks, the two output blocks at anything, the two scratch buffers as their slots at anything, its
  four semaphore cells at zero, the two state arrays whole and the two tables, the body does the same thing for each
  of its eight rows j: it reads the row's table word (assumed inside the array: the hypotheses below), starts two
  copies of one input row into a scratch slot (slot j mod 2), waits for both, starts the next row's copies into the
  other slot, and stores into row j of each output block either the copied row or the initial state. Every copy is
  waited for before its slot is read and before the point ends, so the cells are back at zero and the arrays are as
  they were; what the eight stores leave in each output block is recorded as a list of pieces.
-/
import proofs.«407332_j39376260169764_2_alg».proof.Proof.BSlots

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the run's proof term is large: the definition's epilogue walks it past the default budget
set_option maxHeartbeats 4000000 in
/-- The pieces the body's stores leave in the two output blocks (last first), with the proof that the body runs to the
    continuation holding every buffer it was handed: the inputs as they were, each output block with its pieces
    written, the scratch at some contents, the cells at zero, the arrays and tables as they were. -/
noncomputable def kernelRun (c : Dev nD) (i : grid0.Coords)
    (arg3 : Memref sig .tc .vmem S1024 .f32) (harg3 : arg3.IsWhole) (arg4 : Memref sig .tc .vmem S1024 .f32) (harg4 : arg4.IsWhole)
    (arg7 : Memref sig .tc .vmem S8x1024 .f32) (harg7 : arg7.IsWhole) (arg8 : Memref sig .tc .vmem S8x1024 .f32) (harg8 : arg8.IsWhole)
    (x0 x1 : Vec F S1024 .f32) (xt0 : BufOf (F := F) c tbM0) (xt1 : BufOf (F := F) c tbM1)
    (fh0 : BufOf (F := F) c hbM0) (fh1 : BufOf (F := F) c hbM1)
    (k0_hw1 : k0_chk1 i (tbM0.view.readAt (Elt F) (Rect.unit (s := S64) (k0_off1 i) S1.size (k0_off1_inb i)).toLoadRect xt0 (Shape.Idx.first (numel1_S1.symm ▸ Nat.one_pos))))
    (k0_hw2 : k0_chk2 i (tbM0.view.readAt (Elt F) (Rect.unit (s := S64) (k0_off3 i) S1.size (k0_off3_inb i)).toLoadRect xt0 (Shape.Idx.first (numel1_S1.symm ▸ Nat.one_pos))))
    (k0_hw3 : k0_chk3 i (tbM0.view.readAt (Elt F) (Rect.unit (s := S64) (k0_off5 i 2#32) S1.size (k0_off5_inb i 1)).toLoadRect xt0 (Shape.Idx.first (numel1_S1.symm ▸ Nat.one_pos))))
    (k0_hw4 : k0_chk4 i (tbM0.view.readAt (Elt F) (Rect.unit (s := S64) (k0_off7 i 3#32) S1.size (k0_off7_inb i 1)).toLoadRect xt0 (Shape.Idx.first (numel1_S1.symm ▸ Nat.one_pos))))
    (k0_hw5 : k0_chk5 i (tbM0.view.readAt (Elt F) (Rect.unit (s := S64) (k0_off9 i 4#32) S1.size (k0_off9_inb i 1)).toLoadRect xt0 (Shape.Idx.first (numel1_S1.symm ▸ Nat.one_pos))))
    (k0_hw6 : k0_chk6 i (tbM0.view.readAt (Elt F) (Rect.unit (s := S64) (k0_off11 i 5#32) S1.size (k0_off11_inb i 1)).toLoadRect xt0 (Shape.Idx.first (numel1_S1.symm ▸ Nat.one_pos))))
    (k0_hw7 : k0_chk7 i (tbM0.view.readAt (Elt F) (Rect.unit (s := S64) (k0_off13 i 6#32) S1.size (k0_off13_inb i 1)).toLoadRect xt0 (Shape.Idx.first (numel1_S1.symm ▸ Nat.one_pos))))
    (k0_hw8 : k0_chk8 i (tbM0.view.readAt (Elt F) (Rect.unit (s := S64) (k0_off15 i 7#32) S1.size (k0_off15_inb i 1)).toLoadRect xt0 (Shape.Idx.first (numel1_S1.symm ▸ Nat.one_pos)))) :
    Σ' (L2 : List (View.Piece (Elt F) S8x1024 .f32)), { L3 : List (View.Piece (Elt F) S8x1024 .f32) //
      ∀ (W : Waits sig Unit) (K : PUnit → sProp 𝕄),
        iprop(owns (c : Thread nD τ) arg3 fullShare x0 ∗ owns (c : Thread nD τ) arg4 fullShare x1
            ∗ (∃ d, owns (c : Thread nD τ) arg7 fullShare d) ∗ (∃ d, owns (c : Thread nD τ) arg8 fullShare d)
            ∗ (∃ f, slotPt (F := F) c sA0 f) ∗ (∃ f, slotPt (F := F) c sA1 f) ∗ (∃ f, slotPt (F := F) c sB0 f) ∗ (∃ f, slotPt (F := F) c sB1 f)
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ hbPt c hbM0 fh0 ∗ hbPt c hbM1 fh1 ∗ tbPt c tbM0 xt0 ∗ tbPt c tbM1 xt1 ∗ owes (c : Thread nD τ) 0 W
            ∗ (iprop(owns (c : Thread nD τ) arg3 fullShare x0 ∗ owns (c : Thread nD τ) arg4 fullShare x1
                ∗ (∃ f, arg7.view.loc (c : Thread nD τ) ↦[arg7.view.set]{fullShare} arg7.view.writes (Elt F) f L2)
                ∗ (∃ f, arg8.view.loc (c : Thread nD τ) ↦[arg8.view.set]{fullShare} arg8.view.writes (Elt F) f L3)
                ∗ (∃ f, slotPt (F := F) c sA0 f) ∗ (∃ f, slotPt (F := F) c sA1 f) ∗ (∃ f, slotPt (F := F) c sB0 f) ∗ (∃ f, slotPt (F := F) c sB1 f)
                ∗ semVal ((c : Thread nD τ), SemLoc.dma 6) 0 ∗ semVal ((c : Thread nD τ), SemLoc.dma 7) 0
                ∗ semVal ((c : Thread nD τ), SemLoc.dma 8) 0 ∗ semVal ((c : Thread nD τ), SemLoc.dma 9) 0
                ∗ hbPt c hbM0 fh0 ∗ hbPt c hbM1 fh1 ∗ tbPt c tbM0 xt0 ∗ tbPt c tbM1 xt1 ∗ (∃ W', owes (c : Thread nD τ) 0 W')) -∗ K ⟨⟩))
          ⊢ wp frame (wpE (defs₀ (F := F)) Variants.none c none) Set.univ
              (cc0_kernel i tbM0 htbM0 tbM1 htbM1 arg3 harg3 arg4 harg4 hbM0 (Memref.isWhole_whole _) hbM1 (Memref.isWhole_whole _)
                arg7 harg7 arg8 harg8 scM0 (Memref.isWhole_whole _) scM1 (Memref.isWhole_whole _) cc0_scratch2 cc0_scratch3) K } := by
  refine ⟨?_, ?_, fun W K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%d7, %f7, -, H7⟩, ⟨%d8, %f8, -, H8⟩, ⟨%fa0, HA0⟩, ⟨%fa1, HA1⟩, ⟨%fb0, HB0⟩, ⟨%fb1, HB1⟩, Hq6, Hq7, Hq8, Hq9, Hh0, Hh1, HT0, HT1, HW, Hk⟩
    obtain rfl := harg3.eq_unread hf0
    obtain rfl := harg4.eq_unread hf1
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg3.read_unread _
      iexact H0
    isplitl [H1]
    · iexists _; isplitr; · ipureintro; exact harg4.read_unread _
      iexact H1
    isplitl [H7]; · iexists _; iexact H7
    isplitl [H8]; · iexists _; iexact H8
    isplitl [HA0]; · iexists _; iexact HA0
    isplitl [HA1]; · iexists _; iexact HA1
    isplitl [HB0]; · iexists _; iexact HB0
    isplitl [HB1]; · iexists _; iexact HB1
    isplitl [Hq6]; · iexact Hq6
    isplitl [Hq7]; · iexact Hq7
    isplitl [Hq8]; · iexact Hq8
    isplitl [Hq9]; · iexact Hq9
    isplitl [Hh0]; · iexact Hh0
    isplitl [Hh1]; · iexact Hh1
    isplitl [HT0]; · iexact HT0
    isplitl [HT1]; · iexact HT1
    iexists _; iexact HW

end Cert.Kernel.KFrame

end
-- ==== Proof.BCover.lean ====
/-
  The eight rows the body stores tile each output block.

  Row j of an output block is stored once, whole, for j = 0 … 7; the rows are disjoint and fill the 8 × 1024 block.
  So every index of the block lies in one stored piece, whatever the values stored.
-/
import proofs.«407332_j39376260169764_2_alg».proof.Proof.BRun

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem cover2 (c : Dev nD) (i : grid0.Coords)
    (arg3 : Memref sig .tc .vmem S1024 .f32) (harg3 : arg3.IsWhole) (arg4 : Memref sig .tc .vmem S1024 .f32) (harg4 : arg4.IsWhole)
    (arg7 : Memref sig .tc .vmem S8x1024 .f32) (harg7 : arg7.IsWhole) (arg8 : Memref sig .tc .vmem S8x1024 .f32) (harg8 : arg8.IsWhole)
    (x0 x1 : Vec F S1024 .f32) (xt0 : BufOf (F := F) c tbM0) (xt1 : BufOf (F := F) c tbM1)
    (fh0 : BufOf (F := F) c hbM0) (fh1 : BufOf (F := F) c hbM1)
    (k0_hw1 : k0_chk1 i (tbM0.view.readAt (Elt F) (Rect.unit (s := S64) (k0_off1 i) S1.size (k0_off1_inb i)).toLoadRect xt0 (Shape.Idx.first (numel1_S1.symm ▸ Nat.one_pos))))
    (k0_hw2 : k0_chk2 i (tbM0.view.readAt (Elt F) (Rect.unit (s := S64) (k0_off3 i) S1.size (k0_off3_inb i)).toLoadRect xt0 (Shape.Idx.first (numel1_S1.symm ▸ Nat.one_pos))))
    (k0_hw3 : k0_chk3 i (tbM0.view.readAt (Elt F) (Rect.unit (s := S64) (k0_off5 i 2#32) S1.size (k0_off5_inb i 1)).toLoadRect xt0 (Shape.Idx.first (numel1_S1.symm ▸ Nat.one_pos))))
    (k0_hw4 : k0_chk4 i (tbM0.view.readAt (Elt F) (Rect.unit (s := S64) (k0_off7 i 3#32) S1.size (k0_off7_inb i 1)).toLoadRect xt0 (Shape.Idx.first (numel1_S1.symm ▸ Nat.one_pos))))
    (k0_hw5 : k0_chk5 i (tbM0.view.readAt (Elt F) (Rect.unit (s := S64) (k0_off9 i 4#32) S1.size (k0_off9_inb i 1)).toLoadRect xt0 (Shape.Idx.first (numel1_S1.symm ▸ Nat.one_pos))))
    (k0_hw6 : k0_chk6 i (tbM0.view.readAt (Elt F) (Rect.unit (s := S64) (k0_off11 i 5#32) S1.size (k0_off11_inb i 1)).toLoadRect xt0 (Shape.Idx.first (numel1_S1.symm ▸ Nat.one_pos))))
    (k0_hw7 : k0_chk7 i (tbM0.view.readAt (Elt F) (Rect.unit (s := S64) (k0_off13 i 6#32) S1.size (k0_off13_inb i 1)).toLoadRect xt0 (Shape.Idx.first (numel1_S1.symm ▸ Nat.one_pos))))
    (k0_hw8 : k0_chk8 i (tbM0.view.readAt (Elt F) (Rect.unit (s := S64) (k0_off15 i 7#32) S1.size (k0_off15_inb i 1)).toLoadRect xt0 (Shape.Idx.first (numel1_S1.symm ▸ Nat.one_pos)))) (y : S8x1024.Idx) :
    ∃ pc ∈ (kernelRun (F := F) c i arg3 harg3 arg4 harg4 arg7 harg7 arg8 harg8 x0 x1 xt0 xt1 fh0 fh1 k0_hw1 k0_hw2 k0_hw3 k0_hw4 k0_hw5 k0_hw6 k0_hw7 k0_hw8).1, y ∈ pc.1.set :=
  View.cover_of_tiledL (kernelRun (F := F) c i arg3 harg3 arg4 harg4 arg7 harg7 arg8 harg8 x0 x1 xt0 xt1 fh0 fh1 k0_hw1 k0_hw2 k0_hw3 k0_hw4 k0_hw5 k0_hw6 k0_hw7 k0_hw8).1 S1x1024.size (by sl_kernel_rfl) y

theorem cover3 (c : Dev nD) (i : grid0.Coords)
    (arg3 : Memref sig .tc .vmem S1024 .f32) (harg3 : arg3.IsWhole) (arg4 : Memref sig .tc .vmem S1024 .f32) (harg4 : arg4.IsWhole)
    (arg7 : Memref sig .tc .vmem S8x1024 .f32) (harg7 : arg7.IsWhole) (arg8 : Memref sig .tc .vmem S8x1024 .f32) (harg8 : arg8.IsWhole)
    (x0 x1 : Vec F S1024 .f32) (xt0 : BufOf (F := F) c tbM0) (xt1 : BufOf (F := F) c tbM1)
    (fh0 : BufOf (F := F) c hbM0) (fh1 : BufOf (F := F) c hbM1)
    (k0_hw1 : k0_chk1 i (tbM0.view.readAt (Elt F) (Rect.unit (s := S64) (k0_off1 i) S1.size (k0_off1_inb i)).toLoadRect xt0 (Shape.Idx.first (numel1_S1.symm ▸ Nat.one_pos))))
    (k0_hw2 : k0_chk2 i (tbM0.view.readAt (Elt F) (Rect.unit (s := S64) (k0_off3 i) S1.size (k0_off3_inb i)).toLoadRect xt0 (Shape.Idx.first (numel1_S1.symm ▸ Nat.one_pos))))
    (k0_hw3 : k0_chk3 i (tbM0.view.readAt (Elt F) (Rect.unit (s := S64) (k0_off5 i 2#32) S1.size (k0_off5_inb i 1)).toLoadRect xt0 (Shape.Idx.first (numel1_S1.symm ▸ Nat.one_pos))))
    (k0_hw4 : k0_chk4 i (tbM0.view.readAt (Elt F) (Rect.unit (s := S64) (k0_off7 i 3#32) S1.size (k0_off7_inb i 1)).toLoadRect xt0 (Shape.Idx.first (numel1_S1.symm ▸ Nat.one_pos))))
    (k0_hw5 : k0_chk5 i (tbM0.view.readAt (Elt F) (Rect.unit (s := S64) (k0_off9 i 4#32) S1.size (k0_off9_inb i 1)).toLoadRect xt0 (Shape.Idx.first (numel1_S1.symm ▸ Nat.one_pos))))
    (k0_hw6 : k0_chk6 i (tbM0.view.readAt (Elt F) (Rect.unit (s := S64) (k0_off11 i 5#32) S1.size (k0_off11_inb i 1)).toLoadRect xt0 (Shape.Idx.first (numel1_S1.symm ▸ Nat.one_pos))))
    (k0_hw7 : k0_chk7 i (tbM0.view.readAt (Elt F) (Rect.unit (s := S64) (k0_off13 i 6#32) S1.size (k0_off13_inb i 1)).toLoadRect xt0 (Shape.Idx.first (numel1_S1.symm ▸ Nat.one_pos))))
    (k0_hw8 : k0_chk8 i (tbM0.view.readAt (Elt F) (Rect.unit (s := S64) (k0_off15 i 7#32) S1.size (k0_off15_inb i 1)).toLoadRect xt0 (Shape.Idx.first (numel1_S1.symm ▸ Nat.one_pos)))) (y : S8x1024.Idx) :
    ∃ pc ∈ (kernelRun (F := F) c i arg3 harg3 arg4 harg4 arg7 harg7 arg8 harg8 x0 x1 xt0 xt1 fh0 fh1 k0_hw1 k0_hw2 k0_hw3 k0_hw4 k0_hw5 k0_hw6 k0_hw7 k0_hw8).2.1, y ∈ pc.1.set :=
  View.cover_of_tiledL (kernelRun (F := F) c i arg3 harg3 arg4 harg4 arg7 harg7 arg8 harg8 x0 x1 xt0 xt1 fh0 fh1 k0_hw1 k0_hw2 k0_hw3 k0_hw4 k0_hw5 k0_hw6 k0_hw7 k0_hw8).2.1 S1x1024.size (by sl_kernel_rfl) y

end Cert.Kernel.KFrame

end
-- ==== Proof.BLaunch.lean ====
/-
  The kernel's frame, second part: @main up to the region, the tables' contents, and the region's invariant.

  The 46 host operations write only buffers of their own, so the six arguments reach the region as launched, and the
  two tables reach it holding what those operations computed. The body only reads the tables' words, so the region
  may hold any contents of them. Between grid points the body's invariant is the same: both scratch buffers at some
  contents, the random-number register at some state, the four semaphore cells at zero, the two state arrays whole at
  their launch contents, and half of each table.
-/
import proofs.«407332_j39376260169764_2_alg».proof.Proof.BSetup

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor

/-- @main is its host operations, then the region: the region is entered at the contents they leave. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

/-! ## The tables -/

/-- The tables' contents when the region is entered (one device: device 0's). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No index map reads a table, so every contents is admissible. -/
abbrev adm : (pcfg0 (F := F)).Adm := ⟨tbl m, trivial⟩
abbrev cfgM : Pipeline.Cfg sig Λ₀ := cfg0 (adm m)

/-- The halves of the tables the body is handed, table by table. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The body's own semaphore cells and the arrays it copies from -/

abbrev osem : Fin 4 → SemLoc sig := fun j => (![SemLoc.dma 6, SemLoc.dma 7, SemLoc.dma 8, SemLoc.dma 9] : Fin 4 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0) := by
  rw [Pipeline.ownSems0_eq_of_list c osem [0, 1, 2, 3] (by decide) (by decide)]; rfl

/-- The two state arrays: unscoped, no window's array, no table. -/
def H0 : Finset (Ref sig .tc) := {main_arg0, main_arg1}
theorem H0_sub : H0 ⊆ Pipeline.restRefsP sig pre0 spec0 := by decide
theorem hbmPts_eq (c : Dev nD) :
    (bigSep H0 (fun b => ((c : Thread nD τ).loc b) ↦{fullShare} V m c b) : sProp 𝕄)
      = iprop(hbPt c hbM0 (V m c main_arg0) ∗ hbPt c hbM1 (V m c main_arg1)) := by
  rw [BI.bigSep_eq_bigSepL_of_eq [main_arg0, main_arg1] (by decide) (by decide)]; rfl

/-- The invariant between grid points, conjunct by conjunct. -/
theorem PhiD_eq (c : Dev nD) :
    (Pipeline.ΦD osem spec0 H0 (V m) c : sProp 𝕄)
      = iprop(iprop((∃ d, owns (c : Thread nD τ) scM0 fullShare d) ∗ (∃ d, owns (c : Thread nD τ) scM1 fullShare d)) ∗ (∃ r, prngReg c r)
          ∗ iprop(semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0)
          ∗ iprop(hbPt c hbM0 (V m c main_arg0) ∗ hbPt c hbM1 (V m c main_arg1))) := by
  rw [Pipeline.ΦD_eq, scopedRest0_eq, ownSems0_eq, hbmPts_eq]; simp only [scM0, scM1, owns_whole]; try rfl

end Cert.Kernel.KFrame

end
-- ==== Proof.BBody.lean ====
/-
  The kernel's frame, last part: the proof data of the region, the body's obligation at every grid point, the run.

  Each grid point t handles examples 8t … 8t + 7. Its body needs the eight row words it reads from the first table to
  name rows inside the state arrays (the hypothesis `Hyps`); given that, the run of KRun applies at every point: the
  two input blocks (the initial states, the same block at every point) are found in place, the invariant hands the
  body its scratch as two slots each, its cells, the arrays and the tables, and takes them back unchanged, and each
  output block ends as the eight stored rows. The launch theorem for a region whose body copies out of main memory
  within each point then gives the run of @main.
-/
import proofs.«407332_j39376260169764_2_alg».proof.Proof.BCover
import proofs.«407332_j39376260169764_2_alg».proof.Proof.BLaunch

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The side conditions, at every point -/

/-- At every grid point each of the eight row words the body reads names a row inside the state arrays (and the
    example index 8t + j a column inside them). -/
def Hyps : Prop := ∀ i : grid0.Coords,
    k0_chk1 i (tbM0.view.readAt (Elt F) (Rect.unit (s := S64) (k0_off1 i) S1.size (k0_off1_inb i)).toLoadRect (tbl m 0) (Shape.Idx.first (numel1_S1.symm ▸ Nat.one_pos)))
    ∧ k0_chk2 i (tbM0.view.readAt (Elt F) (Rect.unit (s := S64) (k0_off3 i) S1.size (k0_off3_inb i)).toLoadRect (tbl m 0) (Shape.Idx.first (numel1_S1.symm ▸ Nat.one_pos)))
    ∧ k0_chk3 i (tbM0.view.readAt (Elt F) (Rect.unit (s := S64) (k0_off5 i 2#32) S1.size (k0_off5_inb i 1)).toLoadRect (tbl m 0) (Shape.Idx.first (numel1_S1.symm ▸ Nat.one_pos)))
    ∧ k0_chk4 i (tbM0.view.readAt (Elt F) (Rect.unit (s := S64) (k0_off7 i 3#32) S1.size (k0_off7_inb i 1)).toLoadRect (tbl m 0) (Shape.Idx.first (numel1_S1.symm ▸ Nat.one_pos)))
    ∧ k0_chk5 i (tbM0.view.readAt (Elt F) (Rect.unit (s := S64) (k0_off9 i 4#32) S1.size (k0_off9_inb i 1)).toLoadRect (tbl m 0) (Shape.Idx.first (numel1_S1.symm ▸ Nat.one_pos)))
    ∧ k0_chk6 i (tbM0.view.readAt (Elt F) (Rect.unit (s := S64) (k0_off11 i 5#32) S1.size (k0_off11_inb i 1)).toLoadRect (tbl m 0) (Shape.Idx.first (numel1_S1.symm ▸ Nat.one_pos)))
    ∧ k0_chk7 i (tbM0.view.readAt (Elt F) (Rect.unit (s := S64) (k0_off13 i 6#32) S1.size (k0_off13_inb i 1)).toLoadRect (tbl m 0) (Shape.Idx.first (numel1_S1.symm ▸ Nat.one_pos)))
    ∧ k0_chk8 i (tbM0.view.readAt (Elt F) (Rect.unit (s := S64) (k0_off15 i 7#32) S1.size (k0_off15_inb i 1)).toLoadRect (tbl m 0) (Shape.Idx.first (numel1_S1.symm ▸ Nat.one_pos)))

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's staging buffer holds its block at every point, fetched there or not: the block index never moves. -/
theorem before0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body at a point -/

/-- Each window's current staging memref at point `t`, as the pipeline passes it, and its wholeness. -/
abbrev ms0 (t : Fin (cfgM m).N) : Memref sig .tc .vmem S1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1024 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S8x1024 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S8x1024 .f32 := spec0_3.stage ((cfgM m).slots t 3)
abbrev hs3 (t : Fin (cfgM m).N) : (ms3 m t).IsWhole := hstage0_3 (((cfgM m).slots t 3).cast nbuf0_3)

/-- The kernel body at point `t`, on what the pipeline calls it with. -/
abbrev bodyAt (t : Fin (cfgM m).N) : Prog (TpuEff nD τ sig (Elt F) Λ₀ .tc) PUnit :=
  cc0_kernel (grid0.coords t) tbM0 htbM0 tbM1 htbM1 (ms0 m t) (hs0 m t) (ms1 m t) (hs1 m t) hbM0 (Memref.isWhole_whole _) hbM1 (Memref.isWhole_whole _)
    (ms2 m t) (hs2 m t) (ms3 m t) (hs3 m t) scM0 (Memref.isWhole_whole _) scM1 (Memref.isWhole_whole _) cc0_scratch2 cc0_scratch3

/-- One staging buffer of each output window, through which its contents are stated (the choice does not matter). -/
abbrev VO2 : View sig .tc .vmem S8x1024 .f32 := (Memref.whole cc0_stg2_0 : Memref sig .tc .vmem S8x1024 .f32).view
abbrev VO3 : View sig .tc .vmem S8x1024 .f32 := (Memref.whole cc0_stg3_0 : Memref sig .tc .vmem S8x1024 .f32).view

/-- The body's run at point `t`: on the point's memrefs, the two initial-state blocks, the tables and the arrays. -/
def runAt (hH : Hyps m) (c : Dev nD) (t : Fin (cfgM m).N) :=
  kernelRun (F := F) c (grid0.coords t) (ms0 m t) (hs0 m t) (ms1 m t) (hs1 m t) (ms2 m t) (hs2 m t) (ms3 m t) (hs3 m t) (iblk m c 0 t) (iblk m c 1 t) (tbl m 0) (tbl m 1) (V m c main_arg0) (V m c main_arg1) (hH _).1 (hH _).2.1 (hH _).2.2.1 (hH _).2.2.2.1 (hH _).2.2.2.2.1 (hH _).2.2.2.2.2.1 (hH _).2.2.2.2.2.2.1 (hH _).2.2.2.2.2.2.2

/-- The eight stored rows tile each output block, so they cover it. -/
theorem cover2At (hH : Hyps m) (c : Dev nD) (t : Fin (cfgM m).N) (y : S8x1024.Idx) : ∃ pc ∈ (runAt m hH c t).1, y ∈ pc.1.set :=
  cover2 (F := F) c (grid0.coords t) (ms0 m t) (hs0 m t) (ms1 m t) (hs1 m t) (ms2 m t) (hs2 m t) (ms3 m t) (hs3 m t) (iblk m c 0 t) (iblk m c 1 t) (tbl m 0) (tbl m 1) (V m c main_arg0) (V m c main_arg1) (hH _).1 (hH _).2.1 (hH _).2.2.1 (hH _).2.2.2.1 (hH _).2.2.2.2.1 (hH _).2.2.2.2.2.1 (hH _).2.2.2.2.2.2.1 (hH _).2.2.2.2.2.2.2 y
theorem cover3At (hH : Hyps m) (c : Dev nD) (t : Fin (cfgM m).N) (y : S8x1024.Idx) : ∃ pc ∈ (runAt m hH c t).2.1, y ∈ pc.1.set :=
  cover3 (F := F) c (grid0.coords t) (ms0 m t) (hs0 m t) (ms1 m t) (hs1 m t) (ms2 m t) (hs2 m t) (ms3 m t) (hs3 m t) (iblk m c 0 t) (iblk m c 1 t) (tbl m 0) (tbl m 1) (V m c main_arg0) (V m c main_arg1) (hH _).1 (hH _).2.1 (hH _).2.2.1 (hH _).2.2.2.1 (hH _).2.2.2.2.1 (hH _).2.2.2.2.2.1 (hH _).2.2.2.2.2.2.1 (hH _).2.2.2.2.2.2.2 y

/-- What the run leaves in each output block: its pieces read back. -/
def out2At (hH : Hyps m) (c : Dev nD) (t : Fin (cfgM m).N) : Vec F S8x1024 .f32 :=
  VO2.read (Elt F) (VO2.writes (Elt F) VO2.junk (runAt m hH c t).1)
def out3At (hH : Hyps m) (c : Dev nD) (t : Fin (cfgM m).N) : Vec F S8x1024 .f32 :=
  VO3.read (Elt F) (VO3.writes (Elt F) VO3.junk (runAt m hH c t).2.1)

/-! ## The pipeline's proof data -/

/-- The proof data on core `c`: the arrays as the region finds them; after the body at point `t` each input's buffer
    at its block and each output's at the eight stored rows; the invariant of a body that copies out of main memory
    within the point, with the tables' halves; nothing owed; full shares. -/
def dats (hH : Hyps m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => out2At m hH c t
    | ⟨3, _⟩ => out3At m hH c t
  Φ _ := iprop(Pipeline.ΦD osem spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after_0 (hH : Hyps m) (c : Dev nD) (t : Fin (cfgM m).N) : (dats m hH 0 c).after 0 t = iblk m c 0 t := by dsimp only [dats]; try rfl
theorem after_1 (hH : Hyps m) (c : Dev nD) (t : Fin (cfgM m).N) : (dats m hH 0 c).after 1 t = iblk m c 1 t := by dsimp only [dats]; try rfl
theorem after_2 (hH : Hyps m) (c : Dev nD) (t : Fin (cfgM m).N) : (dats m hH 0 c).after 2 t = out2At m hH c t := by dsimp only [dats]; try rfl
theorem after_3 (hH : Hyps m) (c : Dev nD) (t : Fin (cfgM m).N) : (dats m hH 0 c).after 3 t = out3At m hH c t := by dsimp only [dats]; try rfl

theorem before_0 (hH : Hyps m) (c : Dev nD) (t : Fin (cfgM m).N) (d) : (dats m hH 0 c).before 0 t d = iblk m c 0 t :=
  before0_of m (dats m hH 0 c) (A_eq m hH c 0) (after_0 m hH c) t d
theorem before_1 (hH : Hyps m) (c : Dev nD) (t : Fin (cfgM m).N) (d) : (dats m hH 0 c).before 1 t d = iblk m c 1 t :=
  before1_of m (dats m hH 0 c) (A_eq m hH c 1) (after_1 m hH c) t d

/-! ## The body obligation, at a generic point -/

def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d))
    ∗ (∃ d, owns (c : Thread nD τ) (ms2 m t) fullShare ((dats m hH 0 c).before 2 t d))
    ∗ (∃ d, owns (c : Thread nD τ) (ms3 m t) fullShare ((dats m hH 0 c).before 3 t d)))

def bodyPost (hH : Hyps m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t)
    ∗ owns (c : Thread nD τ) (ms2 m t) fullShare ((dats m hH 0 c).after 2 t)
    ∗ owns (c : Thread nD τ) (ms3 m t) fullShare ((dats m hH 0 c).after 3 t))

/-- The body at any point: the inputs' memrefs hold their blocks, so the run applies; the invariant hands the body its
    scratch (split into slots), the register, its cells at zero, the arrays and the tables, and takes them back as they
    were (the slots joined again); the core's waits are recorded and nothing is owed. -/
theorem sound_body (hH : Hyps m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  simp only [before_0, before_1]
  rw [show (dats m hH 0 c).Φ t.succ = (dats m hH 0 c).Φ t.castSucc from rfl,
    after_0, after_1, after_2, after_3]
  rw [show (dats m hH 0 c).Φ t.castSucc = iprop(Pipeline.ΦD osem spec0 H0 (V m) c ∗ Pipeline.ΦT pre0 (tbl m) c) from rfl, PhiD_eq, PhiT_eq]
  unfold Dat.owesAt Pipeline.owesWithin
  rw [show (dats m hH 0 c).owed t.castSucc = 0 from rfl, show (dats m hH 0 c).owed t.succ = 0 from rfl]
  unfold out2At out3At
  iintro ⟨⟨⟨⟨HS0, HS1⟩, Hg, ⟨Hq6, Hq7, Hq8, Hq9⟩, ⟨Hh0, Hh1⟩⟩, ⟨HT0, HT1⟩⟩, ⟨%W, -, HW⟩, ⟨%d0, H0⟩, ⟨%d1, H1⟩, ⟨%d2, H2⟩, ⟨%d3, H3⟩⟩
  ihave HA := (slotsA_in (F := F) c) $$ HS0
  icases HA with ⟨HA0, HA1⟩
  ihave HB := (slotsB_in (F := F) c) $$ HS1
  icases HB with ⟨HB0, HB1⟩
  iapply ((runAt m hH c t).2.2 W _)
  isplitl [H0]; · iexact H0
  isplitl [H1]; · iexact H1
  isplitl [H2]; · iexists _; iexact H2
  isplitl [H3]; · iexists _; iexact H3
  isplitl [HA0]; · iexact HA0
  isplitl [HA1]; · iexact HA1
  isplitl [HB0]; · iexact HB0
  isplitl [HB1]; · iexact HB1
  isplitl [Hq6]; · iexact Hq6
  isplitl [Hq7]; · iexact Hq7
  isplitl [Hq8]; · iexact Hq8
  isplitl [Hq9]; · iexact Hq9
  isplitl [Hh0]; · iexact Hh0
  isplitl [Hh1]; · iexact Hh1
  isplitl [HT0]; · iexact HT0
  isplitl [HT1]; · iexact HT1
  isplitl [HW]; · iexact HW
  iintro ⟨H0, H1, ⟨%e2, H2⟩, ⟨%e3, H3⟩, HA0, HA1, HB0, HB1, Hq6, Hq7, Hq8, Hq9, Hh0, Hh1, HT0, HT1, ⟨%W', HW'⟩⟩
  isplitl [HA0 HA1 HB0 HB1 Hg Hq6 Hq7 Hq8 Hq9 Hh0 Hh1 HT0 HT1]
  · isplitr [HT0 HT1]
    · isplitl [HA0 HA1 HB0 HB1]
      · isplitl [HA0 HA1]
        · iapply (slotsA_out (F := F) c); isplitl [HA0]; · iexact HA0
          iexact HA1
        iapply (slotsB_out (F := F) c); isplitl [HB0]; · iexact HB0
        iexact HB1
      isplitl [Hg]; · iexact Hg
      isplitl [Hq6 Hq7 Hq8 Hq9]
      · isplitl [Hq6]; · iexact Hq6
        isplitl [Hq7]; · iexact Hq7
        isplitl [Hq8]; · iexact Hq8
        iexact Hq9
      isplitl [Hh0]; · iexact Hh0
      iexact Hh1
    isplitl [HT0]; · iexact HT0
    iexact HT1
  isplitl [HW']
  · iexists W'; isplitr; · ipureintro; exact fun _ _ => Or.inl trivial
    iexact HW'
  isplitl [H0]; · iexact H0
  isplitl [H1]; · iexact H1
  isplitl [H2]
  · unfold owns; iexists _; isplitr
    swap; · iexact H2
    ipureintro; exact View.read_writes_of_cover _ _ _ _ _ (cover2At m hH c t)
  unfold owns; iexists _; isplitr
  swap; · iexact H3
  ipureintro; exact View.read_writes_of_cover _ _ _ _ _ (cover3At m hH c t)

/-- The library's body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

/-! ## The run and the frame -/

set_option backward.isDefEq.respectTransparency.types false in
/-- From any memory with zero counters every weakly fair execution of @main terminates, and every final state has every
    array of the pipeline at what the proof data computes and every other unscoped buffer as the region found it. -/
theorem run_main (hH : Hyps m) : θ_run defs (onTc (τ := τ) (main (F := F))) (s₀ m ρ) (Pipeline.FramePost (Pipeline.pin pcfgs fun _ => adm m) (dats m hH) 0 (V m)) :=
  Pipeline.θ_run_frameP_dma pcfgs (fun _ => adm m) (dats m hH) (0 : Fin 1) launch0 osem defs₀ Variants.none ownSemFacts H0 H0_sub m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hin := fun _ => .rfl) (hout := fun c => by
      rw [show (dats m hH 0 c).Φ (Fin.last _) = iprop(Pipeline.ΦD osem spec0 H0 (V m) c ∗ Pipeline.ΦT pre0 (tbl m) c) from rfl]
      iintro ⟨HD, -⟩; iexact HD)

end Cert.Kernel.KFrame

end
-- ==== Proof.BTables.lean ====
/-
  What the host operations before the kernel region leave in the buffers the kernel reads.

  No host operation writes an argument, so each argument reaches the region as launched. The two tables the kernel
  prefetches are computed word by word from the column sums of the mask words and from the operation words: with
  `p` the column's sum and `o` the operation word, the selected row's word is `p` when `|o| ≠ 1` and the floored
  remainder of `p - 1` by 1025 when `|o| = 1`; one table holds its positivity test widened to 32 bits, the other its
  predecessor (0 when the word is not positive). Every operation on the way is pointwise, a broadcast scalar reads
  its value everywhere, so each table's word at example `b` is the word function of the specification at `b`'s two
  words. Under the preconditions the selected word is the specification's row number, which is at most 1024: the
  fetched row is that number's predecessor and lies below 1024, and the kernel's test of the validity word is the test
  that the row number is not 0.
-/
import proofs.«407332_j39376260169764_2_alg».proof.Proof.Gen.Kernel.Launch
import proofs.«407332_j39376260169764_2_alg».proof.Proof.Words
import Idealize.ShloMosaic.Lib.StableHlo.Run
import Idealize.ShloMosaic.Lib.ValueIdx

noncomputable section

namespace Cert.Kernel.Tables

open Idealize.ShloMosaic Idealize.ShloMosaic.ValueIdx
open Cert.Kernel.Gen

variable {F : FTy → Type} [FloatOps F]
variable (W : Valuation τ sig (Elt F))

/-! ## The arguments reach the region as launched -/

/-- No host operation writes argument 0. -/
theorem after_arg0 : StableHlo.after (hostOps0 (F := F)) W (Proc.devRef .tc main_arg0) = W (Proc.devRef .tc main_arg0) := by
  dsimp only [hostOps0]
  after_results_simp

/-- No host operation writes argument 1. -/
theorem after_arg1 : StableHlo.after (hostOps0 (F := F)) W (Proc.devRef .tc main_arg1) = W (Proc.devRef .tc main_arg1) := by
  dsimp only [hostOps0]
  after_results_simp

/-- No host operation writes argument 2. -/
theorem after_arg2 : StableHlo.after (hostOps0 (F := F)) W (Proc.devRef .tc main_arg2) = W (Proc.devRef .tc main_arg2) := by
  dsimp only [hostOps0]
  after_results_simp

/-- No host operation writes argument 3. -/
theorem after_arg3 : StableHlo.after (hostOps0 (F := F)) W (Proc.devRef .tc main_arg3) = W (Proc.devRef .tc main_arg3) := by
  dsimp only [hostOps0]
  after_results_simp

/-- No host operation writes argument 4. -/
theorem after_arg4 : StableHlo.after (hostOps0 (F := F)) W (Proc.devRef .tc main_arg4) = W (Proc.devRef .tc main_arg4) := by
  dsimp only [hostOps0]
  after_results_simp

/-- No host operation writes argument 5. -/
theorem after_arg5 : StableHlo.after (hostOps0 (F := F)) W (Proc.devRef .tc main_arg5) = W (Proc.devRef .tc main_arg5) := by
  dsimp only [hostOps0]
  after_results_simp

/-! ## The two prefetched tables, word by word -/

/-- The table of rows to fetch: at example `b` the predecessor of the selected row's word, or 0. -/
theorem row_word (b : Fin 64) :
    (StableHlo.after (hostOps0 (F := F)) W (Proc.devRef .tc main_call0_v15) : S64.Idx → BitVec 32) (ix1 b)
      = Cert.StackSpec.rowW (Cert.StackSpec.selW
          (Host.reduce IntOp.addi (W (Proc.devRef .tc main_arg4)) (constantI S_ 32 0#32) reducesTo_S1024x64_S64_d0 h_S_ (ix1 b))
          ((W (Proc.devRef .tc main_arg5) : S64.Idx → BitVec 32) (ix1 b))) := by
  dsimp only [hostOps0]
  after_results_simp
  simp only [StableHlo.TRef.ofBuf, StableHlo.TRef.toBuf, cast_eq]
  rfl

/-- The validity table: at example `b` the positivity test of the selected row's word, as a 32-bit word. -/
theorem valid_word (b : Fin 64) :
    (StableHlo.after (hostOps0 (F := F)) W (Proc.devRef .tc main_call0_v10) : S64.Idx → BitVec 32) (ix1 b)
      = Cert.StackSpec.validW (Cert.StackSpec.selW
          (Host.reduce IntOp.addi (W (Proc.devRef .tc main_arg4)) (constantI S_ 32 0#32) reducesTo_S1024x64_S64_d0 h_S_ (ix1 b))
          ((W (Proc.devRef .tc main_arg5) : S64.Idx → BitVec 32) (ix1 b))) := by
  dsimp only [hostOps0]
  after_results_simp
  simp only [StableHlo.TRef.ofBuf, StableHlo.TRef.toBuf, cast_eq]
  rfl

/-! ## Under the preconditions: the specification's row number -/

section Pre

variable (hM : Cert.StackSpec.MasksOK (W (Proc.devRef .tc main_arg4)))

include hM in
/-- The selected row's word is the specification's row number as a word. -/
theorem sel_eq (b : Fin 64) :
    Cert.StackSpec.selW
        (Host.reduce IntOp.addi (W (Proc.devRef .tc main_arg4)) (constantI S_ 32 0#32) reducesTo_S1024x64_S64_d0 h_S_ (ix1 b))
        ((W (Proc.devRef .tc main_arg5) : S64.Idx → BitVec 32) (ix1 b))
      = BitVec.ofNat 32 (Cert.StackSpec.selRow (W (Proc.devRef .tc main_arg4)) (W (Proc.devRef .tc main_arg5)) b) := by
  rw [Cert.StackSpec.reduce_height (W (Proc.devRef .tc main_arg4)) hM reducesTo_S1024x64_S64_d0 h_S_ b]
  exact Cert.StackSpec.selW_eq (W (Proc.devRef .tc main_arg4)) (W (Proc.devRef .tc main_arg5)) hM b

include hM in
/-- The fetched row is the predecessor of the specification's row number (row 0 for the initial state). -/
theorem row_toNat (b : Fin 64) :
    ((StableHlo.after (hostOps0 (F := F)) W (Proc.devRef .tc main_call0_v15) : S64.Idx → BitVec 32) (ix1 b)).toNat
      = Cert.StackSpec.selRow (W (Proc.devRef .tc main_arg4)) (W (Proc.devRef .tc main_arg5)) b - 1 := by
  rw [row_word, sel_eq W hM b]
  exact Cert.StackSpec.rowW_toNat _ (Cert.StackSpec.selRow_le _ _ hM b)

include hM in
/-- The fetched row lies inside the input's 1024 rows. -/
theorem row_lt (b : Fin 64) :
    ((StableHlo.after (hostOps0 (F := F)) W (Proc.devRef .tc main_call0_v15) : S64.Idx → BitVec 32) (ix1 b)).toNat < 1024 := by
  rw [row_word, sel_eq W hM b]
  exact Cert.StackSpec.rowW_lt _ (Cert.StackSpec.selRow_le _ _ hM b)

include hM in
/-- The validity word is positive exactly when the specification's row number is not 0. -/
theorem valid_sgt (b : Fin 64) :
    IntOp.cmpi .sgt ((StableHlo.after (hostOps0 (F := F)) W (Proc.devRef .tc main_call0_v10) : S64.Idx → BitVec 32) (ix1 b)) 0#32
      = if Cert.StackSpec.selRow (W (Proc.devRef .tc main_arg4)) (W (Proc.devRef .tc main_arg5)) b = 0 then 0#1 else 1#1 := by
  rw [valid_word, sel_eq W hM b]
  unfold Cert.StackSpec.validW
  rw [Cert.StackSpec.sgt_zero _ (Cert.StackSpec.selRow_le _ _ hM b)]
  split <;> rfl

end Pre

end Cert.Kernel.Tables

end
-- ==== Proof.BHyps.lean ====
/-
  The side conditions of the kernel's run, from the mask words.

  At grid point t the body reads, for j = 0 … 7, the word of the first table at cell 8t + j and copies, out of each
  state array, the block of one row and one example that starts at that row, example 8t + j, feature 0. The block
  lies inside the array when the row word is below 1024 (the example index is at most 63 and the block spans all 1024
  features). A one-word read of the whole table at offset 8t + j is the table's entry there; the table is what the host
  operations before the region leave in its buffer; and with every mask word 0 or 1 each of its entries is below 1024.
-/
import proofs.«407332_j39376260169764_2_alg».proof.Proof.BBody
import proofs.«407332_j39376260169764_2_alg».proof.Proof.BTables

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ)

/-! ## One word of the first table -/

/-- A word read through the first table's whole view at a one-element rectangle is the table's entry at the
    rectangle's offset. -/
theorem word_at (f : S64.Idx → BitVec 32) (off : Fin 1 → Nat) (inb : ∀ a, off a + S1.size a ≤ S64.size a) (h1 : 0 < S1.numel)
    (b : Fin 64) (hb : off 0 = b.val) :
    tbM0.view.readAt (Elt F) (Rect.unit (s := S64) off S1.size inb).toLoadRect f (Shape.Idx.first h1) = f (ix1 b) := by
  show f _ = f _
  congr 1
  funext a
  apply Fin.ext
  have ha : a = (0 : Fin 1) := Subsingleton.elim (α := Fin 1) _ _
  subst ha
  show off 0 + 1 * (Shape.Idx.first h1 (0 : Fin 1)).val = b.val
  have h0 : (Shape.Idx.first h1 (0 : Fin 1)).val = 0 := by
    have hlt := (Shape.Idx.first h1 (0 : Fin 1)).isLt
    have e : S1.size (0 : Fin 1) = 1 := by decide
    omega
  rw [h0, hb]; omega

/-- The first table when the region is entered is what the host operations leave in its buffer. -/
theorem tbl_zero : (tbl m 0 : S64.Idx → BitVec 32)
    = StableHlo.after (hostOps0 (F := F)) (fun b => m ((0 : Dev nD), b)) (Proc.devRef .tc main_call0_v15) := rfl

/-! ## The checks -/

/-- A one-row, one-example, full-width block at row `o 0 < 1024`, example `o 1 < 64`, feature 0 lies inside a state array. -/
theorem chk_of (o : Fin 3 → Nat) (h0 : o 0 < 1024) (h1 : o 1 < 64) (h2 : o 2 = 0) :
    ∀ a, o a + S1x1x1024.size a ≤ S1024x64x1024.size a := by
  intro a
  fin_cases a
  · show o 0 + 1 ≤ 1024; omega
  · show o 1 + 1 ≤ 64; omega
  · show o 2 + 1024 ≤ 1024; omega

/-- Example 8t + j of grid point t. -/
def cell (i : grid0.Coords) (j : Fin 8) : Fin 64 := ⟨8 * (i 0).val + j.val, by have h : (i 0).val < 8 := (i 0).isLt; have := j.isLt; omega⟩

/-- The example coordinate of each block's offset is 8t + j as a word, whatever the row word: below 64 at every grid point. -/
theorem col2 : ∀ i : grid0.Coords, (k0_off2 i 0#32) 1 < 64 := by decide +kernel
theorem col4 : ∀ i : grid0.Coords, (k0_off4 i 0#32) 1 < 64 := by decide +kernel
theorem col6 : ∀ i : grid0.Coords, (k0_off6 i 0#32) 1 < 64 := by decide +kernel
theorem col8 : ∀ i : grid0.Coords, (k0_off8 i 0#32) 1 < 64 := by decide +kernel
theorem col10 : ∀ i : grid0.Coords, (k0_off10 i 0#32) 1 < 64 := by decide +kernel
theorem col12 : ∀ i : grid0.Coords, (k0_off12 i 0#32) 1 < 64 := by decide +kernel
theorem col14 : ∀ i : grid0.Coords, (k0_off14 i 0#32) 1 < 64 := by decide +kernel
theorem col16 : ∀ i : grid0.Coords, (k0_off16 i 0#32) 1 < 64 := by decide +kernel

/-- Each check holds of a row word below 1024: its block starts at row `v`, example 8t + j, feature 0. -/
theorem chk1_of_lt (i : grid0.Coords) (v : BitVec 32) (hv : v.toNat < 1024) : k0_chk1 i v := chk_of (k0_off2 i v) hv (col2 i) rfl
theorem chk2_of_lt (i : grid0.Coords) (v : BitVec 32) (hv : v.toNat < 1024) : k0_chk2 i v := chk_of (k0_off4 i v) hv (col4 i) rfl
theorem chk3_of_lt (i : grid0.Coords) (v : BitVec 32) (hv : v.toNat < 1024) : k0_chk3 i v := chk_of (k0_off6 i v) hv (col6 i) rfl
theorem chk4_of_lt (i : grid0.Coords) (v : BitVec 32) (hv : v.toNat < 1024) : k0_chk4 i v := chk_of (k0_off8 i v) hv (col8 i) rfl
theorem chk5_of_lt (i : grid0.Coords) (v : BitVec 32) (hv : v.toNat < 1024) : k0_chk5 i v := chk_of (k0_off10 i v) hv (col10 i) rfl
theorem chk6_of_lt (i : grid0.Coords) (v : BitVec 32) (hv : v.toNat < 1024) : k0_chk6 i v := chk_of (k0_off12 i v) hv (col12 i) rfl
theorem chk7_of_lt (i : grid0.Coords) (v : BitVec 32) (hv : v.toNat < 1024) : k0_chk7 i v := chk_of (k0_off14 i v) hv (col14 i) rfl
theorem chk8_of_lt (i : grid0.Coords) (v : BitVec 32) (hv : v.toNat < 1024) : k0_chk8 i v := chk_of (k0_off16 i v) hv (col16 i) rfl

/-! ## The hypothesis of the run, from the mask words -/

/-- With every mask word 0 or 1 each row word the body reads lies below 1024, so every block it copies lies inside the
    state arrays. -/
theorem hyps_of_masks (hM : Cert.StackSpec.MasksOK (m ((0 : Dev nD), Proc.devRef .tc main_arg4))) : Hyps (F := F) m := by
  intro i
  -- the table's words are kept as one function `T`: only its bound is used
  have row : ∀ b : Fin 64, ((tbl m 0 : S64.Idx → BitVec 32) (ix1 b)).toNat < 1024 := fun b => by
    rw [tbl_zero]; exact Cert.Kernel.Tables.row_lt (fun b => m ((0 : Dev nD), b)) hM b
  generalize (tbl m 0 : S64.Idx → BitVec 32) = T at row ⊢
  refine ⟨?_, ?_, ?_, ?_, ?_, ?_, ?_, ?_⟩
  · rw [word_at (F := F) T (k0_off1 i) _ _ (cell i 0) (congrFun (k0_off1_eq i) 0)]
    exact chk1_of_lt i _ (row _)
  · rw [word_at (F := F) T (k0_off3 i) _ _ (cell i 1) (congrFun (k0_off3_eq i) 0)]
    exact chk2_of_lt i _ (row _)
  · rw [word_at (F := F) T (k0_off5 i 2#32) _ _ (cell i 2) (congrFun (k0_off5_eq i 1) 0)]
    exact chk3_of_lt i _ (row _)
  · rw [word_at (F := F) T (k0_off7 i 3#32) _ _ (cell i 3) (congrFun (k0_off7_eq i 1) 0)]
    exact chk4_of_lt i _ (row _)
  · rw [word_at (F := F) T (k0_off9 i 4#32) _ _ (cell i 4) (congrFun (k0_off9_eq i 1) 0)]
    exact chk5_of_lt i _ (row _)
  · rw [word_at (F := F) T (k0_off11 i 5#32) _ _ (cell i 5) (congrFun (k0_off11_eq i 1) 0)]
    exact chk6_of_lt i _ (row _)
  · rw [word_at (F := F) T (k0_off13 i 6#32) _ _ (cell i 6) (congrFun (k0_off13_eq i 1) 0)]
    exact chk7_of_lt i _ (row _)
  · rw [word_at (F := F) T (k0_off15 i 7#32) _ _ (cell i 7) (congrFun (k0_off15_eq i 1) 0)]
    exact chk8_of_lt i _ (row _)

/-- info: 'Cert.Kernel.KFrame.hyps_of_masks' depends on axioms: [propext, Classical.choice, Quot.sound] -/
#guard_msgs (whitespace := lax) in #print axioms hyps_of_masks

end Cert.Kernel.KFrame

end
-- ==== Proof.BFrameOf.lean ====
/-
  The kernel's frame: the six arguments end as launched.

  The run of @main ends with every window's array at what the proof data computes and every other unscoped buffer as
  the region found it. The two initial states are input windows: an input's array ends at its entry contents. The two
  state arrays, the mask words and the operation words are no window's array: they end as the region found them. And
  the region found all six as launched, because no host operation before it writes an argument.
-/
import proofs.«407332_j39376260169764_2_alg».proof.Proof.BBody

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- From any memory with zero counters every weakly fair execution of @main terminates, and every argument array ends
    holding what it held at launch. -/
theorem frame (hH : Hyps m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats m hH 0 c).arrAt_in 0 rfl _).trans ((A_eq m hH c 0).trans (V_main_arg2 m c))),
      ((h c).1 1).trans (((dats m hH 0 c).arrAt_in 1 rfl _).trans ((A_eq m hH c 1).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hH)

end Cert.Kernel.KFrame

end
-- ==== Proof.RefOps.lean ====
/-
  The reference program's @main as ONE list of its host operations, in program order. The program text runs its
  first sixty statements and its last forty-four as two windows, and its eleventh statement is a call of the
  outlined function that takes an integer vector modulo a scalar (the floored remainder: the truncated remainder,
  corrected by the modulus where its sign differs from the modulus's and it is not zero); that function itself
  calls a three-operand select once (the modulus, or 1 where the modulus is 0). A call executes the callee's body
  on the operands, so here the callee's twenty-one operations stand at the call site, over the buffers the call's
  record names. The list is the program: sequencing is associative and a return followed by more is just the more.
-/
import proofs.«407332_j39376260169764_2_alg».proof.ReferenceIdeal
import proofs.«407332_j39376260169764_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 123 operations, in order: ten of its own, the twenty-one of the remainder call (the fifth of them
    the nested select's), then the remaining ninety-two. -/
abbrev ops : List (HloOp τ sig (Elt F)) :=
  [ unary main_arg2 main_v0 (broadcastInDim S1x64x1024 ![2] bcast_S1024_S1x64x1024_2 : (⟨S1024, .f32⟩ : BufTy).Contents (Elt F) → (⟨S1x64x1024, .f32⟩ : BufTy).Contents (Elt F)),
    binary main_v0 main_arg0 main_v1 ((fun a b => concatenate S1025x64x1024 0 [⟨S1x64x1024, a⟩, ⟨S1024x64x1024, b⟩] concatenates_S1x64x1024_S1024x64x1024_S1025x64x1024_d0) : (⟨S1x64x1024, .f32⟩ : BufTy).Contents (Elt F) → (⟨S1024x64x1024, .f32⟩ : BufTy).Contents (Elt F) → (⟨S1025x64x1024, .f32⟩ : BufTy).Contents (Elt F)),
    unary main_arg3 main_v2 (broadcastInDim S1x64x1024 ![2] bcast_S1024_S1x64x1024_2 : (⟨S1024, .f32⟩ : BufTy).Contents (Elt F) → (⟨S1x64x1024, .f32⟩ : BufTy).Contents (Elt F)),
    binary main_v2 main_arg1 main_v3 ((fun a b => concatenate S1025x64x1024 0 [⟨S1x64x1024, a⟩, ⟨S1024x64x1024, b⟩] concatenates_S1x64x1024_S1024x64x1024_S1025x64x1024_d0) : (⟨S1x64x1024, .f32⟩ : BufTy).Contents (Elt F) → (⟨S1024x64x1024, .f32⟩ : BufTy).Contents (Elt F) → (⟨S1025x64x1024, .f32⟩ : BufTy).Contents (Elt F)),
    nullary main_c (constantI S_ 32 0#32),
    binary main_arg4 main_c main_v4 ((fun x v => Host.reduce IntOp.addi x v reducesTo_S1024x64_S64_d0 h_S_) : (⟨S1024x64, .i32⟩ : BufTy).Contents (Elt F) → (⟨S_, .i32⟩ : BufTy).Contents (Elt F) → (⟨S64, .i32⟩ : BufTy).Contents (Elt F)),
    nullary main_c_0 (constantI S_ 32 1#32),
    unary main_c_0 main_v5 (broadcastInDim S64 ![] bcast_S_S64 : (⟨S_, .i32⟩ : BufTy).Contents (Elt F) → (⟨S64, .i32⟩ : BufTy).Contents (Elt F)),
    binary main_v4 main_v5 main_v6 (subi : (⟨S64, .i32⟩ : BufTy).Contents (Elt F) → (⟨S64, .i32⟩ : BufTy).Contents (Elt F) → (⟨S64, .i32⟩ : BufTy).Contents (Elt F)),
    nullary main_c_1 (constantI S_ 32 1025#32),
    TRef.unary (.of main_c_1) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S64 ![] bcast_S_S64),
    TRef.binary (.of main_v6) main_call0.v3 main_call0.v4 Host.remsi,
    TRef.nullary main_call0.c_1 (constantI S_ 32 0#32),
    TRef.unary main_call0.c_1 main_call0.v5 (broadcastInDim S64 ![] bcast_S_S64),
    TRef.binary main_call0.v4 main_call0.v5 main_call0.v6 (cmpi .ne),
    TRef.nullary main_call0.c_2 (constantI S_ 32 0#32),
    TRef.unary main_call0.c_2 main_call0.v7 (broadcastInDim S64 ![] bcast_S_S64),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S64 ![] bcast_S_S64),
    TRef.binary main_call0.v8 main_call0.v10 main_call0.v11 (cmpi .ne),
    TRef.binary main_call0.v11 main_call0.v6 main_call0.v12 andi,
    TRef.unary main_call0.call0.v0 main_call0.v13 (broadcastInDim S64 ![] bcast_S_S64),
    TRef.binary main_call0.v4 main_call0.v13 main_call0.v14 addi,
    TRef.ternary main_call0.v12 main_call0.v14 main_call0.v4 main_call0.v15 select,
    nullary main_v8 (iotaInDim S64 32 0),
    nullary main_c_2 (constantI S_ 32 0#32),
    unary main_c_2 main_v9 (broadcastInDim S64 ![] bcast_S_S64 : (⟨S_, .i32⟩ : BufTy).Contents (Elt F) → (⟨S64, .i32⟩ : BufTy).Contents (Elt F)),
    binary main_v4 main_v9 main_v10 (cmpi .slt : (⟨S64, .i32⟩ : BufTy).Contents (Elt F) → (⟨S64, .i32⟩ : BufTy).Contents (Elt F) → (⟨S64, .i1⟩ : BufTy).Contents (Elt F)),
    nullary main_c_3 (constantI S_ 32 1025#32),
    unary main_c_3 main_v11 (broadcastInDim S64 ![] bcast_S_S64 : (⟨S_, .i32⟩ : BufTy).Contents (Elt F) → (⟨S64, .i32⟩ : BufTy).Contents (Elt F)),
    binary main_v4 main_v11 main_v12 (addi : (⟨S64, .i32⟩ : BufTy).Contents (Elt F) → (⟨S64, .i32⟩ : BufTy).Contents (Elt F) → (⟨S64, .i32⟩ : BufTy).Contents (Elt F)),
    ternary main_v10 main_v12 main_v4 main_v13 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_4 (constantI S_ 32 0#32),
    unary main_c_4 main_v14 (broadcastInDim S64 ![] bcast_S_S64 : (⟨S_, .i32⟩ : BufTy).Contents (Elt F) → (⟨S64, .i32⟩ : BufTy).Contents (Elt F)),
    binary main_v8 main_v14 main_v15 (cmpi .slt : (⟨S64, .i32⟩ : BufTy).Contents (Elt F) → (⟨S64, .i32⟩ : BufTy).Contents (Elt F) → (⟨S64, .i1⟩ : BufTy).Contents (Elt F)),
    nullary main_c_5 (constantI S_ 32 64#32),
    unary main_c_5 main_v16 (broadcastInDim S64 ![] bcast_S_S64 : (⟨S_, .i32⟩ : BufTy).Contents (Elt F) → (⟨S64, .i32⟩ : BufTy).Contents (Elt F)),
    binary main_v8 main_v16 main_v17 (addi : (⟨S64, .i32⟩ : BufTy).Contents (Elt F) → (⟨S64, .i32⟩ : BufTy).Contents (Elt F) → (⟨S64, .i32⟩ : BufTy).Contents (Elt F)),
    ternary main_v15 main_v17 main_v8 main_v18 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v13 main_v19 (broadcastInDim S64x1 ![0] bcast_S64_S64x1_0 : (⟨S64, .i32⟩ : BufTy).Contents (Elt F) → (⟨S64x1, .i32⟩ : BufTy).Contents (Elt F)),
    unary main_v18 main_v20 (broadcastInDim S64x1 ![0] bcast_S64_S64x1_0 : (⟨S64, .i32⟩ : BufTy).Contents (Elt F) → (⟨S64x1, .i32⟩ : BufTy).Contents (Elt F)),
    binary main_v19 main_v20 main_v21 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    binary main_v1 main_v21 main_v22 ((fun x i => Host.gather gather_S1025x64x1024_S64x2_S64x1024_1_01_n_n_01_1_111024 x i) : (⟨S1025x64x1024, .f32⟩ : BufTy).Contents (Elt F) → (⟨S64x2, .i32⟩ : BufTy).Contents (Elt F) → (⟨S64x1024, .f32⟩ : BufTy).Contents (Elt F)),
    nullary main_c_6 (constantI S_ 32 0#32),
    unary main_c_6 main_v23 (broadcastInDim S64 ![] bcast_S_S64 : (⟨S_, .i32⟩ : BufTy).Contents (Elt F) → (⟨S64, .i32⟩ : BufTy).Contents (Elt F)),
    binary main_v7 main_v23 main_v24 (cmpi .slt : (⟨S64, .i32⟩ : BufTy).Contents (Elt F) → (⟨S64, .i32⟩ : BufTy).Contents (Elt F) → (⟨S64, .i1⟩ : BufTy).Contents (Elt F)),
    nullary main_c_7 (constantI S_ 32 1025#32),
    unary main_c_7 main_v25 (broadcastInDim S64 ![] bcast_S_S64 : (⟨S_, .i32⟩ : BufTy).Contents (Elt F) → (⟨S64, .i32⟩ : BufTy).Contents (Elt F)),
    binary main_v7 main_v25 main_v26 (addi : (⟨S64, .i32⟩ : BufTy).Contents (Elt F) → (⟨S64, .i32⟩ : BufTy).Contents (Elt F) → (⟨S64, .i32⟩ : BufTy).Contents (Elt F)),
    ternary main_v24 main_v26 main_v7 main_v27 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_8 (constantI S_ 32 0#32),
    unary main_c_8 main_v28 (broadcastInDim S64 ![] bcast_S_S64 : (⟨S_, .i32⟩ : BufTy).Contents (Elt F) → (⟨S64, .i32⟩ : BufTy).Contents (Elt F)),
    binary main_v8 main_v28 main_v29 (cmpi .slt : (⟨S64, .i32⟩ : BufTy).Contents (Elt F) → (⟨S64, .i32⟩ : BufTy).Contents (Elt F) → (⟨S64, .i1⟩ : BufTy).Contents (Elt F)),
    nullary main_c_9 (constantI S_ 32 64#32),
    unary main_c_9 main_v30 (broadcastInDim S64 ![] bcast_S_S64 : (⟨S_, .i32⟩ : BufTy).Contents (Elt F) → (⟨S64, .i32⟩ : BufTy).Contents (Elt F)),
    binary main_v8 main_v30 main_v31 (addi : (⟨S64, .i32⟩ : BufTy).Contents (Elt F) → (⟨S64, .i32⟩ : BufTy).Contents (Elt F) → (⟨S64, .i32⟩ : BufTy).Contents (Elt F)),
    ternary main_v29 main_v31 main_v8 main_v32 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v27 main_v33 (broadcastInDim S64x1 ![0] bcast_S64_S64x1_0 : (⟨S64, .i32⟩ : BufTy).Contents (Elt F) → (⟨S64x1, .i32⟩ : BufTy).Contents (Elt F)),
    unary main_v32 main_v34 (broadcastInDim S64x1 ![0] bcast_S64_S64x1_0 : (⟨S64, .i32⟩ : BufTy).Contents (Elt F) → (⟨S64x1, .i32⟩ : BufTy).Contents (Elt F)),
    binary main_v33 main_v34 main_v35 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    binary main_v1 main_v35 main_v36 ((fun x i => Host.gather gather_S1025x64x1024_S64x2_S64x1024_1_01_n_n_01_1_111024 x i) : (⟨S1025x64x1024, .f32⟩ : BufTy).Contents (Elt F) → (⟨S64x2, .i32⟩ : BufTy).Contents (Elt F) → (⟨S64x1024, .f32⟩ : BufTy).Contents (Elt F)),
    nullary main_c_10 (constantI S_ 32 0#32),
    unary main_c_10 main_v37 (broadcastInDim S64 ![] bcast_S_S64 : (⟨S_, .i32⟩ : BufTy).Contents (Elt F) → (⟨S64, .i32⟩ : BufTy).Contents (Elt F)),
    binary main_v4 main_v37 main_v38 (cmpi .slt : (⟨S64, .i32⟩ : BufTy).Contents (Elt F) → (⟨S64, .i32⟩ : BufTy).Contents (Elt F) → (⟨S64, .i1⟩ : BufTy).Contents (Elt F)),
    nullary main_c_11 (constantI S_ 32 1025#32),
    unary main_c_11 main_v39 (broadcastInDim S64 ![] bcast_S_S64 : (⟨S_, .i32⟩ : BufTy).Contents (Elt F) → (⟨S64, .i32⟩ : BufTy).Contents (Elt F)),
    binary main_v4 main_v39 main_v40 (addi : (⟨S64, .i32⟩ : BufTy).Contents (Elt F) → (⟨S64, .i32⟩ : BufTy).Contents (Elt F) → (⟨S64, .i32⟩ : BufTy).Contents (Elt F)),
    ternary main_v38 main_v40 main_v4 main_v41 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_12 (constantI S_ 32 0#32),
    unary main_c_12 main_v42 (broadcastInDim S64 ![] bcast_S_S64 : (⟨S_, .i32⟩ : BufTy).Contents (Elt F) → (⟨S64, .i32⟩ : BufTy).Contents (Elt F)),
    binary main_v8 main_v42 main_v43 (cmpi .slt : (⟨S64, .i32⟩ : BufTy).Contents (Elt F) → (⟨S64, .i32⟩ : BufTy).Contents (Elt F) → (⟨S64, .i1⟩ : BufTy).Contents (Elt F)),
    nullary main_c_13 (constantI S_ 32 64#32),
    unary main_c_13 main_v44 (broadcastInDim S64 ![] bcast_S_S64 : (⟨S_, .i32⟩ : BufTy).Contents (Elt F) → (⟨S64, .i32⟩ : BufTy).Contents (Elt F)),
    binary main_v8 main_v44 main_v45 (addi : (⟨S64, .i32⟩ : BufTy).Contents (Elt F) → (⟨S64, .i32⟩ : BufTy).Contents (Elt F) → (⟨S64, .i32⟩ : BufTy).Contents (Elt F)),
    ternary main_v43 main_v45 main_v8 main_v46 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v41 main_v47 (broadcastInDim S64x1 ![0] bcast_S64_S64x1_0 : (⟨S64, .i32⟩ : BufTy).Contents (Elt F) → (⟨S64x1, .i32⟩ : BufTy).Contents (Elt F)),
    unary main_v46 main_v48 (broadcastInDim S64x1 ![0] bcast_S64_S64x1_0 : (⟨S64, .i32⟩ : BufTy).Contents (Elt F) → (⟨S64x1, .i32⟩ : BufTy).Contents (Elt F)),
    binary main_v47 main_v48 main_v49 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    binary main_v3 main_v49 main_v50 ((fun x i => Host.gather gather_S1025x64x1024_S64x2_S64x1024_1_01_n_n_01_1_111024 x i) : (⟨S1025x64x1024, .f32⟩ : BufTy).Contents (Elt F) → (⟨S64x2, .i32⟩ : BufTy).Contents (Elt F) → (⟨S64x1024, .f32⟩ : BufTy).Contents (Elt F)),
    nullary main_c_14 (constantI S_ 32 0#32),
    unary main_c_14 main_v51 (broadcastInDim S64 ![] bcast_S_S64 : (⟨S_, .i32⟩ : BufTy).Contents (Elt F) → (⟨S64, .i32⟩ : BufTy).Contents (Elt F)),
    binary main_v7 main_v51 main_v52 (cmpi .slt : (⟨S64, .i32⟩ : BufTy).Contents (Elt F) → (⟨S64, .i32⟩ : BufTy).Contents (Elt F) → (⟨S64, .i1⟩ : BufTy).Contents (Elt F)),
    nullary main_c_15 (constantI S_ 32 1025#32),
    unary main_c_15 main_v53 (broadcastInDim S64 ![] bcast_S_S64 : (⟨S_, .i32⟩ : BufTy).Contents (Elt F) → (⟨S64, .i32⟩ : BufTy).Contents (Elt F)),
    binary main_v7 main_v53 main_v54 (addi : (⟨S64, .i32⟩ : BufTy).Contents (Elt F) → (⟨S64, .i32⟩ : BufTy).Contents (Elt F) → (⟨S64, .i32⟩ : BufTy).Contents (Elt F)),
    ternary main_v52 main_v54 main_v7 main_v55 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_16 (constantI S_ 32 0#32),
    unary main_c_16 main_v56 (broadcastInDim S64 ![] bcast_S_S64 : (⟨S_, .i32⟩ : BufTy).Contents (Elt F) → (⟨S64, .i32⟩ : BufTy).Contents (Elt F)),
    binary main_v8 main_v56 main_v57 (cmpi .slt : (⟨S64, .i32⟩ : BufTy).Contents (Elt F) → (⟨S64, .i32⟩ : BufTy).Contents (Elt F) → (⟨S64, .i1⟩ : BufTy).Contents (Elt F)),
    nullary main_c_17 (constantI S_ 32 64#32),
    unary main_c_17 main_v58 (broadcastInDim S64 ![] bcast_S_S64 : (⟨S_, .i32⟩ : BufTy).Contents (Elt F) → (⟨S64, .i32⟩ : BufTy).Contents (Elt F)),
    binary main_v8 main_v58 main_v59 (addi : (⟨S64, .i32⟩ : BufTy).Contents (Elt F) → (⟨S64, .i32⟩ : BufTy).Contents (Elt F) → (⟨S64, .i32⟩ : BufTy).Contents (Elt F)),
    ternary main_v57 main_v59 main_v8 main_v60 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v55 main_v61 (broadcastInDim S64x1 ![0] bcast_S64_S64x1_0 : (⟨S64, .i32⟩ : BufTy).Contents (Elt F) → (⟨S64x1, .i32⟩ : BufTy).Contents (Elt F)),
    unary main_v60 main_v62 (broadcastInDim S64x1 ![0] bcast_S64_S64x1_0 : (⟨S64, .i32⟩ : BufTy).Contents (Elt F) → (⟨S64x1, .i32⟩ : BufTy).Contents (Elt F)),
    binary main_v61 main_v62 main_v63 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    binary main_v3 main_v63 main_v64 ((fun x i => Host.gather gather_S1025x64x1024_S64x2_S64x1024_1_01_n_n_01_1_111024 x i) : (⟨S1025x64x1024, .f32⟩ : BufTy).Contents (Elt F) → (⟨S64x2, .i32⟩ : BufTy).Contents (Elt F) → (⟨S64x1024, .f32⟩ : BufTy).Contents (Elt F)),
    unary main_arg5 main_v65 (absi : (⟨S64, .i32⟩ : BufTy).Contents (Elt F) → (⟨S64, .i32⟩ : BufTy).Contents (Elt F)),
    unary main_v65 main_v66 (sitofp .f32 : (⟨S64, .i32⟩ : BufTy).Contents (Elt F) → (⟨S64, .f32⟩ : BufTy).Contents (Elt F)),
    unary main_v66 main_v67 (broadcastInDim S64x1 ![0] bcast_S64_S64x1_0 : (⟨S64, .f32⟩ : BufTy).Contents (Elt F) → (⟨S64x1, .f32⟩ : BufTy).Contents (Elt F)),
    unary main_v67 main_v68 (broadcastInDim S64x1024 ![0, 1] bcast_S64x1_S64x1024_0_1 : (⟨S64x1, .f32⟩ : BufTy).Contents (Elt F) → (⟨S64x1024, .f32⟩ : BufTy).Contents (Elt F)),
    binary main_v36 main_v68 main_v69 (mulf : (⟨S64x1024, .f32⟩ : BufTy).Contents (Elt F) → (⟨S64x1024, .f32⟩ : BufTy).Contents (Elt F) → (⟨S64x1024, .f32⟩ : BufTy).Contents (Elt F)),
    nullary main_cst (constant S_ .f32 0x3F800000#32),
    unary main_cst main_v70 (broadcastInDim S64x1 ![] bcast_S_S64x1 : (⟨S_, .f32⟩ : BufTy).Contents (Elt F) → (⟨S64x1, .f32⟩ : BufTy).Contents (Elt F)),
    binary main_v70 main_v67 main_v71 (subf : (⟨S64x1, .f32⟩ : BufTy).Contents (Elt F) → (⟨S64x1, .f32⟩ : BufTy).Contents (Elt F) → (⟨S64x1, .f32⟩ : BufTy).Contents (Elt F)),
    unary main_v71 main_v72 (broadcastInDim S64x1024 ![0, 1] bcast_S64x1_S64x1024_0_1 : (⟨S64x1, .f32⟩ : BufTy).Contents (Elt F) → (⟨S64x1024, .f32⟩ : BufTy).Contents (Elt F)),
    binary main_v22 main_v72 main_v73 (mulf : (⟨S64x1024, .f32⟩ : BufTy).Contents (Elt F) → (⟨S64x1024, .f32⟩ : BufTy).Contents (Elt F) → (⟨S64x1024, .f32⟩ : BufTy).Contents (Elt F)),
    binary main_v69 main_v73 main_v74 (addf : (⟨S64x1024, .f32⟩ : BufTy).Contents (Elt F) → (⟨S64x1024, .f32⟩ : BufTy).Contents (Elt F) → (⟨S64x1024, .f32⟩ : BufTy).Contents (Elt F)),
    unary main_v67 main_v75 (broadcastInDim S64x1024 ![0, 1] bcast_S64x1_S64x1024_0_1 : (⟨S64x1, .f32⟩ : BufTy).Contents (Elt F) → (⟨S64x1024, .f32⟩ : BufTy).Contents (Elt F)),
    binary main_v64 main_v75 main_v76 (mulf : (⟨S64x1024, .f32⟩ : BufTy).Contents (Elt F) → (⟨S64x1024, .f32⟩ : BufTy).Contents (Elt F) → (⟨S64x1024, .f32⟩ : BufTy).Contents (Elt F)),
    nullary main_cst_18 (constant S_ .f32 0x3F800000#32),
    unary main_cst_18 main_v77 (broadcastInDim S64x1 ![] bcast_S_S64x1 : (⟨S_, .f32⟩ : BufTy).Contents (Elt F) → (⟨S64x1, .f32⟩ : BufTy).Contents (Elt F)),
    binary main_v77 main_v67 main_v78 (subf : (⟨S64x1, .f32⟩ : BufTy).Contents (Elt F) → (⟨S64x1, .f32⟩ : BufTy).Contents (Elt F) → (⟨S64x1, .f32⟩ : BufTy).Contents (Elt F)),
    unary main_v78 main_v79 (broadcastInDim S64x1024 ![0, 1] bcast_S64x1_S64x1024_0_1 : (⟨S64x1, .f32⟩ : BufTy).Contents (Elt F) → (⟨S64x1024, .f32⟩ : BufTy).Contents (Elt F)),
    binary main_v50 main_v79 main_v80 (mulf : (⟨S64x1024, .f32⟩ : BufTy).Contents (Elt F) → (⟨S64x1024, .f32⟩ : BufTy).Contents (Elt F) → (⟨S64x1024, .f32⟩ : BufTy).Contents (Elt F)),
    binary main_v76 main_v80 main_v81 (addf : (⟨S64x1024, .f32⟩ : BufTy).Contents (Elt F) → (⟨S64x1024, .f32⟩ : BufTy).Contents (Elt F) → (⟨S64x1024, .f32⟩ : BufTy).Contents (Elt F)) ]

set_option maxRecDepth 8192 in
set_option maxHeartbeats 4000000 in
/-- @main is that straight line: its two windows in order, the called functions' bodies at their calls and the
    call's record at its fields; both sides are one chain of steps once sequencing is re-associated and each
    callee's closing return is dropped. -/
theorem main_eq (c : Dev nD) : main (F := F) c = seq ops := by
  simp only [main, main_part0, main_part1, fn_remainder.body, fn_where.body, seq, bind_assoc, pure_bind]

end Cert.ReferenceIdeal.RefRun

end
-- ==== Proof.RefRun.lean ====
/-
  The reference program's run. Its @main is a straight line of host operations (the list `ops`), so from any memory
  with zero counters every weakly fair execution terminates and leaves each buffer at the fold of the operations'
  results over the launch contents. The two results are kept as that fold read at their buffers; no operation writes
  an argument's buffer, so each argument ends as it began.
-/
import proofs.«407332_j39376260169764_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., binary_bufs_sub .., unary_bufs_sub .., binary_bufs_sub .., nullary_bufs_sub .., binary_bufs_sub ..,
    nullary_bufs_sub .., unary_bufs_sub .., binary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., unary_bufs_sub .., unary_bufs_sub .., unary_bufs_sub .., unary_bufs_sub ..,
    binary_bufs_sub .., nullary_bufs_sub .., unary_bufs_sub .., binary_bufs_sub .., unary_bufs_sub .., binary_bufs_sub ..,
    binary_bufs_sub .., unary_bufs_sub .., binary_bufs_sub .., nullary_bufs_sub .., unary_bufs_sub .., binary_bufs_sub ..,
    unary_bufs_sub .., binary_bufs_sub .., binary_bufs_sub ..⟩

/-! No operation writes an argument's buffer: after the whole line each argument holds what it held. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-- On every device, for any float values, from any memory with zero counters: every weakly fair execution of @main
    terminates, each of the two results holding the fold of the operations over the launch contents at its buffer,
    and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = after ops (fun b => m (c, b)) (main_v74 : DevRef τ sig)
      ∧ r.2.mem ((c.tc : Thread nD τ).loc main_v81) = after ops (fun b => m (c, b)) (main_v81 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v74, h c main_v81,
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

/-- The run with the results dropped: @main terminates and the six arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2.2) (run m ρ)

end Cert.ReferenceIdeal.RefRun

end
-- ==== Proof.LibGatherRowPair.lean ====
/-
  The gather x[i, j] of a rank-3 array with two rank-1 integer index arrays, read at an entry.

  jnp's x[i, j] for x : [A, B, C] and index vectors i, j : [R] lowers to a gather whose start indices are the [R, 2]
  table of pairs (i r, j r), whose first two operand axes are collapsed and start-indexed, and whose one offset axis
  carries the whole last axis. Result entry (r, e) is x at (i r, j r, e), each start component read as a signed
  integer and clamped into its axis.
-/
import Idealize.ShloMosaic.PureOps
import Idealize.ShloMosaic.Lib.ValueIdx

namespace Cert.LibGatherRowPair

open Idealize.ShloMosaic Idealize.ShloMosaic.ValueIdx

/-- Entry (r, e) of the gather is the operand at (a, b, e), where a and b are the two start components of row r read
    signed and clamped into [0, A − 1] and [0, B − 1]. -/
theorem gather_rowpair_apply {α : Type} {A B C R w : ℕ}
    (d : GatherDims ⟨3, ![A, B, C]⟩ ⟨2, ![R, 2]⟩ ⟨2, ![R, C]⟩)
    (hoff : d.offsetDims = [1]) (hcoll : d.collapsedSliceDims = [0, 1]) (hob : d.operandBatchingDims = [])
    (hsb : d.startIndicesBatchingDims = []) (hsim : d.startIndexMap = [0, 1]) (hivd : d.indexVectorDim = 1)
    (hss : d.sliceSizes = ![1, 1, C])
    (x : (⟨3, ![A, B, C]⟩ : Shape).Idx → α) (idx : IVec ⟨2, ![R, 2]⟩ w) (r : Fin R) (e : Fin C) (a : Fin A) (b : Fin B)
    (ha : min (idx (ix2 r (0 : Fin 2))).toInt.toNat (A - 1) = a.val)
    (hb : min (idx (ix2 r (1 : Fin 2))).toInt.toNat (B - 1) = b.val) :
    Host.gather d x idx (ix2 r e) = x (ix3 a b e) := by
  -- the dimension numbers are the stated lists: put them in place of the record's fields
  obtain ⟨od, cd, ob, sb, sm, iv, ss, wf⟩ := d
  obtain rfl : od = [1] := hoff
  obtain rfl : cd = [0, 1] := hcoll
  obtain rfl : ob = [] := hob
  obtain rfl : sb = [] := hsb
  obtain rfl : sm = [0, 1] := hsim
  obtain rfl : iv = 1 := hivd
  obtain rfl : ss = ![1, 1, C] := hss
  -- the gather reads the operand at its operand index: compare that index with (a, b, e) axis by axis
  unfold Host.gather
  congr 1
  funext k
  refine Fin.ext ?_
  match k with
  | ⟨0, _⟩ =>
    -- axis 0 is collapsed and start-indexed: no batching or offset part, and its start is component 0 of row r,
    -- clamped into [0, A − 1]
    show GatherDims.start _ (ix2 r e) idx 0 + GatherDims.batchCoord _ (ix2 r e) 0 + GatherDims.offCoord _ (ix2 r e) 0 = a.val
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (List.mem_cons_self ..)]
    rw [← ha]
    -- the start-indices index of component 0 for result row r is (r, 0)
    have hsi : GatherDims.siIdx (⟨[1], [0, 1], [], [], [0, 1], 1, ![1, 1, C], wf⟩ :
        GatherDims ⟨3, ![A, B, C]⟩ ⟨2, ![R, 2]⟩ ⟨2, ![R, C]⟩) (ix2 r e)
        ⟨List.idxOf (0 : Fin 3) [0, 1], List.idxOf_lt_length_iff.2 (List.mem_cons_self ..)⟩ = ix2 r (0 : Fin 2) := by
      funext q; refine Fin.ext ?_
      match q with
      | ⟨0, _⟩ => rfl
      | ⟨1, _⟩ => rfl
    rw [hsi]
    rfl
  | ⟨1, _⟩ =>
    -- axis 1 likewise: its start is component 1 of row r, clamped into [0, B − 1]
    have hmem : (1 : Fin 3) ∈ ([0, 1] : List (Fin 3)) := List.mem_cons_of_mem _ (List.mem_cons_self ..)
    show GatherDims.start _ (ix2 r e) idx 1 + GatherDims.batchCoord _ (ix2 r e) 1 + GatherDims.offCoord _ (ix2 r e) 1 = b.val
    rw [GatherDims.batchCoord_eq_zero _ _ _ List.not_mem_nil,
      GatherDims.offCoord_eq_zero _ _ _ (fun h => ((GatherDims.mem_sKept _ _).mp h).1 hmem)]
    simp only [Nat.add_zero]
    unfold GatherDims.start
    rw [dif_pos hmem]
    rw [← hb]
    -- the start-indices index of component 1 for result row r is (r, 1)
    have hsi : GatherDims.siIdx (⟨[1], [0, 1], [], [], [0, 1], 1, ![1, 1, C], wf⟩ :
        GatherDims ⟨3, ![A, B, C]⟩ ⟨2, ![R, 2]⟩ ⟨2, ![R, C]⟩) (ix2 r e)
        ⟨List.idxOf (1 : Fin 3) [0, 1], List.idxOf_lt_length_iff.2 hmem⟩ = ix2 r (1 : Fin 2) := by
      funext q; refine Fin.ext ?_
      match q with
      | ⟨0, _⟩ => rfl
      | ⟨1, _⟩ => rfl
    rw [hsi]
    rfl
  | ⟨2, _⟩ =>
    -- axis 2 is the one kept axis: not start-indexed (start 0), no batching part, and its offset coordinate is the
    -- result's coordinate on the offset axis, e
    have hnmem : (2 : Fin 3) ∉ ([0, 1] : List (Fin 3)) := by decide
    show GatherDims.start _ (ix2 r e) idx 2 + GatherDims.batchCoord _ (ix2 r e) 2 + GatherDims.offCoord _ (ix2 r e) 2 = e.val
    rw [GatherDims.batchCoord_eq_zero _ _ _ List.not_mem_nil]
    unfold GatherDims.start
    rw [dif_neg hnmem]
    simp only [Nat.add_zero, Nat.zero_add]
    unfold GatherDims.offCoord
    rw [dif_pos ((GatherDims.mem_sKept _ _).mpr ⟨hnmem, List.not_mem_nil⟩)]
    rfl

end Cert.LibGatherRowPair
-- ==== Proof.RefValue.lean ====
/-
  The reference's two results, read entry by entry, are the specification.

  For each of the two state arrays the reference lays the broadcast initial state on top of the 1024 input rows (a stack
  of 1025 rows), adds up each example's mask words (its height p, at most 1024), takes the floored remainder of p - 1
  by 1025 (the row below the top, cyclically), and fetches for every example b two rows of the stack by a gather whose
  start pairs are (row, b): the top row p and the row below it. Each index vector is first wrapped as numpy wraps a
  negative index (add the axis length where the word is negative); row numbers up to 1024 and example numbers up to 63
  are not negative, so the wrap is the identity. The result is prev * a + cur * (1 - a) with a = |op| as a float.
  Under the preconditions a is 0 or 1; on the extended reals x * 0 = 0 and x * 1 = x for EVERY x, infinite ones
  included, so the combination is exactly one of the two rows, with no finiteness asked of the inputs: the row the
  specification selects. Read at its result buffer, the fold of the program's operations is this composition of array
  operations applied to the four argument arrays; the integer side of each step is a lemma on words.
-/
import proofs.«407332_j39376260169764_2_alg».proof.Proof.RefOps
import proofs.«407332_j39376260169764_2_alg».proof.Proof.Spec
import proofs.«407332_j39376260169764_2_alg».proof.Proof.Words
import proofs.«407332_j39376260169764_2_alg».proof.Proof.LibGatherRowPair
import Idealize.ShloMosaic.Lib.StableHlo.Run
import Idealize.ShloMosaic.Lib.Pipeline.Value
import Idealize.ShloMosaic.Lib.IdealHost
import Idealize.ShloMosaic.Lib.ValueLayout
import Idealize.ShloMosaic.Lib.Affine

noncomputable section

namespace Cert.ReferenceIdeal.RefValue

open Idealize.ShloMosaic Idealize.ShloMosaic.ValueIdx
open Cert.ReferenceIdeal Cert.ReferenceIdeal.Gen

section Stack
variable {α : Type}

/-- A one-row array laid on top of a 1024-row array, along the row axis. -/
def onTop (a : S1x64x1024.Idx → α) (x : S1024x64x1024.Idx → α) : S1025x64x1024.Idx → α :=
  concatenate S1025x64x1024 0 [⟨S1x64x1024, a⟩, ⟨S1024x64x1024, x⟩] concatenates_S1x64x1024_S1024x64x1024_S1025x64x1024_d0

/-- The two-piece concatenation along the rows, named: its two pieces are then plain arguments. -/
theorem onTop_fold (a : S1x64x1024.Idx → α) (x : S1024x64x1024.Idx → α) :
    concatenate S1025x64x1024 0 [⟨S1x64x1024, a⟩, ⟨S1024x64x1024, x⟩] concatenates_S1x64x1024_S1024x64x1024_S1025x64x1024_d0
      = onTop a x := rfl

/-- The 1025-row stack: the initial state broadcast over the examples as row 0, then the 1024 input rows. -/
def stack (x : S1024x64x1024.Idx → α) (ini : S1024.Idx → α) : S1025x64x1024.Idx → α :=
  onTop (broadcastInDim S1x64x1024 ![2] bcast_S1024_S1x64x1024_2 ini) x

/-- Row 0 of the stack is the initial state, for every example. -/
theorem stack_zero (x : S1024x64x1024.Idx → α) (ini : S1024.Idx → α) (b : Fin 64) (k : Fin 1024) :
    stack x ini (ix3 (0 : Fin 1025) b k) = ini (ix1 k) := by
  unfold stack onTop
  refine (concatenate_pair_apply_left (s₁ := S1x64x1024) (s₂ := S1024x64x1024) (0 : Fin 3) _ _ _ (ix3 (0 : Fin 1025) b k) rfl (ix3 (0 : Fin 1) b k)
    (fun a => match a with | ⟨0, _⟩ => rfl | ⟨1, _⟩ => rfl | ⟨2, _⟩ => rfl)).trans ?_
  exact broadcastInDim_apply _ _ _ _ (ix1 k) (fun a => match a with | ⟨0, _⟩ => rfl)

/-- Row n + 1 of the stack is input row n. -/
theorem stack_succ (x : S1024x64x1024.Idx → α) (ini : S1024.Idx → α) (n : Nat) (hn : n < 1024) (b : Fin 64) (k : Fin 1024) :
    stack x ini (ix3 (⟨n + 1, by omega⟩ : Fin 1025) b k) = x (ix3 (⟨n, hn⟩ : Fin 1024) b k) := by
  unfold stack onTop
  exact concatenate_pair_apply_right (s₁ := S1x64x1024) (s₂ := S1024x64x1024) (0 : Fin 3) _ _ _ (ix3 (⟨n + 1, by omega⟩ : Fin 1025) b k) rfl rfl (ix3 (⟨n, hn⟩ : Fin 1024) b k)
    (fun a ha => match a, ha with | ⟨0, _⟩, ha => absurd rfl ha | ⟨1, _⟩, _ => rfl | ⟨2, _⟩, _ => rfl) rfl

end Stack

section Words

/-- A row or example number below 2^31 is itself as a signed word. -/
theorem toInt_ofNat_small (n : Nat) (hn : n < 2147483648) : (BitVec.ofNat 32 n).toInt = (n : Int) := by
  rw [BitVec.toInt_eq_toNat_cond, BitVec.toNat_ofNat, Nat.mod_eq_of_lt (by omega)]
  split <;> omega

/-- Such a number is not negative as a signed word. -/
theorem slt_zero_ofNat (n : Nat) (hn : n < 2147483648) : IntOp.cmpi .slt (BitVec.ofNat 32 n) 0#32 = 0#1 :=
  eq_zero_of_ne_one fun h => by
    have h' := IntOp.cmpi_slt.1 h
    rw [toInt_ofNat_small n hn, show (0#32 : BitVec 32).toInt = 0 from by decide] at h'
    omega

/-- Read signed and clamped into an axis that holds it, it is itself. -/
theorem clamp_ofNat (n m : Nat) (hn : n ≤ m) (hm : m < 2147483648) : min (BitVec.ofNat 32 n).toInt.toNat m = n := by
  rw [toInt_ofNat_small n (by omega), Int.toNat_natCast]
  exact Nat.min_eq_left hn

end Words

section Tables

/-- Two columns side by side. -/
def sideBySide {α : Type} (a c : S64x1.Idx → α) : S64x2.Idx → α :=
  concatenate S64x2 1 [⟨S64x1, a⟩, ⟨S64x1, c⟩] concatenates_S64x1_S64x1_S64x2_d1

/-- The two-piece concatenation along the columns, named. -/
theorem sideBySide_fold {α : Type} (a c : S64x1.Idx → α) :
    concatenate S64x2 1 [⟨S64x1, a⟩, ⟨S64x1, c⟩] concatenates_S64x1_S64x1_S64x2_d1 = sideBySide a c := rfl

/-- The [64, 2] table of start pairs: column 0 the row numbers, column 1 the example numbers. -/
def table (z w : IVec S64 32) : IVec S64x2 32 :=
  sideBySide (broadcastInDim S64x1 ![0] bcast_S64_S64x1_0 z) (broadcastInDim S64x1 ![0] bcast_S64_S64x1_0 w)

/-- Row r of the table starts with the row number … -/
theorem table_zero (z w : IVec S64 32) (r : Fin 64) : table z w (ix2 r (0 : Fin 2)) = z (ix1 r) := by
  unfold table sideBySide
  refine (concatenate_pair_apply_left (s₁ := S64x1) (s₂ := S64x1) (1 : Fin 2) _ _ _ (ix2 r (0 : Fin 2)) rfl (ix2 r (0 : Fin 1))
    (fun a => match a with | ⟨0, _⟩ => rfl | ⟨1, _⟩ => rfl)).trans ?_
  exact broadcastInDim_apply _ _ _ _ (ix1 r) (fun a => match a with | ⟨0, _⟩ => rfl)

/-- … and ends with the example number. -/
theorem table_one (z w : IVec S64 32) (r : Fin 64) : table z w (ix2 r (1 : Fin 2)) = w (ix1 r) := by
  unfold table sideBySide
  refine (concatenate_pair_apply_right (s₁ := S64x1) (s₂ := S64x1) (1 : Fin 2) _ _ _ (ix2 r (1 : Fin 2)) rfl rfl (ix2 r (0 : Fin 1))
    (fun a ha => match a, ha with | ⟨0, _⟩, _ => rfl | ⟨1, _⟩, ha => absurd rfl ha) rfl).trans ?_
  exact broadcastInDim_apply _ _ _ _ (ix1 r) (fun a => match a with | ⟨0, _⟩ => rfl)

/-- numpy's wrap of a negative index into an axis of 1025 rows … -/
def wrapRow (z : IVec S64 32) : IVec S64 32 :=
  select (cmpi .slt z (broadcastInDim S64 ![] bcast_S_S64 (constantI S_ 32 0#32)))
    (addi z (broadcastInDim S64 ![] bcast_S_S64 (constantI S_ 32 1025#32))) z

/-- … and into the axis of 64 examples. -/
def wrapCol (z : IVec S64 32) : IVec S64 32 :=
  select (cmpi .slt z (broadcastInDim S64 ![] bcast_S_S64 (constantI S_ 32 0#32)))
    (addi z (broadcastInDim S64 ![] bcast_S_S64 (constantI S_ 32 64#32))) z

/-- The wrap at one example is the wrap of that example's word. -/
theorem wrapRow_apply (z : IVec S64 32) (r : Fin 64) :
    wrapRow z (ix1 r) = Scalar.select (IntOp.cmpi .slt (z (ix1 r)) 0#32) (IntOp.addi (z (ix1 r)) 1025#32) (z (ix1 r)) := rfl

/-- The example numbers 0 … 63 are not negative: the wrap leaves them alone. -/
theorem wrapCol_iota (r : Fin 64) : wrapCol (iotaInDim S64 32 0) (ix1 r) = BitVec.ofNat 32 r.val := by
  show Scalar.select (IntOp.cmpi .slt (BitVec.ofNat 32 r.val) 0#32) (IntOp.addi (BitVec.ofNat 32 r.val) 64#32) (BitVec.ofNat 32 r.val) = _
  rw [slt_zero_ofNat r.val (by omega), select_zero]

end Tables

section Gather
variable {α : Type}

/-- The gather of the stack at the table whose row words are the numbers z: entry (b, k) is the stack's row z b of
    example b, when that row number is at most 1024. -/
theorem gather_stack (x : S1024x64x1024.Idx → α) (ini : S1024.Idx → α) (z : IVec S64 32) (n : Nat) (hn : n ≤ 1024)
    (b : Fin 64) (k : Fin 1024) (hz : z (ix1 b) = BitVec.ofNat 32 n) :
    Host.gather gather_S1025x64x1024_S64x2_S64x1024_1_01_n_n_01_1_111024 (stack x ini)
        (table (wrapRow z) (wrapCol (iotaInDim S64 32 0))) (ix2 b k)
      = stack x ini (ix3 (⟨n, by omega⟩ : Fin 1025) b k) := by
  refine Cert.LibGatherRowPair.gather_rowpair_apply _ rfl rfl rfl rfl rfl rfl rfl _ _ b k ⟨n, by omega⟩ b ?_ ?_
  · rw [table_zero, wrapRow_apply, hz, Cert.StackSpec.wrap_id n hn]
    exact clamp_ofNat n 1024 hn (by omega)
  · rw [table_one, wrapCol_iota]
    exact clamp_ofNat b.val 63 (by omega) (by omega)

end Gather

section Weights
variable {α : Type}

/-- A vector over the examples, made a column and then broadcast along the features, reads at (b, k) its entry b. -/
theorem column_apply (u : S64.Idx → α) (b : Fin 64) (k : Fin 1024) :
    broadcastInDim S64x1024 ![0, 1] bcast_S64x1_S64x1024_0_1 (broadcastInDim S64x1 ![0] bcast_S64_S64x1_0 u) (ix2 b k) = u (ix1 b) := by
  refine (broadcastInDim_apply _ _ _ (ix2 b k) (ix2 b (0 : Fin 1)) (fun a => match a with | ⟨0, _⟩ => rfl | ⟨1, _⟩ => rfl)).trans ?_
  exact broadcastInDim_apply _ _ _ _ (ix1 b) (fun a => match a with | ⟨0, _⟩ => rfl)

/-- The complementary weight: the column subtracted from a column of ones, broadcast along the features. -/
theorem oneMinus_apply (u : FVec Ideal S64 .f32) (b : Fin 64) (k : Fin 1024) :
    broadcastInDim S64x1024 ![0, 1] bcast_S64x1_S64x1024_0_1
        (subf (broadcastInDim S64x1 ![] bcast_S_S64x1 (constant (F := Ideal) S_ .f32 0x3F800000#32))
          (broadcastInDim S64x1 ![0] bcast_S64_S64x1_0 u)) (ix2 b k)
      = (1 : EReal) - u (ix1 b) := by
  refine (broadcastInDim_apply _ _ _ (ix2 b k) (ix2 b (0 : Fin 1)) (fun a => match a with | ⟨0, _⟩ => rfl | ⟨1, _⟩ => rfl)).trans ?_
  rw [subf_apply, broadcastInDim_scalar_apply, constant_apply, Ideal.ofBits_one_f32]
  congr 1
  exact broadcastInDim_apply _ _ _ _ (ix1 b) (fun a => match a with | ⟨0, _⟩ => rfl)

end Weights

section Rows

/-- The heights: the mask words of each column added up from zero. -/
def posW (masks : IVec S1024x64 32) : IVec S64 32 :=
  Host.reduce IntOp.addi masks (constantI S_ 32 0#32) reducesTo_S1024x64_S64_d0 h_S_

/-- The modulus, or 1 where the modulus is 0. -/
def guardW (m : IVec S_ 32) : IVec S_ 32 := select (cmpi .eq (id m) (constantI S_ 32 0#32)) (constantI S_ 32 1#32) (id m)

/-- The truncated remainder by the guarded modulus. -/
def truncRem (x : IVec S64 32) (m : IVec S_ 32) : IVec S64 32 := Host.remsi x (broadcastInDim S64 ![] bcast_S_S64 (guardW m))

/-- The floored remainder: the truncated one, the modulus added back where it is nonzero and of the other sign. -/
def floorMod (x : IVec S64 32) (m : IVec S_ 32) : IVec S64 32 :=
  select
    (andi
      (cmpi .ne (cmpi .slt (truncRem x m) (broadcastInDim S64 ![] bcast_S_S64 (constantI S_ 32 0#32)))
        (broadcastInDim S64 ![] bcast_S_S64 (cmpi .slt (guardW m) (constantI S_ 32 0#32))))
      (cmpi .ne (truncRem x m) (broadcastInDim S64 ![] bcast_S_S64 (constantI S_ 32 0#32))))
    (addi (truncRem x m) (broadcastInDim S64 ![] bcast_S_S64 (guardW m)))
    (truncRem x m)

/-- At one example, the floored remainder by 1025 of a vector less one is the word function of the specification. -/
theorem floorMod_pred_apply (p : IVec S64 32) (r : Fin 64) :
    floorMod (subi p (broadcastInDim S64 ![] bcast_S_S64 (constantI S_ 32 1#32))) (constantI S_ 32 1025#32) (ix1 r)
      = Cert.StackSpec.remW (IntOp.subi (p (ix1 r)) 1#32) := rfl

/-- The rows below the tops. -/
def prevW (masks : IVec S1024x64 32) : IVec S64 32 :=
  floorMod (subi (posW masks) (broadcastInDim S64 ![] bcast_S_S64 (constantI S_ 32 1#32))) (constantI S_ 32 1025#32)

/-- Example b's height word is its height: at most 1024 ones do not wrap. -/
theorem posW_apply (masks : IVec S1024x64 32) (hM : Cert.StackSpec.MasksOK masks) (b : Fin 64) :
    posW masks (ix1 b) = BitVec.ofNat 32 (Cert.StackSpec.height masks b) :=
  Cert.StackSpec.reduce_height masks hM _ _ b

/-- Example b's lower-row word is the row below its height, cyclically over the 1025 rows. -/
theorem prevW_apply (masks : IVec S1024x64 32) (hM : Cert.StackSpec.MasksOK masks) (b : Fin 64) :
    prevW masks (ix1 b) = BitVec.ofNat 32 (Cert.StackSpec.below (Cert.StackSpec.height masks b)) := by
  unfold prevW
  rw [floorMod_pred_apply, posW_apply masks hM b]
  exact Cert.StackSpec.remW_pred _ (Cert.StackSpec.height_le masks hM b)

variable {F : FTy → Type} [FloatOps F]

/-- The stack's row n of example b is the specification's: the initial state at 0, input row n - 1 above. -/
theorem stack_eq_stackRow (x : S1024x64x1024.Idx → Elt F .f32) (ini : S1024.Idx → Elt F .f32) (n : Nat) (hn : n ≤ 1024)
    (b : Fin 64) (k : Fin 1024) :
    stack x ini (ix3 (⟨n, by omega⟩ : Fin 1025) b k) = Cert.StackSpec.stackRow (F := F) x ini n b k := by
  unfold Cert.StackSpec.stackRow
  cases n with
  | zero => rw [if_pos rfl]; exact stack_zero x ini b k
  | succ m =>
    have hm : m < 1024 := by omega
    have e : (m + 1 - 1) % 1024 = m := by rw [Nat.add_sub_cancel, Nat.mod_eq_of_lt hm]
    rw [if_neg (Nat.succ_ne_zero m)]
    exact (stack_succ x ini m hm b k).trans (congrArg (fun i : Fin 1024 => x (ix3 i b k)) (Fin.ext e.symm))

end Rows

section Result

/-- The reference's result for one state array, as one function of the four arrays it reads. -/
def refOut (x : FVec Ideal S1024x64x1024 .f32) (ini : FVec Ideal S1024 .f32) (masks : IVec S1024x64 32) (op : IVec S64 32) :
    FVec Ideal S64x1024 .f32 :=
  addf
    (mulf
      (Host.gather gather_S1025x64x1024_S64x2_S64x1024_1_01_n_n_01_1_111024 (stack x ini)
        (table (wrapRow (prevW masks)) (wrapCol (iotaInDim S64 32 0))))
      (broadcastInDim S64x1024 ![0, 1] bcast_S64x1_S64x1024_0_1
        (broadcastInDim S64x1 ![0] bcast_S64_S64x1_0 (sitofp (F := Ideal) .f32 (absi op)))))
    (mulf
      (Host.gather gather_S1025x64x1024_S64x2_S64x1024_1_01_n_n_01_1_111024 (stack x ini)
        (table (wrapRow (posW masks)) (wrapCol (iotaInDim S64 32 0))))
      (broadcastInDim S64x1024 ![0, 1] bcast_S64x1_S64x1024_0_1
        (subf (broadcastInDim S64x1 ![] bcast_S_S64x1 (constant (F := Ideal) S_ .f32 0x3F800000#32))
          (broadcastInDim S64x1 ![0] bcast_S64_S64x1_0 (sitofp (F := Ideal) .f32 (absi op))))))

/-- On the extended reals too, one less one is zero. -/
theorem one_sub_one : (1 : EReal) - 1 = 0 := by
  rw [← EReal.coe_one, ← EReal.coe_sub, sub_self, EReal.coe_zero]

/-- Entry by entry the reference's result is the specification: the two gathers read the row below the top and the top of
    the example's stack, the weight is 0 or 1, and a product with 0 vanishes and with 1 is the factor for every
    extended real, so the combination is the one row the operation word selects. -/
theorem refOut_eq (x : FVec Ideal S1024x64x1024 .f32) (ini : FVec Ideal S1024 .f32) (masks : IVec S1024x64 32) (op : IVec S64 32)
    (hM : Cert.StackSpec.MasksOK masks) (hO : Cert.StackSpec.OpOK op) :
    refOut x ini masks op = Cert.StackSpec.result (F := Ideal) x ini masks op := by
  funext y
  obtain ⟨b, k, rfl⟩ : ∃ (b : Fin 64) (k : Fin 1024), y = ix2 b k := ⟨y 0, y 1, eq_ix2 y⟩
  rw [Cert.StackSpec.result_apply]
  unfold refOut
  rw [addf_apply, mulf_apply, mulf_apply, column_apply, oneMinus_apply, sitofp_apply,
    gather_stack x ini (prevW masks) _ (Cert.StackSpec.below_le _) b k (prevW_apply masks hM b),
    gather_stack x ini (posW masks) _ (Cert.StackSpec.height_le masks hM b) b k (posW_apply masks hM b),
    stack_eq_stackRow (F := Ideal) x ini _ (Cert.StackSpec.below_le _) b k,
    stack_eq_stackRow (F := Ideal) x ini _ (Cert.StackSpec.height_le masks hM b) b k]
  unfold Cert.StackSpec.selRow
  show _ * FloatOps.sitofp (F := Ideal) .f32 (IntOp.absi (op (ix1 b))) + _ * ((1 : EReal) - FloatOps.sitofp (F := Ideal) .f32 (IntOp.absi (op (ix1 b)))) = _
  rcases Cert.StackSpec.absi_cases (op (ix1 b)) (hO (ix1 b)) with h | h
  · rw [h, Cert.StackSpec.weight_zero, if_neg (by decide), mul_zero, zero_add, sub_zero, mul_one]
  · rw [h, Cert.StackSpec.weight_one, if_pos rfl, mul_one, one_sub_one, mul_zero, add_zero]

end Result

section Results

open Idealize.ShloMosaic.StableHlo Idealize.ShloMosaic.TcCoe

variable (V : Valuation τ sig (Elt Ideal))

set_option maxHeartbeats 4000000 in
/-- The first result's buffer after the program's operations holds the composition above of the first state array, the
    first initial state, the masks and the operation words: each operation's result is its function of its operands'
    results, and no operation writes an argument. -/
theorem main_v74_eq :
    after (RefRun.ops (F := Ideal)) V (main_v74 : DevRef τ sig)
      = refOut (V (main_arg0 : DevRef τ sig)) (V (main_arg2 : DevRef τ sig)) (V (main_arg4 : DevRef τ sig)) (V (main_arg5 : DevRef τ sig)) := by
  simp (disch := decide) only [after_cons, after_nil,
    nullary_result', unary_result', binary_result', ternary_result',
    nullary_result_ne', unary_result_ne', binary_result_ne', ternary_result_ne',
    onTop_fold, sideBySide_fold, cast_eq]
  rfl

set_option maxHeartbeats 4000000 in
/-- The second result's buffer likewise, of the second state array and the second initial state. -/
theorem main_v81_eq :
    after (RefRun.ops (F := Ideal)) V (main_v81 : DevRef τ sig)
      = refOut (V (main_arg1 : DevRef τ sig)) (V (main_arg3 : DevRef τ sig)) (V (main_arg4 : DevRef τ sig)) (V (main_arg5 : DevRef τ sig)) := by
  simp (disch := decide) only [after_cons, after_nil,
    nullary_result', unary_result', binary_result', ternary_result',
    nullary_result_ne', unary_result_ne', binary_result_ne', ternary_result_ne',
    onTop_fold, sideBySide_fold, cast_eq]
  rfl

/-- The reference's first result is the specification's, of the first state array and initial state. -/
theorem out_h (hM : Cert.StackSpec.MasksOK (V (main_arg4 : DevRef τ sig))) (hO : Cert.StackSpec.OpOK (V (main_arg5 : DevRef τ sig))) :
    after (RefRun.ops (F := Ideal)) V (main_v74 : DevRef τ sig)
      = Cert.StackSpec.result (F := Ideal) (V (main_arg0 : DevRef τ sig)) (V (main_arg2 : DevRef τ sig))
          (V (main_arg4 : DevRef τ sig)) (V (main_arg5 : DevRef τ sig)) :=
  (main_v74_eq V).trans (refOut_eq _ _ _ _ hM hO)

/-- The reference's second result is the specification's, of the second state array and initial state. -/
theorem out_c (hM : Cert.StackSpec.MasksOK (V (main_arg4 : DevRef τ sig))) (hO : Cert.StackSpec.OpOK (V (main_arg5 : DevRef τ sig))) :
    after (RefRun.ops (F := Ideal)) V (main_v81 : DevRef τ sig)
      = Cert.StackSpec.result (F := Ideal) (V (main_arg1 : DevRef τ sig)) (V (main_arg3 : DevRef τ sig))
          (V (main_arg4 : DevRef τ sig)) (V (main_arg5 : DevRef τ sig)) :=
  (main_v81_eq V).trans (refOut_eq _ _ _ _ hM hO)

/-- info: 'Cert.ReferenceIdeal.RefValue.out_h' depends on axioms: [propext, Classical.choice, Quot.sound] -/
#guard_msgs (whitespace := lax) in #print axioms out_h

/-- info: 'Cert.ReferenceIdeal.RefValue.out_c' depends on axioms: [propext, Classical.choice, Quot.sound] -/
#guard_msgs (whitespace := lax) in #print axioms out_c

end Results

end Cert.ReferenceIdeal.RefValue

end
-- ==== Proof.KPieces.lean ====
/-
  What the body leaves in an output block, entry by entry.

  Row j of the block at grid point t belongs to example b = 8t + j. The body copied input row `row[b]` of that example
  into a scratch slot, waited for the copy, and stored either the copied row or the initial state according to the
  sign of `valid[b]`. The copy delivers the array's entries unchanged, the slot read after the wait holds the latest
  delivery, and the initial-state block is the whole initial-state array: so entry (j, k) of the block is the array's
  entry (row[b], b, k) when valid[b] > 0 and the initial state's entry k otherwise.
-/
import proofs.«407332_j39376260169764_2_alg».proof.Proof.KBody
import Idealize.ShloMosaic.Lib.ValueIdx
import Idealize.ShloMosaic.Lib.Pipeline.Value

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

section Generic
variable {sg : RefSig} {κ : Kind} {sp : Space} {s : Shape} {e : EltTy} {Val : EltTy → Type}

/-- A load through a rectangle of a view, after writes made through that rectangle re-indexed by another shape the
    last of which fills it, reads the last write's payload at the matching index. -/
theorem readAt_slice_reshape_writes (v : View sg κ sp s e) (r : Rect s) (s' : Shape) (h : s'.numel = r.shape.numel)
    (f0 : v.ty.Contents Val) (d : (Rect.whole s').shape.Idx → Val e) (L : List (View.Piece Val s' e)) (x : r.shape.Idx) :
    v.readAt Val r.toLoadRect (((v.slice r).reshape s' h).writes Val f0 (⟨Rect.whole s', d⟩ :: L)) x
      = d ((Shape.reshapeEquiv h).symm x) := by
  have e1 : (Rect.whole s').emb ((Shape.reshapeEquiv h).symm x) = (Shape.reshapeEquiv h).symm x := Rect.emb_whole_apply s' _
  have e2 := View.read_writes_cons_emb ((v.slice r).reshape s' h) f0 (Rect.whole s') d L ((Shape.reshapeEquiv h).symm x)
  rw [e1] at e2
  rw [← e2, View.readAt_rect, View.read_apply, View.read_apply]
  simp

/-- A view's rectangle re-indexed by another shape reads the buffer at the rectangle's placement of the matching index. -/
theorem read_whole_slice_reshape (b : Ref sg κ) (r : Rect b.ty.shape) (s' : Shape) (h : s'.numel = r.shape.numel)
    (f : b.ty.Contents Val) (y : s'.Idx) :
    (((View.whole b).slice r).reshape s' h).read Val f y = f (r.emb (Shape.reshapeEquiv h y)) := rfl

end Generic

/-- The one index of a [1 × 1024] row matched with index k of [1024] is k's. -/
theorem reshape_row_symm (h : S1024.numel = S1x1024.numel) (x : S1x1024.Idx) :
    (Shape.reshapeEquiv h).symm x = ix1 (n := 1024) (x 1) := by
  rw [Shape.reshapeEquiv_symm]
  apply Shape.reshapeEquiv_eq_of_rowMajor
  have h0 : (x 0).val = 0 := by have := (x 0).isLt; simp at this; omega
  refine (Shape.rowMajor_val_one (d := ![1024]) (ix1 (n := 1024) (x 1))).trans ?_
  refine Eq.trans ?_ (Shape.rowMajor_val_two (d := ![1, 1024]) x).symm
  show (x 1).val = (x 0).val * 1024 + (x 1).val
  omega

/-! ## Indices -/

/-- The index of [1, 1, 1024] matched with index k of [1024] is (0, 0, k). -/
theorem reshape_row3 (h : S1024.numel = S1x1x1024.numel) (y : S1024.Idx) :
    Shape.reshapeEquiv h y = ix3 (n0 := 1) (n1 := 1) (n2 := 1024) 0 0 (y 0) := by
  apply Shape.reshapeEquiv_eq_of_rowMajor
  refine (Shape.rowMajor_val_three (d := ![1, 1, 1024]) (ix3 (n0 := 1) (n1 := 1) (n2 := 1024) 0 0 (y 0))).trans ?_
  refine Eq.trans ?_ (Shape.rowMajor_val_one (d := ![1024]) y).symm
  show (0 * 1 + 0) * 1024 + (y 0).val = (y 0).val
  omega

/-- Row J of an [8, 1024] block, entry by entry. -/
theorem emb_row (J : Nat) (hJ : J < 8) (inb : ∀ a, (![J, 0] : Fin 2 → Nat) a + S1x1024.size a ≤ S8x1024.size a) (x : S1x1024.Idx) :
    (Rect.unit (s := S8x1024) ![J, 0] S1x1024.size inb).emb x = ix2 (n0 := 8) (n1 := 1024) ⟨J, hJ⟩ (x 1) := by
  have h0 : (x 0).val = 0 := by have := (x 0).isLt; simp at this; omega
  funext a; apply Fin.ext
  match a with
  | ⟨0, _⟩ => show J + 1 * (x 0).val = J; omega
  | ⟨1, _⟩ => show 0 + 1 * (x 1).val = (x 1).val; omega

/-- The example index 8·t + J as the body computes it in 32-bit words: no wrap, since t < 8. -/
theorem ex_word (i : grid0.Coords) (J : Nat) (hJ : J < 8) :
    (Scalar.addi (Scalar.muli (BitVec.ofNat 32 (i 0).val) 8#32) (BitVec.ofNat 32 J)).toNat = 8 * (i 0).val + J := by
  have hi : (i 0).val < 8 := by have := (i 0).isLt; simp at this; omega
  show (BitVec.ofNat 32 (i 0).val * 8#32 + BitVec.ofNat 32 J).toNat = _
  rw [BitVec.toNat_add, BitVec.toNat_mul, BitVec.toNat_ofNat, BitVec.toNat_ofNat]
  show (((i 0).val % 2 ^ 32) * 8 % 2 ^ 32 + J % 2 ^ 32) % 2 ^ 32 = _
  omega

/-! ## The pieces' parts -/

section Parts
variable (c : Dev nD)

/-- A load of the whole initial-state block reads it. -/
theorem read_init (arg : Memref sig .tc .vmem S1024 .f32) (harg : arg.IsWhole) (x0 : Vec F S1024 .f32)
    (inb : ∀ a, (![0] : Fin 1 → Nat) a + S1024.size a ≤ S1024.size a) :
    View.readAt (Elt F) arg.view (Rect.unit (s := S1024) ![0] S1024.size inb).toLoadRect (harg.unread x0) = x0 := by
  rw [View.readAt_eq_ld, harg.read_unread]
  exact View.ld_unit_zero (funext fun a => by fin_cases a; rfl) inb x0

/-- A load of one table word reads the table there. -/
theorem read_word (tb : Memref sig .tc .smem S64 .i32) (xt : tb.view.ty.Contents (Elt F)) (off : Fin 1 → Nat)
    (inb : ∀ a, off a + S1.size a ≤ S64.size a) (h : 0 < S1.numel) (ex : Fin 64) (hoff : off 0 = ex.val) :
    View.readAt (Elt F) tb.view (Rect.unit (s := S64) off S1.size inb).toLoadRect xt (Shape.Idx.first h)
      = tb.view.read (Elt F) xt (ix1 ex) := by
  rw [View.readAt_apply]
  congr 1
  funext a; apply Fin.ext
  match a with
  | ⟨0, _⟩ =>
    show off 0 + 1 * (Shape.Idx.first h (0 : Fin 1)).val = ex.val
    have : (Shape.Idx.first h (0 : Fin 1)).val = 0 := by have := (Shape.Idx.first h (0 : Fin 1)).isLt; simp at this; omega
    omega

end Parts

section Parts2
variable (c : Dev nD)

/-- A row delivered from a state array into a scratch slot, read back through the scratch after later deliveries
    into that slot or none: the array's entries of that row, whatever the slot held before. -/
theorem read_slot (sc : Memref sig .tc .vmem S2x1024 .f32) (hb : Memref sig .tc .hbm S1024x64x1024 .f32)
    (fh : hb.view.ty.Contents (Elt F)) (sl : Nat)
    (inbS inbS' : ∀ a, (![sl, 0] : Fin 2 → Nat) a + S1x1024.size a ≤ S2x1024.size a)
    (hst : ∀ a, (Rect.unit (s := S2x1024) ![sl, 0] S1x1024.size inbS').stride a = 1) (hsq : S1x1024.Squeezes S1024)
    (f0 : sc.view.ty.Contents (Elt F)) (off3 : Fin 3 → Nat)
    (inb3 : ∀ a, off3 a + S1x1x1024.size a ≤ S1024x64x1024.size a)
    (hst3 : ∀ a, (Rect.unit (s := S1024x64x1024) off3 S1x1x1024.size inb3).stride a = 1) (hsq3 : S1x1x1024.Squeezes S1024)
    (L : List (View.Piece (Elt F) S1024 .f32))
    (ex : Fin 64) (row : Nat) (hrow : off3 0 = row) (hex : off3 1 = ex.val) (h2 : off3 2 = 0) (x : S1x1024.Idx) :
    View.readAt (Elt F) sc.view (Rect.unit (s := S2x1024) ![sl, 0] S1x1024.size inbS).toLoadRect
        (((sc.slice (Rect.unit (s := S2x1024) ![sl, 0] S1x1024.size inbS') hst).squeeze S1024 hsq).view.writes (Elt F) f0
          (⟨Rect.whole S1024, ReadAs.same.apply (View.read (Elt F)
              ((hb.slice (Rect.unit (s := S1024x64x1024) off3 S1x1x1024.size inb3) hst3).squeeze S1024 hsq3).view fh)⟩ :: L)) x
      = hb.view.read (Elt F) fh (ix3 (n0 := 1024) (n1 := 64) (n2 := 1024) ⟨row % 1024, Nat.mod_lt _ (by decide)⟩ ex (x 1)) := by
  have hr : row < 1024 := by have := inb3 0; rw [hrow] at this; simpa using this
  refine (readAt_slice_reshape_writes sc.view (Rect.unit (s := S2x1024) ![sl, 0] S1x1024.size inbS) S1024 hsq.numel_eq f0 _ L x).trans ?_
  rw [reshape_row_symm]
  show ((hb.view.slice (Rect.unit (s := S1024x64x1024) off3 S1x1x1024.size inb3)).reshape S1024 hsq3.numel_eq).read (Elt F) fh (ix1 (n := 1024) (x 1)) = _
  rw [View.read_apply, View.read_apply]
  congr 2
  show hb.view.emb ((Rect.unit (s := S1024x64x1024) off3 S1x1x1024.size inb3).emb (Shape.reshapeEquiv hsq3.numel_eq (ix1 (n := 1024) (x 1)))) = hb.view.emb _
  congr 1
  rw [reshape_row3]
  funext a; apply Fin.ext
  match a with
  | ⟨0, _⟩ => show off3 0 + 1 * 0 = row % 1024; rw [hrow, Nat.mod_eq_of_lt hr]; omega
  | ⟨1, _⟩ => show off3 1 + 1 * 0 = ex.val; omega
  | ⟨2, _⟩ => show off3 2 + 1 * (x 1).val = (x 1).val; omega

/-- A stored row's payload at an index: the copied row's entry where the valid word is positive, the initial state's
    otherwise (a select between whole rows picks one row, so at an index it picks that row's entry). -/
theorem pay_apply (x0 A : Vec F S1024 .f32) (hA : A = x0) (W w : BitVec 32) (hW : W = w)
    (Ld : Vec F S1x1024 .f32) (r : Fin 1024 → Elt F .f32) (hLd : ∀ x : S1x1024.Idx, Ld x = r (x 1)) (x : S1x1024.Idx) :
    (shapeCast S1x1024 (Scalar.select (Scalar.cmpi .sgt W 0#32) (shapeCast S1024 Ld shapeCasts_S1x1024_S1024) A) shapeCasts_S1024_S1x1024 : Vec F S1x1024 .f32) x
      = Scalar.select (IntOp.cmpi .sgt w 0#32) (r (x 1)) (x0 (ix1 (n := 1024) (x 1))) := by
  subst hA hW
  have e : Shape.reshapeEquiv shapeCasts_S1024_S1x1024 x = ix1 (n := 1024) (x 1) := by
    have := reshape_row_symm shapeCasts_S1024_S1x1024.symm x
    rwa [Shape.reshapeEquiv_symm] at this
  show (Scalar.select (IntOp.cmpi .sgt W 0#32) (shapeCast S1024 Ld shapeCasts_S1x1024_S1024) A) (Shape.reshapeEquiv shapeCasts_S1024_S1x1024 x) = _
  rw [e]
  have e2 : shapeCast S1024 Ld shapeCasts_S1x1024_S1024 (ix1 (n := 1024) (x 1)) = r (x 1) := by
    rw [← e]
    show Ld (Shape.reshapeEquiv _ (Shape.reshapeEquiv _ x)) = _
    rw [Shape.reshapeEquiv_reshapeEquiv, Shape.reshapeEquiv_self, hLd]
  unfold Scalar.select
  split
  · exact e2
  · rfl

end Parts2

variable (m : (ℓ : Loc nD τ sig) → Buf (Elt F) ℓ)

/-- The example row j of grid point `i` handles. -/
def exIdx (i : grid0.Coords) (j : Fin 8) : Fin 64 := ⟨8 * (i 0).val + j.val, by have := (i 0).isLt; have := j.isLt; simp at *; omega⟩

/-- What the body leaves in an output block, as one function of the block's index: from the initial-state block, the
    two tables and the state array. -/
def blockFn (i : grid0.Coords) (x0 : Vec F S1024 .f32) (xt0 xt1 : S64.Idx → BitVec 32) (fh : S1024x64x1024.Idx → Elt F .f32) :
    S8x1024.Idx → Elt F .f32 :=
  fun y => Scalar.select (IntOp.cmpi .sgt (xt1 (ix1 (exIdx i (y 0)))) 0#32)
    (fh (ix3 ⟨(xt0 (ix1 (exIdx i (y 0)))).toNat % 1024, Nat.mod_lt _ (by decide)⟩ (exIdx i (y 0)) (y 1)))
    (x0 (ix1 (n := 1024) (y 1)))

set_option hygiene false in
/-- One stored row: its index in the block, then its payload's three parts. -/
local macro "row_proof " J:num sl:num inbR:ident inbS:ident harg:ident xI:ident sc:ident hb:ident fh:ident : tactic => `(tactic| (
    intro x
    have hx := emb_row $J (by decide) $inbR x
    refine Eq.trans ?_ (congrArg (blockFn i $xI xt0 xt1 $fh) hx).symm
    refine pay_apply $xI _ ?_ _ ((xt1 : S64.Idx → BitVec 32) (ix1 (exIdx i ⟨$J, by decide⟩))) ?_ _
      (fun k => ($fh : S1024x64x1024.Idx → Elt F .f32) (ix3 ⟨((xt0 : S64.Idx → BitVec 32) (ix1 (exIdx i ⟨$J, by decide⟩))).toNat % 1024, Nat.mod_lt _ (by decide)⟩ (exIdx i ⟨$J, by decide⟩) k)) ?_ x
    · exact read_init _ $harg $xI _
    · exact read_word tbM1 xt1 _ _ _ (exIdx i ⟨$J, by decide⟩) (ex_word i $J (by decide))
    · intro x'
      exact read_slot $sc $hb $fh $sl $inbS $inbS (fun _ => rfl) squeezes_S1x1024_S1024 _ _ _ (fun _ => rfl) squeezes_S1x1x1024_S1024 _ (exIdx i ⟨$J, by decide⟩) _
        (congrArg BitVec.toNat (read_word tbM0 xt0 _ _ _ (exIdx i ⟨$J, by decide⟩) (ex_word i $J (by decide)))) (ex_word i $J (by decide)) rfl x'))

set_option maxHeartbeats 4000000 in
/-- Each of the eight pieces stored into the first output block is that block's function on its row. -/
theorem pieces2 (c : Dev nD) (i : grid0.Coords)
    (arg3 : Memref sig .tc .vmem S1024 .f32) (harg3 : arg3.IsWhole) (arg4 : Memref sig .tc .vmem S1024 .f32) (harg4 : arg4.IsWhole)
    (arg7 : Memref sig .tc .vmem S8x1024 .f32) (harg7 : arg7.IsWhole) (arg8 : Memref sig .tc .vmem S8x1024 .f32) (harg8 : arg8.IsWhole)
    (x0 x1 : Vec F S1024 .f32) (xt0 : BufOf (F := F) c tbM0) (xt1 : BufOf (F := F) c tbM1)
    (fh0 : BufOf (F := F) c hbM0) (fh1 : BufOf (F := F) c hbM1)
    (k0_hw1 : k0_chk1 i (tbM0.view.readAt (Elt F) (Rect.unit (s := S64) (k0_off1 i) S1.size (k0_off1_inb i)).toLoadRect xt0 (Shape.Idx.first (numel1_S1.symm ▸ Nat.one_pos))))
    (k0_hw2 : k0_chk2 i (tbM0.view.readAt (Elt F) (Rect.unit (s := S64) (k0_off3 i) S1.size (k0_off3_inb i)).toLoadRect xt0 (Shape.Idx.first (numel1_S1.symm ▸ Nat.one_pos))))
    (k0_hw3 : k0_chk3 i (tbM0.view.readAt (Elt F) (Rect.unit (s := S64) (k0_off5 i 2#32) S1.size (k0_off5_inb i 1)).toLoadRect xt0 (Shape.Idx.first (numel1_S1.symm ▸ Nat.one_pos))))
    (k0_hw4 : k0_chk4 i (tbM0.view.readAt (Elt F) (Rect.unit (s := S64) (k0_off7 i 3#32) S1.size (k0_off7_inb i 1)).toLoadRect xt0 (Shape.Idx.first (numel1_S1.symm ▸ Nat.one_pos))))
    (k0_hw5 : k0_chk5 i (tbM0.view.readAt (Elt F) (Rect.unit (s := S64) (k0_off9 i 4#32) S1.size (k0_off9_inb i 1)).toLoadRect xt0 (Shape.Idx.first (numel1_S1.symm ▸ Nat.one_pos))))
    (k0_hw6 : k0_chk6 i (tbM0.view.readAt (Elt F) (Rect.unit (s := S64) (k0_off11 i 5#32) S1.size (k0_off11_inb i 1)).toLoadRect xt0 (Shape.Idx.first (numel1_S1.symm ▸ Nat.one_pos))))
    (k0_hw7 : k0_chk7 i (tbM0.view.readAt (Elt F) (Rect.unit (s := S64) (k0_off13 i 6#32) S1.size (k0_off13_inb i 1)).toLoadRect xt0 (Shape.Idx.first (numel1_S1.symm ▸ Nat.one_pos))))
    (k0_hw8 : k0_chk8 i (tbM0.view.readAt (Elt F) (Rect.unit (s := S64) (k0_off15 i 7#32) S1.size (k0_off15_inb i 1)).toLoadRect xt0 (Shape.Idx.first (numel1_S1.symm ▸ Nat.one_pos)))) :
    ∀ p ∈ (kernelRun (F := F) c i arg3 harg3 arg4 harg4 arg7 harg7 arg8 harg8 x0 x1 xt0 xt1 fh0 fh1 k0_hw1 k0_hw2 k0_hw3 k0_hw4 k0_hw5 k0_hw6 k0_hw7 k0_hw8).1, ∀ x : p.1.shape.Idx, p.2 x = blockFn i x0 xt0 xt1 fh0 (p.1.emb x) := by
  unfold kernelRun
  dsimp only
  sl_unfold_words
  intro p hp
  rcases List.mem_cons.mp hp with rfl | hp
  · row_proof 7 1 inb_S8x1024_S1x1024_7_0 inb_S2x1024_S1x1024_1_0 harg3 x0 scM0 hbM0 fh0
  rcases List.mem_cons.mp hp with rfl | hp
  · row_proof 6 0 inb_S8x1024_S1x1024_6_0 inb_S2x1024_S1x1024_0_0 harg3 x0 scM0 hbM0 fh0
  rcases List.mem_cons.mp hp with rfl | hp
  · row_proof 5 1 inb_S8x1024_S1x1024_5_0 inb_S2x1024_S1x1024_1_0 harg3 x0 scM0 hbM0 fh0
  rcases List.mem_cons.mp hp with rfl | hp
  · row_proof 4 0 inb_S8x1024_S1x1024_4_0 inb_S2x1024_S1x1024_0_0 harg3 x0 scM0 hbM0 fh0
  rcases List.mem_cons.mp hp with rfl | hp
  · row_proof 3 1 inb_S8x1024_S1x1024_3_0 inb_S2x1024_S1x1024_1_0 harg3 x0 scM0 hbM0 fh0
  rcases List.mem_cons.mp hp with rfl | hp
  · row_proof 2 0 inb_S8x1024_S1x1024_2_0 inb_S2x1024_S1x1024_0_0 harg3 x0 scM0 hbM0 fh0
  rcases List.mem_cons.mp hp with rfl | hp
  · row_proof 1 1 inb_S8x1024_S1x1024_1_0 inb_S2x1024_S1x1024_1_0 harg3 x0 scM0 hbM0 fh0
  rcases List.mem_cons.mp hp with rfl | hp
  · row_proof 0 0 inb_S8x1024_S1x1024_0_0 inb_S2x1024_S1x1024_0_0 harg3 x0 scM0 hbM0 fh0
  exact absurd hp List.not_mem_nil

set_option maxHeartbeats 4000000 in
/-- Each of the eight pieces stored into the second output block is that block's function on its row. -/
theorem pieces3 (c : Dev nD) (i : grid0.Coords)
    (arg3 : Memref sig .tc .vmem S1024 .f32) (harg3 : arg3.IsWhole) (arg4 : Memref sig .tc .vmem S1024 .f32) (harg4 : arg4.IsWhole)
    (arg7 : Memref sig .tc .vmem S8x1024 .f32) (harg7 : arg7.IsWhole) (arg8 : Memref sig .tc .vmem S8x1024 .f32) (harg8 : arg8.IsWhole)
    (x0 x1 : Vec F S1024 .f32) (xt0 : BufOf (F := F) c tbM0) (xt1 : BufOf (F := F) c tbM1)
    (fh0 : BufOf (F := F) c hbM0) (fh1 : BufOf (F := F) c hbM1)
    (k0_hw1 : k0_chk1 i (tbM0.view.readAt (Elt F) (Rect.unit (s := S64) (k0_off1 i) S1.size (k0_off1_inb i)).toLoadRect xt0 (Shape.Idx.first (numel1_S1.symm ▸ Nat.one_pos))))
    (k0_hw2 : k0_chk2 i (tbM0.view.readAt (Elt F) (Rect.unit (s := S64) (k0_off3 i) S1.size (k0_off3_inb i)).toLoadRect xt0 (Shape.Idx.first (numel1_S1.symm ▸ Nat.one_pos))))
    (k0_hw3 : k0_chk3 i (tbM0.view.readAt (Elt F) (Rect.unit (s := S64) (k0_off5 i 2#32) S1.size (k0_off5_inb i 1)).toLoadRect xt0 (Shape.Idx.first (numel1_S1.symm ▸ Nat.one_pos))))
    (k0_hw4 : k0_chk4 i (tbM0.view.readAt (Elt F) (Rect.unit (s := S64) (k0_off7 i 3#32) S1.size (k0_off7_inb i 1)).toLoadRect xt0 (Shape.Idx.first (numel1_S1.symm ▸ Nat.one_pos))))
    (k0_hw5 : k0_chk5 i (tbM0.view.readAt (Elt F) (Rect.unit (s := S64) (k0_off9 i 4#32) S1.size (k0_off9_inb i 1)).toLoadRect xt0 (Shape.Idx.first (numel1_S1.symm ▸ Nat.one_pos))))
    (k0_hw6 : k0_chk6 i (tbM0.view.readAt (Elt F) (Rect.unit (s := S64) (k0_off11 i 5#32) S1.size (k0_off11_inb i 1)).toLoadRect xt0 (Shape.Idx.first (numel1_S1.symm ▸ Nat.one_pos))))
    (k0_hw7 : k0_chk7 i (tbM0.view.readAt (Elt F) (Rect.unit (s := S64) (k0_off13 i 6#32) S1.size (k0_off13_inb i 1)).toLoadRect xt0 (Shape.Idx.first (numel1_S1.symm ▸ Nat.one_pos))))
    (k0_hw8 : k0_chk8 i (tbM0.view.readAt (Elt F) (Rect.unit (s := S64) (k0_off15 i 7#32) S1.size (k0_off15_inb i 1)).toLoadRect xt0 (Shape.Idx.first (numel1_S1.symm ▸ Nat.one_pos)))) :
    ∀ p ∈ (kernelRun (F := F) c i arg3 harg3 arg4 harg4 arg7 harg7 arg8 harg8 x0 x1 xt0 xt1 fh0 fh1 k0_hw1 k0_hw2 k0_hw3 k0_hw4 k0_hw5 k0_hw6 k0_hw7 k0_hw8).2.1, ∀ x : p.1.shape.Idx, p.2 x = blockFn i x1 xt0 xt1 fh1 (p.1.emb x) := by
  unfold kernelRun
  dsimp only
  sl_unfold_words
  intro p hp
  rcases List.mem_cons.mp hp with rfl | hp
  · row_proof 7 1 inb_S8x1024_S1x1024_7_0 inb_S2x1024_S1x1024_1_0 harg4 x1 scM1 hbM1 fh1
  rcases List.mem_cons.mp hp with rfl | hp
  · row_proof 6 0 inb_S8x1024_S1x1024_6_0 inb_S2x1024_S1x1024_0_0 harg4 x1 scM1 hbM1 fh1
  rcases List.mem_cons.mp hp with rfl | hp
  · row_proof 5 1 inb_S8x1024_S1x1024_5_0 inb_S2x1024_S1x1024_1_0 harg4 x1 scM1 hbM1 fh1
  rcases List.mem_cons.mp hp with rfl | hp
  · row_proof 4 0 inb_S8x1024_S1x1024_4_0 inb_S2x1024_S1x1024_0_0 harg4 x1 scM1 hbM1 fh1
  rcases List.mem_cons.mp hp with rfl | hp
  · row_proof 3 1 inb_S8x1024_S1x1024_3_0 inb_S2x1024_S1x1024_1_0 harg4 x1 scM1 hbM1 fh1
  rcases List.mem_cons.mp hp with rfl | hp
  · row_proof 2 0 inb_S8x1024_S1x1024_2_0 inb_S2x1024_S1x1024_0_0 harg4 x1 scM1 hbM1 fh1
  rcases List.mem_cons.mp hp with rfl | hp
  · row_proof 1 1 inb_S8x1024_S1x1024_1_0 inb_S2x1024_S1x1024_1_0 harg4 x1 scM1 hbM1 fh1
  rcases List.mem_cons.mp hp with rfl | hp
  · row_proof 0 0 inb_S8x1024_S1x1024_0_0 inb_S2x1024_S1x1024_0_0 harg4 x1 scM1 hbM1 fh1
  exact absurd hp List.not_mem_nil

/-- The initial-state blocks are the whole initial-state arrays: their window's block index is 0 at every point. -/
theorem iblk0_apply (c : Dev nD) (t : Fin (cfgM m).N) (k : Fin 1024) :
    (iblk m c 0 t : S1024.Idx → Elt F .f32) (ix1 k) = (V m c main_arg2 : S1024.Idx → Elt F .f32) (ix1 k) := by
  unfold iblk
  show (V m c main_arg2 : S1024.Idx → Elt F .f32) ((((cfgM m).win 0).rect t).emb (ix1 (n := 1024) k)) = _
  congr 1
  funext a; apply Fin.ext
  match a with
  | ⟨0, _⟩ => show 0 * 1024 + 1 * k.val = k.val; omega

theorem iblk1_apply (c : Dev nD) (t : Fin (cfgM m).N) (k : Fin 1024) :
    (iblk m c 1 t : S1024.Idx → Elt F .f32) (ix1 k) = (V m c main_arg3 : S1024.Idx → Elt F .f32) (ix1 k) := by
  unfold iblk
  show (V m c main_arg3 : S1024.Idx → Elt F .f32) ((((cfgM m).win 1).rect t).emb (ix1 (n := 1024) k)) = _
  congr 1
  funext a; apply Fin.ext
  match a with
  | ⟨0, _⟩ => show 0 * 1024 + 1 * k.val = k.val; omega

theorem out2At_apply (hH : Hyps m) (c : Dev nD) (t : Fin (cfgM m).N) (j : Fin 8) (k : Fin 1024) :
    out2At m hH c t (ix2 j k) =
      Scalar.select (IntOp.cmpi .sgt ((tbl m 1 : S64.Idx → BitVec 32) (ix1 (exIdx (grid0.coords t) j))) 0#32)
        ((V m c main_arg0 : S1024x64x1024.Idx → Elt F .f32)
          (ix3 ⟨((tbl m 0 : S64.Idx → BitVec 32) (ix1 (exIdx (grid0.coords t) j))).toNat % 1024, Nat.mod_lt _ (by decide)⟩ (exIdx (grid0.coords t) j) k))
        ((V m c main_arg2 : S1024.Idx → Elt F .f32) (ix1 k)) := by
  unfold out2At
  refine (View.read_writes_apply_of_pieces VO2 VO2.junk
    (blockFn (grid0.coords t) (iblk m c 0 t) (tbl m 0) (tbl m 1) (V m c main_arg0)) _ ?_ (ix2 j k) (cover2At m hH c t _)).trans ?_
  · unfold runAt
    exact pieces2 c (grid0.coords t) (ms0 m t) (hs0 m t) (ms1 m t) (hs1 m t) (ms2 m t) (hs2 m t) (ms3 m t) (hs3 m t)
      (iblk m c 0 t) (iblk m c 1 t) (tbl m 0) (tbl m 1) (V m c main_arg0) (V m c main_arg1) _ _ _ _ _ _ _ _
  · show Scalar.select _ _ ((iblk m c 0 t : S1024.Idx → Elt F .f32) (ix1 k)) = _
    rw [iblk0_apply]
    rfl

theorem out3At_apply (hH : Hyps m) (c : Dev nD) (t : Fin (cfgM m).N) (j : Fin 8) (k : Fin 1024) :
    out3At m hH c t (ix2 j k) =
      Scalar.select (IntOp.cmpi .sgt ((tbl m 1 : S64.Idx → BitVec 32) (ix1 (exIdx (grid0.coords t) j))) 0#32)
        ((V m c main_arg1 : S1024x64x1024.Idx → Elt F .f32)
          (ix3 ⟨((tbl m 0 : S64.Idx → BitVec 32) (ix1 (exIdx (grid0.coords t) j))).toNat % 1024, Nat.mod_lt _ (by decide)⟩ (exIdx (grid0.coords t) j) k))
        ((V m c main_arg3 : S1024.Idx → Elt F .f32) (ix1 k)) := by
  unfold out3At
  refine (View.read_writes_apply_of_pieces VO3 VO3.junk
    (blockFn (grid0.coords t) (iblk m c 1 t) (tbl m 0) (tbl m 1) (V m c main_arg1)) _ ?_ (ix2 j k) (cover3At m hH c t _)).trans ?_
  · unfold runAt
    exact pieces3 c (grid0.coords t) (ms0 m t) (hs0 m t) (ms1 m t) (hs1 m t) (ms2 m t) (hs2 m t) (ms3 m t) (hs3 m t)
      (iblk m c 0 t) (iblk m c 1 t) (tbl m 0) (tbl m 1) (V m c main_arg0) (V m c main_arg1) _ _ _ _ _ _ _ _
  · show Scalar.select _ _ ((iblk m c 1 t : S1024.Idx → Elt F .f32) (ix1 k)) = _
    rw [iblk1_apply]
    rfl

end Cert.KernelIdeal.KFrame

end
-- ==== Proof.KValue.lean ====
/-
  The kernel's value: each output array ends holding the specification's result.

  The grid has 8 points; point t writes back, for each output, the block of rows 8t … 8t + 7 (all 1024 features), and
  these 8 blocks tile the 64 rows. Entry (j, k) of the block point t leaves is a select, on the sign of the validity
  word of example b = 8t + j, between the state array's entry (row word of b, b, k) and the initial state's entry k.
  With every mask word 0 or 1 the validity word is positive exactly when the specification's row number n of example
  b is not 0, and the row word is n - 1: so the entry is entry k of row n of b's stack, which is the specification's
  result at (b, k). Every point therefore writes its block of one whole-array function, the blocks cover the array,
  and the array ends holding that function; the arguments end as launched, as in the frame.
-/
import proofs.«407332_j39376260169764_2_alg».proof.Proof.KPieces
import proofs.«407332_j39376260169764_2_alg».proof.Proof.KTables
import proofs.«407332_j39376260169764_2_alg».proof.Proof.KBody
import Idealize.ShloMosaic.Lib.Pipeline.Value

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ) (ρ : Dev nD → PrngReg)

/-! ## The output windows' blocks on the grid -/

/-- At grid point `t` each output window's block index is `(t, 0)`, and the grid's one coordinate is `t`. -/
theorem idx4 : ∀ t : Fin grid0.N, cc0_transform_4 (grid0.coords t) = ![t.val, 0] :=
  (by decide +kernel : ∀ t : Fin grid0.N, _)
theorem idx5 : ∀ t : Fin grid0.N, cc0_transform_5 (grid0.coords t) = ![t.val, 0] :=
  (by decide +kernel : ∀ t : Fin grid0.N, _)
theorem coords_val : ∀ t : Fin grid0.N, (grid0.coords t 0).val = t.val :=
  (by decide +kernel : ∀ t : Fin grid0.N, _)

theorem index2 (t : Fin (cfgM m).N) : ((cfgM m).win 2).index t = ![t.val, 0] := idx4 t
theorem index3 (t : Fin (cfgM m).N) : ((cfgM m).win 3).index t = ![t.val, 0] := idx5 t

/-- The block index moves at every point, so every point writes its block back. -/
theorem flush2 (t : Fin (cfgM m).N) : ((cfgM m).win 2).flush t = true := by
  have hN : (cfgM m).N = 8 := N_0
  have hN' : (cfgM m).grid.N = 8 := N_0
  have hN'' : grid0.N = 8 := N_0
  unfold Pipeline.Window.flush
  rw [show ((cfgM m).win 2).isOut = true from rfl, Bool.true_and, Bool.or_eq_true, decide_eq_true_eq, decide_eq_true_eq]
  by_cases h : t.val + 1 = (cfgM m).N
  · exact Or.inl h
  · refine Or.inr ⟨by have := t.isLt; omega, fun e => ?_⟩
    rw [index2, index2] at e
    have := congrFun e 0
    simp at this
theorem flush3 (t : Fin (cfgM m).N) : ((cfgM m).win 3).flush t = true := by
  have hN : (cfgM m).N = 8 := N_0
  have hN' : (cfgM m).grid.N = 8 := N_0
  have hN'' : grid0.N = 8 := N_0
  unfold Pipeline.Window.flush
  rw [show ((cfgM m).win 3).isOut = true from rfl, Bool.true_and, Bool.or_eq_true, decide_eq_true_eq, decide_eq_true_eq]
  by_cases h : t.val + 1 = (cfgM m).N
  · exact Or.inl h
  · refine Or.inr ⟨by have := t.isLt; omega, fun e => ?_⟩
    rw [index3, index3] at e
    have := congrFun e 0
    simp at this

/-- Entry (j, k) of the block at point `t` is the array's entry (8t + j, k): row j of the block is example 8t + j. -/
theorem emb2 (t : Fin (cfgM m).N) (j : Fin 8) (k : Fin 1024) :
    (((cfgM m).win 2).blk t).view.emb (ix2 j k) = (ix2 (exIdx (grid0.coords t) j) k : S64x1024.Idx) := by
  funext a
  apply Fin.ext
  match a with
  | ⟨0, _⟩ =>
    show ((cfgM m).win 2).index t (0 : Fin 2) * 8 + 1 * j.val = 8 * (grid0.coords t 0).val + j.val
    rw [index2, coords_val]; simp; omega
  | ⟨1, _⟩ =>
    show ((cfgM m).win 2).index t (1 : Fin 2) * 1024 + 1 * k.val = k.val
    rw [index2]; simp
theorem emb3 (t : Fin (cfgM m).N) (j : Fin 8) (k : Fin 1024) :
    (((cfgM m).win 3).blk t).view.emb (ix2 j k) = (ix2 (exIdx (grid0.coords t) j) k : S64x1024.Idx) := by
  funext a
  apply Fin.ext
  match a with
  | ⟨0, _⟩ =>
    show ((cfgM m).win 3).index t (0 : Fin 2) * 8 + 1 * j.val = 8 * (grid0.coords t 0).val + j.val
    rw [index3, coords_val]; simp; omega
  | ⟨1, _⟩ =>
    show ((cfgM m).win 3).index t (1 : Fin 2) * 1024 + 1 * k.val = k.val
    rw [index3]; simp

/-! ## One stored entry is the specification's -/

/-- A select on a validity word that is positive exactly when `n ≠ 0`, between the array's entry at the row word (which
    is `n - 1`) and the initial state's, is entry `k` of row `n` of the example's stack. -/
theorem select_stackRow (hid : S1024x64x1024.Idx → Elt F .f32) (ini : S1024.Idx → Elt F .f32) (v w : BitVec 32) (n : Nat)
    (b : Fin 64) (k : Fin 1024) (hv : IntOp.cmpi .sgt v 0#32 = if n = 0 then 0#1 else 1#1) (hr : w.toNat = n - 1) :
    Scalar.select (IntOp.cmpi .sgt v 0#32) (hid (ix3 ⟨w.toNat % 1024, Nat.mod_lt _ (by decide)⟩ b k)) (ini (ix1 k))
      = Cert.StackSpec.stackRow hid ini n b k := by
  unfold Cert.StackSpec.stackRow
  rw [hv]
  split
  · rfl
  · simp only [hr]; rfl

/-- The select the body stores, read through the two tables' words of example `b`, is the entry of the row the
    specification selects. -/
theorem entry_eq (hM : Cert.StackSpec.MasksOK (m ((0 : Dev nD), Proc.devRef .tc main_arg4)))
    (hid : S1024x64x1024.Idx → Elt F .f32) (ini : S1024.Idx → Elt F .f32) (b : Fin 64) (k : Fin 1024) :
    Scalar.select (IntOp.cmpi .sgt ((tbl m 1 : S64.Idx → BitVec 32) (ix1 b)) 0#32)
        (hid (ix3 ⟨((tbl m 0 : S64.Idx → BitVec 32) (ix1 b)).toNat % 1024, Nat.mod_lt _ (by decide)⟩ b k)) (ini (ix1 k))
      = Cert.StackSpec.stackRow hid ini
          (Cert.StackSpec.selRow (m ((0 : Dev nD), Proc.devRef .tc main_arg4)) (m ((0 : Dev nD), Proc.devRef .tc main_arg5)) b) b k :=
  select_stackRow hid ini _ _ _ b k
    (Cert.KernelIdeal.Tables.valid_sgt (fun b => m ((0 : Dev nD), b)) hM b)
    (Cert.KernelIdeal.Tables.row_toNat (fun b => m ((0 : Dev nD), b)) hM b)

/-! ## What each point writes back, the cover, the final arrays -/

/-- What the two output arrays end holding: the specification's result of the arguments as launched. -/
abbrev G2 (c : Dev nD) : Buf (Elt F) ((c : Thread nD τ).loc main_v0_0) :=
  Cert.StackSpec.result (m ((c : Thread nD τ).loc main_arg0)) (m ((c : Thread nD τ).loc main_arg2))
    (m ((c : Thread nD τ).loc main_arg4)) (m ((c : Thread nD τ).loc main_arg5))
abbrev G3 (c : Dev nD) : Buf (Elt F) ((c : Thread nD τ).loc main_v0_1) :=
  Cert.StackSpec.result (m ((c : Thread nD τ).loc main_arg1)) (m ((c : Thread nD τ).loc main_arg3))
    (m ((c : Thread nD τ).loc main_arg4)) (m ((c : Thread nD τ).loc main_arg5))

/-- Point `t` writes back block `t` of the specification's result. -/
theorem flushed2_eq (hM : Cert.StackSpec.MasksOK (m ((0 : Dev nD), Proc.devRef .tc main_arg4))) (hH : Hyps m) (c : Dev nD)
    (t : Fin (cfgM m).N) :
    (dats m hH 0 c).flushed 2 t = (((cfgM m).win 2).blk t).view.read (Elt F) (G2 m c) := by
  show ((cfgM m).win 2).cut ((cfgM m).grid.coords t) ((dats m hH 0 c).after 2 t) = _
  rw [after_2]
  obtain rfl : c = 0 := Subsingleton.elim _ _
  refine funext fun (y : S8x1024.Idx) => ?_
  obtain ⟨j, k, rfl⟩ : ∃ j k, y = ix2 j k := ⟨y 0, y 1, eq_ix2 y⟩
  show out2At m hH 0 t (ix2 j k) = G2 m 0 ((((cfgM m).win 2).blk t).view.emb (ix2 j k))
  rw [out2At_apply, emb2, V_main_arg0, V_main_arg2]
  exact entry_eq m hM _ _ _ _

theorem flushed3_eq (hM : Cert.StackSpec.MasksOK (m ((0 : Dev nD), Proc.devRef .tc main_arg4))) (hH : Hyps m) (c : Dev nD)
    (t : Fin (cfgM m).N) :
    (dats m hH 0 c).flushed 3 t = (((cfgM m).win 3).blk t).view.read (Elt F) (G3 m c) := by
  show ((cfgM m).win 3).cut ((cfgM m).grid.coords t) ((dats m hH 0 c).after 3 t) = _
  rw [after_3]
  obtain rfl : c = 0 := Subsingleton.elim _ _
  refine funext fun (y : S8x1024.Idx) => ?_
  obtain ⟨j, k, rfl⟩ : ∃ j k, y = ix2 j k := ⟨y 0, y 1, eq_ix2 y⟩
  show out3At m hH 0 t (ix2 j k) = G3 m 0 ((((cfgM m).win 3).blk t).view.emb (ix2 j k))
  rw [out3At_apply, emb3, V_main_arg1, V_main_arg3]
  exact entry_eq m hM _ _ _ _

/-- Every entry of an output array lies in the block of point `row / 8`. -/
theorem covered2 (i : S64x1024.Idx) :
    ∃ t : Fin (cfgM m).N, ((cfgM m).win 2).flush t = true ∧ i ∈ (((cfgM m).win 2).blk t).view.set := by
  have hi0 : (i 0).val < 64 := (i 0).isLt
  have hi1 : (i 1).val < 1024 := (i 1).isLt
  have ht : (i 0).val / 8 < (cfgM m).N := by rw [show (cfgM m).N = 8 from N_0]; omega
  have key : ∀ a : Fin 2, ((cfgM m).win 2).index ⟨(i 0).val / 8, ht⟩ a * S8x1024.size a ≤ (i a).val
      ∧ (i a).val < ((cfgM m).win 2).index ⟨(i 0).val / 8, ht⟩ a * S8x1024.size a + S8x1024.size a := by
    intro a
    rw [index2]
    match a with
    | ⟨0, _⟩ => show (i 0).val / 8 * 8 ≤ (i 0).val ∧ (i 0).val < (i 0).val / 8 * 8 + 8; omega
    | ⟨1, _⟩ => show 0 * 1024 ≤ (i 1).val ∧ (i 1).val < 0 * 1024 + 1024; omega
  exact ⟨⟨(i 0).val / 8, ht⟩, flush2 m _,
    ((Finset.ext_iff.mp (View.set_slice_whole main_v0_0 (((cfgM m).win 2).rect ⟨(i 0).val / 8, ht⟩))) i).mpr (Rect.mem_set_unit.mpr key)⟩
theorem covered3 (i : S64x1024.Idx) :
    ∃ t : Fin (cfgM m).N, ((cfgM m).win 3).flush t = true ∧ i ∈ (((cfgM m).win 3).blk t).view.set := by
  have hi0 : (i 0).val < 64 := (i 0).isLt
  have hi1 : (i 1).val < 1024 := (i 1).isLt
  have ht : (i 0).val / 8 < (cfgM m).N := by rw [show (cfgM m).N = 8 from N_0]; omega
  have key : ∀ a : Fin 2, ((cfgM m).win 3).index ⟨(i 0).val / 8, ht⟩ a * S8x1024.size a ≤ (i a).val
      ∧ (i a).val < ((cfgM m).win 3).index ⟨(i 0).val / 8, ht⟩ a * S8x1024.size a + S8x1024.size a := by
    intro a
    rw [index3]
    match a with
    | ⟨0, _⟩ => show (i 0).val / 8 * 8 ≤ (i 0).val ∧ (i 0).val < (i 0).val / 8 * 8 + 8; omega
    | ⟨1, _⟩ => show 0 * 1024 ≤ (i 1).val ∧ (i 1).val < 0 * 1024 + 1024; omega
  exact ⟨⟨(i 0).val / 8, ht⟩, flush3 m _,
    ((Finset.ext_iff.mp (View.set_slice_whole main_v0_1 (((cfgM m).win 3).rect ⟨(i 0).val / 8, ht⟩))) i).mpr (Rect.mem_set_unit.mpr key)⟩

/-- So each output array ends holding the specification's result. -/
theorem final2 (hM : Cert.StackSpec.MasksOK (m ((0 : Dev nD), Proc.devRef .tc main_arg4))) (hH : Hyps m) (c : Dev nD) :
    (dats m hH 0 c).arrAt 2 (cfgM m).N = G2 m c :=
  (dats m hH 0 c).arrAt_eq_of_cover 2 (G2 m c) (fun t _ => flushed2_eq m hM hH c t) (covered2 m)
theorem final3 (hM : Cert.StackSpec.MasksOK (m ((0 : Dev nD), Proc.devRef .tc main_arg4))) (hH : Hyps m) (c : Dev nD) :
    (dats m hH 0 c).arrAt 3 (cfgM m).N = G3 m c :=
  (dats m hH 0 c).arrAt_eq_of_cover 3 (G3 m c) (fun t _ => flushed3_eq m hM hH c t) (covered3 m)

/-! ## The run, read -/

/-- From any memory with zero counters whose mask words are 0 or 1, every weakly fair execution of @main terminates;
    each output array ends holding the specification's result of the arguments, and every argument as launched. -/
theorem run_value (hM : Cert.StackSpec.MasksOK (m ((0 : Dev nD), Proc.devRef .tc main_arg4))) (hH : Hyps m) :
    θ_run defs (onTc (τ := τ) (main (F := F))) ⟨m, fun _ => 0, ρ⟩ (fun r => ∀ c : Dev nD,
      r.2.mem ((c.tc : Thread nD τ).loc main_v0_0)
        = Cert.StackSpec.result (m ((c.tc : Thread nD τ).loc main_arg0)) (m ((c.tc : Thread nD τ).loc main_arg2))
            (m ((c.tc : Thread nD τ).loc main_arg4)) (m ((c.tc : Thread nD τ).loc main_arg5))
      ∧ r.2.mem ((c.tc : Thread nD τ).loc main_v0_1)
        = Cert.StackSpec.result (m ((c.tc : Thread nD τ).loc main_arg1)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 2).trans (final2 m hM hH c),
      ((h c).1 3).trans (final3 m hM hH c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats m hH 0 c).arrAt_in 0 rfl _).trans ((A_eq m hH c 0).trans (V_main_arg2 m c))),
      ((h c).1 1).trans (((dats m hH 0 c).arrAt_in 1 rfl _).trans ((A_eq m hH c 1).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hH)

end Cert.KernelIdeal.KFrame

end
-- ==== Proof.lean ====
/-
  The proof of the claim: three frames, the (empty) idealization ledger, and the equality of the two idealized programs.

  Under the precondition every mask word is 0 or 1 and every operation word is -1, 0 or 1. The mask fact bounds each
  example's selected row by 1024, so the row words the kernel reads from its table name rows inside the state arrays
  and its body's side conditions hold at every grid point: the kernel runs, at either instance, and leaves its
  arguments alone. The reference is host operations only and runs unconditionally. At the ideal instance both end with
  the same two arrays: for every example and feature the entry of the selected stack row (the specification's
  `result`) — the kernel because it fetches exactly that row, the reference because its combination
  `prev · a + cur · (1 - a)` has a ∈ {0, 1}.
-/
import proofs.«407332_j39376260169764_2_alg».proof.Defs
import proofs.«407332_j39376260169764_2_alg».proof.Proof.Gen.Kernel
import proofs.«407332_j39376260169764_2_alg».proof.Proof.Gen.KernelIdeal
import proofs.«407332_j39376260169764_2_alg».proof.Proof.Gen.ReferenceIdeal
import proofs.«407332_j39376260169764_2_alg».proof.Proof.Gen.Pre_finite_inputs
import proofs.«407332_j39376260169764_2_alg».proof.Proof.PreFacts
import proofs.«407332_j39376260169764_2_alg».proof.Proof.KHyps
import proofs.«407332_j39376260169764_2_alg».proof.Proof.KFrameOf
import proofs.«407332_j39376260169764_2_alg».proof.Proof.BHyps
import proofs.«407332_j39376260169764_2_alg».proof.Proof.BFrameOf
import proofs.«407332_j39376260169764_2_alg».proof.Proof.RefRun
import proofs.«407332_j39376260169764_2_alg».proof.Proof.RefValue
import proofs.«407332_j39376260169764_2_alg».proof.Proof.KValue
import Idealize.ShloMosaic.Adequacy
import Idealize.ShloMosaic.Init

noncomputable section

namespace Cert.Proof

open Idealize.ShloMosaic Idealize.SL.Sem

/-- The word-level kernel runs and leaves its arguments alone: its table's row words are inside the arrays. -/
theorem frame_k : Cert.frame_Kernel (hKernel := Cert.Kernel.Gen.facts) (hPre_finite_inputs := Cert.Pre_finite_inputs.Gen.facts) :=
  fun m ρ hpre => Cert.Kernel.KFrame.frame m ρ
    (Cert.Kernel.KFrame.hyps_of_masks m (Cert.PreFacts.masksOK _ _ _ _ _ _ (hpre 0)))

/-- So does the idealized kernel. -/
theorem frame_ki : Cert.frame_KernelIdeal (hKernelIdeal := Cert.KernelIdeal.Gen.facts) (hPre_finite_inputs := Cert.Pre_finite_inputs.Gen.facts) :=
  fun m ρ hpre => Cert.KernelIdeal.KFrame.frame m ρ
    (Cert.KernelIdeal.KFrame.hyps_of_masks m (Cert.PreFacts.masksOK _ _ _ _ _ _ (hpre 0)))

/-- The reference is host operations only: it runs from any memory. -/
theorem frame_ri : Cert.frame_ReferenceIdeal (hReferenceIdeal := Cert.ReferenceIdeal.Gen.facts) (hPre_finite_inputs := Cert.Pre_finite_inputs.Gen.facts) :=
  fun m g _ => Cert.ReferenceIdeal.RefRun.frame m g

/-- At the ideal instance both programs end with the specification's two arrays: the kernel by its run read back
    block by block, the reference by its host operations read entry by entry, from memories that agree on the six
    arguments — so the mask and operation facts of one memory are the other's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  have hM := Cert.PreFacts.masksOK _ _ _ _ _ _ (hpre 0)
  have hO := Cert.PreFacts.opOK _ _ _ _ _ _ (hpre 0)
  refine ⟨fun c => Cert.StackSpec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.StackSpec.result (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KFrame.run_value m g hM (Cert.KernelIdeal.KFrame.hyps_of_masks m hM), ?_⟩
  refine (θ_run Cert.ReferenceIdeal.defs _ _).mono (fun _ h c => ⟨(h c).1.trans ?_, (h c).2.1.trans ?_, (h c).2.2⟩)
    (Cert.ReferenceIdeal.RefRun.run m' g')
  · obtain rfl : c = 0 := Subsingleton.elim _ _
    obtain ⟨e0, e1, e2, e3, e4, e5⟩ := hagree 0
    have h0 : m' ((0 : Dev Cert.ReferenceIdeal.nD), Proc.devRef .tc Cert.ReferenceIdeal.main_arg0) = m ((0 : Dev Cert.KernelIdeal.nD), Proc.devRef .tc Cert.KernelIdeal.main_arg0) := e0
    have h2 : m' ((0 : Dev Cert.ReferenceIdeal.nD), Proc.devRef .tc Cert.ReferenceIdeal.main_arg2) = m ((0 : Dev Cert.KernelIdeal.nD), Proc.devRef .tc Cert.KernelIdeal.main_arg2) := e2
    have h4 : m' ((0 : Dev Cert.ReferenceIdeal.nD), Proc.devRef .tc Cert.ReferenceIdeal.main_arg4) = m ((0 : Dev Cert.KernelIdeal.nD), Proc.devRef .tc Cert.KernelIdeal.main_arg4) := e4
    have h5 : m' ((0 : Dev Cert.ReferenceIdeal.nD), Proc.devRef .tc Cert.ReferenceIdeal.main_arg5) = m ((0 : Dev Cert.KernelIdeal.nD), Proc.devRef .tc Cert.KernelIdeal.main_arg5) := e5
    have hM' : Cert.StackSpec.MasksOK (m' ((0 : Dev Cert.ReferenceIdeal.nD), Proc.devRef .tc Cert.ReferenceIdeal.main_arg4)) := by rw [h4]; exact hM
    have hO' : Cert.StackSpec.OpOK (m' ((0 : Dev Cert.ReferenceIdeal.nD), Proc.devRef .tc Cert.ReferenceIdeal.main_arg5)) := by rw [h5]; exact hO
    refine (Cert.ReferenceIdeal.RefValue.out_h (fun b => m' ((0 : Dev Cert.ReferenceIdeal.nD), b)) hM' hO').trans ?_
    show Cert.StackSpec.result (m' ((0 : Dev Cert.ReferenceIdeal.nD), Proc.devRef .tc Cert.ReferenceIdeal.main_arg0)) (m' ((0 : Dev Cert.ReferenceIdeal.nD), Proc.devRef .tc Cert.ReferenceIdeal.main_arg2))
      (m' ((0 : Dev Cert.ReferenceIdeal.nD), Proc.devRef .tc Cert.ReferenceIdeal.main_arg4)) (m' ((0 : Dev Cert.ReferenceIdeal.nD), Proc.devRef .tc Cert.ReferenceIdeal.main_arg5)) = _
    rw [h0, h2, h4, h5]
  · obtain rfl : c = 0 := Subsingleton.elim _ _
    obtain ⟨e0, e1, e2, e3, e4, e5⟩ := hagree 0
    have h1 : m' ((0 : Dev Cert.ReferenceIdeal.nD), Proc.devRef .tc Cert.ReferenceIdeal.main_arg1) = m ((0 : Dev Cert.KernelIdeal.nD), Proc.devRef .tc Cert.KernelIdeal.main_arg1) := e1
    have h3 : m' ((0 : Dev Cert.ReferenceIdeal.nD), Proc.devRef .tc Cert.ReferenceIdeal.main_arg3) = m ((0 : Dev Cert.KernelIdeal.nD), Proc.devRef .tc Cert.KernelIdeal.main_arg3) := e3
    have h4 : m' ((0 : Dev Cert.ReferenceIdeal.nD), Proc.devRef .tc Cert.ReferenceIdeal.main_arg4) = m ((0 : Dev Cert.KernelIdeal.nD), Proc.devRef .tc Cert.KernelIdeal.main_arg4) := e4
    have h5 : m' ((0 : Dev Cert.ReferenceIdeal.nD), Proc.devRef .tc Cert.ReferenceIdeal.main_arg5) = m ((0 : Dev Cert.KernelIdeal.nD), Proc.devRef .tc Cert.KernelIdeal.main_arg5) := e5
    have hM' : Cert.StackSpec.MasksOK (m' ((0 : Dev Cert.ReferenceIdeal.nD), Proc.devRef .tc Cert.ReferenceIdeal.main_arg4)) := by rw [h4]; exact hM
    have hO' : Cert.StackSpec.OpOK (m' ((0 : Dev Cert.ReferenceIdeal.nD), Proc.devRef .tc Cert.ReferenceIdeal.main_arg5)) := by rw [h5]; exact hO
    refine (Cert.ReferenceIdeal.RefValue.out_c (fun b => m' ((0 : Dev Cert.ReferenceIdeal.nD), b)) hM' hO').trans ?_
    show Cert.StackSpec.result (m' ((0 : Dev Cert.ReferenceIdeal.nD), Proc.devRef .tc Cert.ReferenceIdeal.main_arg1)) (m' ((0 : Dev Cert.ReferenceIdeal.nD), Proc.devRef .tc Cert.ReferenceIdeal.main_arg3))
      (m' ((0 : Dev Cert.ReferenceIdeal.nD), Proc.devRef .tc Cert.ReferenceIdeal.main_arg4)) (m' ((0 : Dev Cert.ReferenceIdeal.nD), Proc.devRef .tc Cert.ReferenceIdeal.main_arg5)) = _
    rw [h1, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
